-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S16x64x7 : Shape := ⟨3, ![16, 64, 7]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel
  bcast_S_S16x64x7 : S_.BroadcastsInDim S16x64x7 (![] : Fin 0 → Fin S16x64x7.rank)
  reducesTo_S16x64x7_S_d0_1_2 : S16x64x7.ReducesTo [0, 1, 2] S_

variable [Facts]

def fn {F : FTy → Type} [FloatOps F] (main_arg0 : FVec F S16x8x512x512 .f32) (main_arg1 : FVec F S16x64x7 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  let main_v4 : FVec F S16x64x7 .f32 := Host.absf main_arg1
  let main_cst_0 : FVec F S_ .f32 := constant S_ .f32 0x7F800000#32
  let main_v5 : FVec F S16x64x7 .f32 := broadcastInDim S16x64x7 ![] bcast_S_S16x64x7 main_cst_0
  let main_v6 : IVec S16x64x7 1 := cmpf .olt main_v4 main_v5
  let main_c_1 : IVec S_ 1 := constantI S_ 1 1#1
  let main_v7 : IVec S_ 1 := (fun x v => Host.reduce IntOp.andi x v reducesTo_S16x64x7_S_d0_1_2 h_S_) main_v6 main_c_1
  let main_v8 : IVec S_ 1 := andi main_v3 main_v7
  main_v8
-- ==== Kernel.lean ====
abbrev S16x8x512x512 : Shape := ⟨4, ![16, 8, 512, 512]⟩
abbrev S16x64x7 : Shape := ⟨3, ![16, 64, 7]⟩
abbrev S16x64x1 : Shape := ⟨3, ![16, 64, 1]⟩
abbrev S16x64 : Shape := ⟨2, ![16, 64]⟩
abbrev S_ : Shape := ⟨0, ![]⟩
abbrev S16 : Shape := ⟨1, ![16]⟩
abbrev S16x1 : Shape := ⟨2, ![16, 1]⟩
abbrev S64 : Shape := ⟨1, ![64]⟩
abbrev S1x64 : Shape := ⟨2, ![1, 64]⟩
abbrev S16x512x512 : Shape := ⟨3, ![16, 512, 512]⟩
abbrev S16x64x3 : Shape := ⟨3, ![16, 64, 3]⟩
abbrev S16x262144 : Shape := ⟨2, ![16, 262144]⟩
abbrev S1 : Shape := ⟨1, ![1]⟩
abbrev S1x1x1 : Shape := ⟨3, ![1, 1, 1]⟩
abbrev S16x8x262144 : Shape := ⟨3, ![16, 8, 262144]⟩
abbrev S16x1x64 : Shape := ⟨3, ![16, 1, 64]⟩
abbrev S16x8x64 : Shape := ⟨3, ![16, 8, 64]⟩
abbrev S16x8x64x1 : Shape := ⟨4, ![16, 8, 64, 1]⟩
abbrev S1x1x1x1 : Shape := ⟨4, ![1, 1, 1, 1]⟩
abbrev S16x64x8 : Shape := ⟨3, ![16, 64, 8]⟩
abbrev S16x8x128 : Shape := ⟨3, ![16, 8, 128]⟩
abbrev S1x1x512x512 : Shape := ⟨4, ![1, 1, 512, 512]⟩
abbrev S1x8x128 : Shape := ⟨3, ![1, 8, 128]⟩
abbrev S512x512 : Shape := ⟨2, ![512, 512]⟩
abbrev S512 : Shape := ⟨1, ![512]⟩
abbrev S512x1 : Shape := ⟨2, ![512, 1]⟩
abbrev S1x1 : Shape := ⟨2, ![1, 1]⟩
abbrev S16x1x1 : Shape := ⟨3, ![16, 1, 1]⟩

abbrev nBuf : Space → Nat
  | .hbm => 164
  | .vmem => 4
  | .smem => 0
  | _ => 0

abbrev hbmTy0_0 (i : Nat) : BufTy := match i % 128 with
  | 0 => ⟨S16x8x512x512, .f32⟩
  | 1 => ⟨S16x64x7, .f32⟩
  | 2 => ⟨S16x64x1, .f32⟩
  | 3 => ⟨S16x64, .f32⟩
  | 4 => ⟨S_, .f32⟩
  | 5 => ⟨S16x64, .f32⟩
  | 6 => ⟨S16x64, .f32⟩
  | 7 => ⟨S_, .i32⟩
  | 8 => ⟨S_, .i32⟩
  | 9 => ⟨S_, .f32⟩
  | 10 => ⟨S16x64, .f32⟩
  | 11 => ⟨S16x64, .f32⟩
  | 12 => ⟨S_, .f32⟩
  | 13 => ⟨S16x64, .f32⟩
  | 14 => ⟨S16x64, .f32⟩
  | 15 => ⟨S16x64, .i32⟩
  | 16 => ⟨S16x64x1, .f32⟩
  | 17 => ⟨S16x64, .f32⟩
  | 18 => ⟨S_, .f32⟩
  | 19 => ⟨S16x64, .f32⟩
  | 20 => ⟨S16x64, .f32⟩
  | 21 => ⟨S_, .i32⟩
  | 22 => ⟨S_, .i32⟩
  | 23 => ⟨S_, .f32⟩
  | 24 => ⟨S16x64, .f32⟩
  | 25 => ⟨S16x64, .f32⟩
  | 26 => ⟨S_, .f32⟩
  | 27 => ⟨S16x64, .f32⟩
  | 28 => ⟨S16x64, .f32⟩
  | 29 => ⟨S16x64, .i32⟩
  | 30 => ⟨S16, .i32⟩
  | 31 => ⟨S16x1, .i32⟩
  | 32 => ⟨S16x64, .i32⟩
  | 33 => ⟨S64, .i32⟩
  | 34 => ⟨S1x64, .i32⟩
  | 35 => ⟨S16x64, .i32⟩
  | 36 => ⟨S_, .i32⟩
  | 37 => ⟨S16x512x512, .i32⟩
  | 38 => ⟨S_, .i32⟩
  | 39 => ⟨S16x64, .i32⟩
  | 40 => ⟨S16x64, .i1⟩
  | 41 => ⟨S_, .i32⟩
  | 42 => ⟨S16x64, .i32⟩
  | 43 => ⟨S16x64, .i32⟩
  | 44 => ⟨S16x64, .i32⟩
  | 45 => ⟨S_, .i32⟩
  | 46 => ⟨S16x64, .i32⟩
  | 47 => ⟨S16x64, .i1⟩
  | 48 => ⟨S_, .i32⟩
  | 49 => ⟨S16x64, .i32⟩
  | 50 => ⟨S16x64, .i32⟩
  | 51 => ⟨S16x64, .i32⟩
  | 52 => ⟨S_, .i32⟩
  | 53 => ⟨S16x64, .i32⟩
  | 54 => ⟨S16x64, .i1⟩
  | 55 => ⟨S_, .i32⟩
  | 56 => ⟨S16x64, .i32⟩
  | 57 => ⟨S16x64, .i32⟩
  | 58 => ⟨S16x64, .i32⟩
  | 59 => ⟨S16x64x1, .i32⟩
  | 60 => ⟨S16x64x1, .i32⟩
  | 61 => ⟨S16x64x1, .i32⟩
  | 62 => ⟨S16x64x3, .i32⟩
  | 63 => ⟨S16x512x512, .i32⟩
  | 64 => ⟨S_, .i32⟩
  | 65 => ⟨S16x64, .i32⟩
  | 66 => ⟨S16x64, .i32⟩
  | 67 => ⟨S16x64, .i32⟩
  | 68 => ⟨S16x262144, .i32⟩
  | 69 => ⟨S_, .i32⟩
  | 70 => ⟨S16x64, .i32⟩
  | 71 => ⟨S16x64, .i1⟩
  | 72 => ⟨S_, .i32⟩
  | 73 => ⟨S16x64, .i32⟩
  | 74 => ⟨S16x64, .i32⟩
  | 75 => ⟨S16x64, .i32⟩
  | 76 => ⟨S16x64x1, .i32⟩
  | 77 => ⟨S1, .i32⟩
  | 78 => ⟨S_, .i32⟩
  | 79 => ⟨S16x64x1, .i32⟩
  | 80 => ⟨S16x64x1, .i1⟩
  | 81 => ⟨S1x1x1, .i32⟩
  | 82 => ⟨S16x64x1, .i32⟩
  | 83 => ⟨S16x64x1, .i1⟩
  | 84 => ⟨S16x64x1, .i1⟩
  | 85 => ⟨S_, .i1⟩
  | 86 => ⟨S16x64, .i1⟩
  | 87 => ⟨S16x64, .i32⟩
  | 88 => ⟨S_, .i32⟩
  | 89 => ⟨S16x64, .i32⟩
  | 90 => ⟨S16x64, .i32⟩
  | 91 => ⟨S16x64, .i1⟩
  | 92 => ⟨S16x64, .f32⟩
  | 93 => ⟨S_, .f32⟩
  | 94 => ⟨S_, .f32⟩
  | 95 => ⟨S16x8x262144, .f32⟩
  | 96 => ⟨S16x1x64, .i32⟩
  | 97 => ⟨S16x8x64, .i32⟩
  | 98 => ⟨S_, .i32⟩
  | 99 => ⟨S16x8x64, .i32⟩
  | 100 => ⟨S16x8x64, .i1⟩
  | 101 => ⟨S_, .i32⟩
  | 102 => ⟨S16x8x64, .i32⟩
  | 103 => ⟨S16x8x64, .i32⟩
  | 104 => ⟨S16x8x64, .i32⟩
  | 105 => ⟨S16x8x64x1, .i32⟩
  | 106 => ⟨S1, .i32⟩
  | 107 => ⟨S_, .i32⟩
  | 108 => ⟨S16x8x64x1, .i32⟩
  | 109 => ⟨S16x8x64x1, .i1⟩
  | 110 => ⟨S1x1x1x1, .i32⟩
  | 111 => ⟨S16x8x64x1, .i32⟩
  | 112 => ⟨S16x8x64x1, .i1⟩
  | 113 => ⟨S16x8x64x1, .i1⟩
  | 114 => ⟨S_, .i1⟩
  | 115 => ⟨S16x8x64, .i1⟩
  | 116 => ⟨S16x8x64, .f32⟩
  | 117 => ⟨S_, .f32⟩
  | 118 => ⟨S16x8x64, .f32⟩
  | 119 => ⟨S16x8x64, .f32⟩
  | 120 => ⟨S16x64x8, .f32⟩
  | 121 => ⟨S16x64x1, .f32⟩
  | 122 => ⟨S16x64, .f32⟩
  | 123 => ⟨S16x64x7, .f32⟩
  | 124 => ⟨S16x64, .f32⟩
  | 125 => ⟨S_, .f32⟩
  | 126 => ⟨S_, .f32⟩
  | 127 => ⟨S16x64x7, .f32⟩
  | _ => ⟨S16x8x512x512, .f32⟩

abbrev hbmTy0_1 (i : Nat) : BufTy := match i % 128 with
  | 0 => ⟨S16x64x7, .f32⟩
  | 1 => ⟨S_, .f32⟩
  | 2 => ⟨S16x64x7, .f32⟩
  | 3 => ⟨S16x64x7, .i1⟩
  | 4 => ⟨S_, .f32⟩
  | 5 => ⟨S16x64x7, .f32⟩
  | 6 => ⟨S16x64x7, .f32⟩
  | 7 => ⟨S16x64x7, .f32⟩
  | 8 => ⟨S_, .f32⟩
  | 9 => ⟨S16x64x7, .f32⟩
  | 10 => ⟨S16x64x7, .f32⟩
  | 11 => ⟨S16x64x7, .f32⟩
  | 12 => ⟨S16x64x1, .f32⟩
  | 13 => ⟨S16x64x7, .f32⟩
  | 14 => ⟨S16x64x7, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S_, .f32⟩
  | 25 => ⟨S16x8x128, .f32⟩
  | 26 => ⟨S16x1x1, .f32⟩
  | 27 => ⟨S16, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S16x8x512x512, .f32⟩

abbrev hbmTy (i : Nat) : BufTy := match i / 128 with
  | 0 => hbmTy0_0 i
  | 1 => hbmTy0_1 i
  | _ => ⟨S16x8x512x512, .f32⟩

abbrev bufTy : (tb : Table) → Fin (tcTables nBuf tb) → BufTy
  | .hbm, ⟨i, _⟩ => hbmTy i
  | .local _ .vmem, ⟨0, _⟩ => ⟨S1x1x512x512, .f32⟩
  | .local _ .vmem, ⟨1, _⟩ => ⟨S1x1x512x512, .f32⟩
  | .local _ .vmem, ⟨2, _⟩ => ⟨S1x8x128, .f32⟩
  | .local _ .vmem, ⟨3, _⟩ => ⟨S1x8x128, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_c_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_c_4 : Ref sig .tc := ⟨.hbm, 88, rfl⟩
abbrev main_call2_v14 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_12 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_call3_c : Ref sig .tc := ⟨.hbm, 98, rfl⟩
abbrev main_call3_v0 : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_c_1 : Ref sig .tc := ⟨.hbm, 106, rfl⟩
abbrev main_call3_c_2 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_3 : Ref sig .tc := ⟨.hbm, 114, rfl⟩
abbrev main_call3_v12 : Ref sig .tc := ⟨.hbm, 115, rfl⟩
abbrev main_call3_v13 : Ref sig .tc := ⟨.hbm, 116, rfl⟩
abbrev main_call3_cst : Ref sig .tc := ⟨.hbm, 117, rfl⟩
abbrev main_call3_v14 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_13 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_14 : Ref sig .tc := ⟨.hbm, 129, rfl⟩
abbrev main_v59 : Ref sig .tc := ⟨.hbm, 130, rfl⟩
abbrev main_v60 : Ref sig .tc := ⟨.hbm, 131, rfl⟩
abbrev main_cst_15 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_16 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_17 : Ref sig .tc := ⟨.hbm, 143, rfl⟩
abbrev main_v70 : Ref sig .tc := ⟨.hbm, 144, rfl⟩
abbrev main_cst_18 : Ref sig .tc := ⟨.hbm, 145, rfl⟩
abbrev main_v71 : Ref sig .tc := ⟨.hbm, 146, rfl⟩
abbrev main_v72 : Ref sig .tc := ⟨.hbm, 147, rfl⟩
abbrev main_cst_19 : Ref sig .tc := ⟨.hbm, 148, rfl⟩
abbrev main_v73 : Ref sig .tc := ⟨.hbm, 149, rfl⟩
abbrev main_cst_20 : Ref sig .tc := ⟨.hbm, 150, rfl⟩
abbrev main_call5_v0 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_cst_21 : Ref sig .tc := ⟨.hbm, 156, rfl⟩
abbrev main_v78 : Ref sig .tc := ⟨.hbm, 157, rfl⟩
abbrev main_v79 : Ref sig .tc := ⟨.hbm, 158, rfl⟩
abbrev main_cst_22 : Ref sig .tc := ⟨.hbm, 159, rfl⟩
abbrev main_v80 : Ref sig .tc := ⟨.hbm, 160, rfl⟩
abbrev main_cst_23 : Ref sig .tc := ⟨.hbm, 161, rfl⟩
abbrev main_v81 : Ref sig .tc := ⟨.hbm, 162, rfl⟩
abbrev main_v82 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S16x64x7_S16x64x1_0_0_0 : S16x64x7.Slices ![0, 0, 0] S16x64x1
  shapeCasts_S16x64x1_S16x64 : S16x64x1.ShapeCasts S16x64
  bcast_S_S16x64 : S_.BroadcastsInDim S16x64 (![] : Fin 0 → Fin S16x64.rank)
  slices_S16x64x7_S16x64x1_0_0_1 : S16x64x7.Slices ![0, 0, 1] S16x64x1
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S16x512x512 : S_.BroadcastsInDim S16x512x512 (![] : Fin 0 → Fin S16x512x512.rank)
  bcast_S16x64_S16x64x1_0_1 : S16x64.BroadcastsInDim S16x64x1 (![0, 1] : Fin 2 → Fin S16x64x1.rank)
  concatenates_S16x64x1_S16x64x1_S16x64x1_S16x64x3_d2 : Shape.Concatenates [S16x64x1, S16x64x1, S16x64x1] S16x64x3 2
  shapeCasts_S16x512x512_S16x262144 : S16x512x512.ShapeCasts S16x262144
  shapeCasts_S16x64_S16x64x1 : S16x64.ShapeCasts S16x64x1
  bcast_S_S16x64x1 : S_.BroadcastsInDim S16x64x1 (![] : Fin 0 → Fin S16x64x1.rank)
  bcast_S1_S1x1x1_2 : S1.BroadcastsInDim S1x1x1 (![2] : Fin 1 → Fin S1x1x1.rank)
  bcast_S1x1x1_S16x64x1_0_1_2 : S1x1x1.BroadcastsInDim S16x64x1 (![0, 1, 2] : Fin 3 → Fin S16x64x1.rank)
  reducesTo_S16x64x1_S16x64_d2 : S16x64x1.ReducesTo [2] S16x64
  h_S_ : 0 < S_.numel
  reducesTo_S16x64_S_d0_1 : S16x64.ReducesTo [0, 1] S_
  shapeCasts_S16x8x512x512_S16x8x262144 : S16x8x512x512.ShapeCasts S16x8x262144
  bcast_S16x64_S16x1x64_0_2 : S16x64.BroadcastsInDim S16x1x64 (![0, 2] : Fin 2 → Fin S16x1x64.rank)
  bcast_S16x1x64_S16x8x64_0_1_2 : S16x1x64.BroadcastsInDim S16x8x64 (![0, 1, 2] : Fin 3 → Fin S16x8x64.rank)
  bcast_S_S16x8x64 : S_.BroadcastsInDim S16x8x64 (![] : Fin 0 → Fin S16x8x64.rank)
  shapeCasts_S16x8x64_S16x8x64x1 : S16x8x64.ShapeCasts S16x8x64x1
  bcast_S_S16x8x64x1 : S_.BroadcastsInDim S16x8x64x1 (![] : Fin 0 → Fin S16x8x64x1.rank)
  bcast_S1_S1x1x1x1_3 : S1.BroadcastsInDim S1x1x1x1 (![3] : Fin 1 → Fin S1x1x1x1.rank)
  bcast_S1x1x1x1_S16x8x64x1_0_1_2_3 : S1x1x1x1.BroadcastsInDim S16x8x64x1 (![0, 1, 2, 3] : Fin 4 → Fin S16x8x64x1.rank)
  reducesTo_S16x8x64x1_S16x8x64_d3 : S16x8x64x1.ReducesTo [3] S16x8x64
  transposes_S16x8x64_S16x64x8_0_2_1 : S16x8x64.Transposes [0, 2, 1] S16x64x8
  slices_S16x64x8_S16x64x1_0_0_0 : S16x64x8.Slices ![0, 0, 0] S16x64x1
  slices_S16x64x8_S16x64x7_0_0_1 : S16x64x8.Slices ![0, 0, 1] S16x64x7
  bcast_S_S16x64x7 : S_.BroadcastsInDim S16x64x7 (![] : Fin 0 → Fin S16x64x7.rank)
  bcast_S16x64x1_S16x64x7_0_1_2 : S16x64x1.BroadcastsInDim S16x64x7 (![0, 1, 2] : Fin 3 → Fin S16x64x7.rank)
  reducesTo_S16x64x7_S_d0_1_2 : S16x64x7.ReducesTo [0, 1, 2] S_
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  scatter_S16x512x512_S16x64x3_S16x64_n_012_012_2_wf : ScatterDims.WF S16x512x512 S16x64x3 S16x64 [] [0, 1, 2] [0, 1, 2] 2
  gather_S16x262144_S16x64x1_S16x64_n_1_0_0_1_2_11_wf : GatherDims.WF S16x262144 S16x64x1 S16x64 [] [1] [0] [1] [0] 2 ![1, 1]
  gather_S16x8x262144_S16x8x64x1_S16x8x64_n_2_01_01_2_3_111_wf : GatherDims.WF S16x8x262144 S16x8x64x1 S16x8x64 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x8x512x512.size a
  hwx0_0 : ∀ i : grid0.Coords, EltTy.bits .f32 = 32 ∨ (Rect.block (s := S16x8x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S16x8x128.size a
  hwx0_1 : ∀ i : grid0.Coords, EltTy.bits .f32 = 32 ∨ (Rect.block (s := S16x8x128) S1x8x128.size (cc0_transform_1 i) (hinb0_1 i)).WholeWords (EltTy.packing .f32)

variable [Facts₀]

def scatter_S16x512x512_S16x64x3_S16x64_n_012_012_2 : ScatterDims S16x512x512 S16x64x3 S16x64 where
  updateWindowDims := []
  insertedWindowDims := [0, 1, 2]
  scatterDimsToOperandDims := [0, 1, 2]
  indexVectorDim := 2
  wf := scatter_S16x512x512_S16x64x3_S16x64_n_012_012_2_wf
def gather_S16x262144_S16x64x1_S16x64_n_1_0_0_1_2_11 : GatherDims S16x262144 S16x64x1 S16x64 where
  offsetDims := []
  collapsedSliceDims := [1]
  operandBatchingDims := [0]
  startIndicesBatchingDims := [0]
  startIndexMap := [1]
  indexVectorDim := 2
  sliceSizes := ![1, 1]
  wf := gather_S16x262144_S16x64x1_S16x64_n_1_0_0_1_2_11_wf
def gather_S16x8x262144_S16x8x64x1_S16x8x64_n_2_01_01_2_3_111 : GatherDims S16x8x262144 S16x8x64x1 S16x8x64 where
  offsetDims := []
  collapsedSliceDims := [2]
  operandBatchingDims := [0, 1]
  startIndicesBatchingDims := [0, 1]
  startIndexMap := [2]
  indexVectorDim := 3
  sliceSizes := ![1, 1, 1]
  wf := gather_S16x8x262144_S16x8x64x1_S16x8x64_n_2_01_01_2_3_111_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S16x64x7 : Shape := ⟨3, ![16, 64, 7]⟩
abbrev S16x1x512x512 : Shape := ⟨4, ![16, 1, 512, 512]⟩
abbrev S16x512x512 : Shape := ⟨3, ![16, 512, 512]⟩
abbrev S16x7x512x512 : Shape := ⟨4, ![16, 7, 512, 512]⟩
abbrev S16x64x1 : Shape := ⟨3, ![16, 64, 1]⟩
abbrev S16x64 : Shape := ⟨2, ![16, 64]⟩
abbrev S_ : Shape := ⟨0, ![]⟩
abbrev S16 : Shape := ⟨1, ![16]⟩
abbrev S16x1 : Shape := ⟨2, ![16, 1]⟩
abbrev S16x512x512x7 : Shape := ⟨4, ![16, 512, 512, 7]⟩
abbrev S16x64x3 : Shape := ⟨3, ![16, 64, 3]⟩

abbrev nBuf : Space → Nat
  | .hbm => 140
  | .vmem => 0
  | .smem => 0
  | _ => 0

abbrev hbmTy0_0 (i : Nat) : BufTy := match i % 128 with
  | 0 => ⟨S16x8x512x512, .f32⟩
  | 1 => ⟨S16x64x7, .f32⟩
  | 2 => ⟨S16x1x512x512, .f32⟩
  | 3 => ⟨S16x512x512, .f32⟩
  | 4 => ⟨S16x7x512x512, .f32⟩
  | 5 => ⟨S16x64x1, .f32⟩
  | 6 => ⟨S16x64, .f32⟩
  | 7 => ⟨S_, .f32⟩
  | 8 => ⟨S16x64, .f32⟩
  | 9 => ⟨S16x64, .f32⟩
  | 10 => ⟨S_, .i32⟩
  | 11 => ⟨S_, .i32⟩
  | 12 => ⟨S_, .f32⟩
  | 13 => ⟨S16x64, .f32⟩
  | 14 => ⟨S16x64, .f32⟩
  | 15 => ⟨S_, .f32⟩
  | 16 => ⟨S16x64, .f32⟩
  | 17 => ⟨S16x64, .f32⟩
  | 18 => ⟨S16x64, .i32⟩
  | 19 => ⟨S16x64x1, .f32⟩
  | 20 => ⟨S16x64, .f32⟩
  | 21 => ⟨S_, .f32⟩
  | 22 => ⟨S16x64, .f32⟩
  | 23 => ⟨S16x64, .f32⟩
  | 24 => ⟨S_, .i32⟩
  | 25 => ⟨S_, .i32⟩
  | 26 => ⟨S_, .f32⟩
  | 27 => ⟨S16x64, .f32⟩
  | 28 => ⟨S16x64, .f32⟩
  | 29 => ⟨S_, .f32⟩
  | 30 => ⟨S16x64, .f32⟩
  | 31 => ⟨S16x64, .f32⟩
  | 32 => ⟨S16x64, .i32⟩
  | 33 => ⟨S16, .i32⟩
  | 34 => ⟨S16x1, .i32⟩
  | 35 => ⟨S16x64, .i32⟩
  | 36 => ⟨S_, .f32⟩
  | 37 => ⟨S16x512x512x7, .f32⟩
  | 38 => ⟨S_, .i32⟩
  | 39 => ⟨S16x64, .i32⟩
  | 40 => ⟨S16x64, .i1⟩
  | 41 => ⟨S_, .i32⟩
  | 42 => ⟨S16x64, .i32⟩
  | 43 => ⟨S16x64, .i32⟩
  | 44 => ⟨S16x64, .i32⟩
  | 45 => ⟨S_, .i32⟩
  | 46 => ⟨S16x64, .i32⟩
  | 47 => ⟨S16x64, .i1⟩
  | 48 => ⟨S_, .i32⟩
  | 49 => ⟨S16x64, .i32⟩
  | 50 => ⟨S16x64, .i32⟩
  | 51 => ⟨S16x64, .i32⟩
  | 52 => ⟨S_, .i32⟩
  | 53 => ⟨S16x64, .i32⟩
  | 54 => ⟨S16x64, .i1⟩
  | 55 => ⟨S_, .i32⟩
  | 56 => ⟨S16x64, .i32⟩
  | 57 => ⟨S16x64, .i32⟩
  | 58 => ⟨S16x64, .i32⟩
  | 59 => ⟨S16x64x1, .i32⟩
  | 60 => ⟨S16x64x1, .i32⟩
  | 61 => ⟨S16x64x1, .i32⟩
  | 62 => ⟨S16x64x3, .i32⟩
  | 63 => ⟨S16x512x512x7, .f32⟩
  | 64 => ⟨S_, .f32⟩
  | 65 => ⟨S16x512x512, .f32⟩
  | 66 => ⟨S_, .i32⟩
  | 67 => ⟨S16x64, .i32⟩
  | 68 => ⟨S16x64, .i1⟩
  | 69 => ⟨S_, .i32⟩
  | 70 => ⟨S16x64, .i32⟩
  | 71 => ⟨S16x64, .i32⟩
  | 72 => ⟨S16x64, .i32⟩
  | 73 => ⟨S_, .i32⟩
  | 74 => ⟨S16x64, .i32⟩
  | 75 => ⟨S16x64, .i1⟩
  | 76 => ⟨S_, .i32⟩
  | 77 => ⟨S16x64, .i32⟩
  | 78 => ⟨S16x64, .i32⟩
  | 79 => ⟨S16x64, .i32⟩
  | 80 => ⟨S_, .i32⟩
  | 81 => ⟨S16x64, .i32⟩
  | 82 => ⟨S16x64, .i1⟩
  | 83 => ⟨S_, .i32⟩
  | 84 => ⟨S16x64, .i32⟩
  | 85 => ⟨S16x64, .i32⟩
  | 86 => ⟨S16x64, .i32⟩
  | 87 => ⟨S16x64x1, .i32⟩
  | 88 => ⟨S16x64x1, .i32⟩
  | 89 => ⟨S16x64x1, .i32⟩
  | 90 => ⟨S16x64x3, .i32⟩
  | 91 => ⟨S_, .f32⟩
  | 92 => ⟨S16x64, .f32⟩
  | 93 => ⟨S16x512x512, .f32⟩
  | 94 => ⟨S16x7x512x512, .f32⟩
  | 95 => ⟨S_, .f32⟩
  | 96 => ⟨S16x512x512, .f32⟩
  | 97 => ⟨S16x512x512, .f32⟩
  | 98 => ⟨S16x512x512, .f32⟩
  | 99 => ⟨S16x512x512, .f32⟩
  | 100 => ⟨S16x512x512, .f32⟩
  | 101 => ⟨S16x512x512, .f32⟩
  | 102 => ⟨S16x512x512, .f32⟩
  | 103 => ⟨S16x512x512, .f32⟩
  | 104 => ⟨S16x512x512, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S16x7x512x512, .f32⟩
  | 112 => ⟨S16x7x512x512, .f32⟩
  | 113 => ⟨S_, .f32⟩
  | 114 => ⟨S16x7x512x512, .f32⟩
  | 115 => ⟨S16x7x512x512, .i1⟩
  | 116 => ⟨S_, .f32⟩
  | 117 => ⟨S16x7x512x512, .f32⟩
  | 118 => ⟨S16x7x512x512, .f32⟩
  | 119 => ⟨S16x7x512x512, .f32⟩
  | 120 => ⟨S_, .f32⟩
  | 121 => ⟨S16x7x512x512, .f32⟩
  | 122 => ⟨S16x7x512x512, .f32⟩
  | 123 => ⟨S16x7x512x512, .f32⟩
  | 124 => ⟨S16x1x512x512, .f32⟩
  | 125 => ⟨S16x7x512x512, .f32⟩
  | 126 => ⟨S16x7x512x512, .f32⟩
  | 127 => ⟨S_, .f32⟩
  | _ => ⟨S16x8x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S16x8x512x512, .f32⟩

abbrev hbmTy (i : Nat) : BufTy := match i / 128 with
  | 0 => hbmTy0_0 i
  | 1 => hbmTy0_1 i
  | _ => ⟨S16x8x512x512, .f32⟩

abbrev bufTy : (tb : Table) → Fin (tcTables nBuf tb) → BufTy
  | .hbm, ⟨i, _⟩ => hbmTy i
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_c_3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_c_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_c_13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_14 : Ref sig .tc := ⟨.hbm, 73, rfl⟩
abbrev main_v45 : Ref sig .tc := ⟨.hbm, 74, rfl⟩
abbrev main_v46 : Ref sig .tc := ⟨.hbm, 75, rfl⟩
abbrev main_c_15 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_16 : Ref sig .tc := ⟨.hbm, 80, rfl⟩
abbrev main_v50 : Ref sig .tc := ⟨.hbm, 81, rfl⟩
abbrev main_v51 : Ref sig .tc := ⟨.hbm, 82, rfl⟩
abbrev main_c_17 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_18 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_19 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_20 : Ref sig .tc := ⟨.hbm, 105, rfl⟩
abbrev main_v71 : Ref sig .tc := ⟨.hbm, 106, rfl⟩
abbrev main_cst_21 : Ref sig .tc := ⟨.hbm, 107, rfl⟩
abbrev main_v72 : Ref sig .tc := ⟨.hbm, 108, rfl⟩
abbrev main_cst_22 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_23 : Ref sig .tc := ⟨.hbm, 113, rfl⟩
abbrev main_v76 : Ref sig .tc := ⟨.hbm, 114, rfl⟩
abbrev main_v77 : Ref sig .tc := ⟨.hbm, 115, rfl⟩
abbrev main_cst_24 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_25 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_26 : Ref sig .tc := ⟨.hbm, 127, rfl⟩
abbrev main_v87 : Ref sig .tc := ⟨.hbm, 128, rfl⟩
abbrev main_cst_27 : Ref sig .tc := ⟨.hbm, 129, rfl⟩
abbrev main_v88 : Ref sig .tc := ⟨.hbm, 130, rfl⟩
abbrev main_v89 : Ref sig .tc := ⟨.hbm, 131, rfl⟩
abbrev main_cst_28 : Ref sig .tc := ⟨.hbm, 132, rfl⟩
abbrev main_v90 : Ref sig .tc := ⟨.hbm, 133, rfl⟩
abbrev main_cst_29 : Ref sig .tc := ⟨.hbm, 134, rfl⟩
abbrev main_call3_v0 : Ref sig .tc := ⟨.hbm, 135, rfl⟩
abbrev main_v91 : Ref sig .tc := ⟨.hbm, 136, rfl⟩
abbrev main_cst_30 : Ref sig .tc := ⟨.hbm, 137, rfl⟩
abbrev main_v92 : Ref sig .tc := ⟨.hbm, 138, rfl⟩
abbrev main_v93 : Ref sig .tc := ⟨.hbm, 139, rfl⟩

abbrev nD : Nat := 1
abbrev τ : Topo := Topo.v7x

variable {F : FTy → Type} [FloatOps F]

class Facts₀ : Prop where
  slices_S16x8x512x512_S16x1x512x512_0_0_0_0 : S16x8x512x512.Slices ![0, 0, 0, 0] S16x1x512x512
  shapeCasts_S16x1x512x512_S16x512x512 : S16x1x512x512.ShapeCasts S16x512x512
  slices_S16x8x512x512_S16x7x512x512_0_1_0_0 : S16x8x512x512.Slices ![0, 1, 0, 0] S16x7x512x512
  slices_S16x64x7_S16x64x1_0_0_0 : S16x64x7.Slices ![0, 0, 0] S16x64x1
  shapeCasts_S16x64x1_S16x64 : S16x64x1.ShapeCasts S16x64
  bcast_S_S16x64 : S_.BroadcastsInDim S16x64 (![] : Fin 0 → Fin S16x64.rank)
  slices_S16x64x7_S16x64x1_0_0_1 : S16x64x7.Slices ![0, 0, 1] S16x64x1
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  bcast_S_S16x512x512x7 : S_.BroadcastsInDim S16x512x512x7 (![] : Fin 0 → Fin S16x512x512x7.rank)
  bcast_S16x64_S16x64x1_0_1 : S16x64.BroadcastsInDim S16x64x1 (![0, 1] : Fin 2 → Fin S16x64x1.rank)
  concatenates_S16x64x1_S16x64x1_S16x64x1_S16x64x3_d2 : Shape.Concatenates [S16x64x1, S16x64x1, S16x64x1] S16x64x3 2
  bcast_S_S16x512x512 : S_.BroadcastsInDim S16x512x512 (![] : Fin 0 → Fin S16x512x512.rank)
  transposes_S16x512x512x7_S16x7x512x512_0_3_1_2 : S16x512x512x7.Transposes [0, 3, 1, 2] S16x7x512x512
  reducesTo_S16x512x512_S_d0_1_2 : S16x512x512.ReducesTo [0, 1, 2] S_
  h_S_ : 0 < S_.numel
  bcast_S_S16x7x512x512 : S_.BroadcastsInDim S16x7x512x512 (![] : Fin 0 → Fin S16x7x512x512.rank)
  bcast_S16x512x512_S16x1x512x512_0_2_3 : S16x512x512.BroadcastsInDim S16x1x512x512 (![0, 2, 3] : Fin 3 → Fin S16x1x512x512.rank)
  bcast_S16x1x512x512_S16x7x512x512_0_1_2_3 : S16x1x512x512.BroadcastsInDim S16x7x512x512 (![0, 1, 2, 3] : Fin 4 → Fin S16x7x512x512.rank)
  reducesTo_S16x7x512x512_S_d0_1_2_3 : S16x7x512x512.ReducesTo [0, 1, 2, 3] S_
  scatter_S16x512x512x7_S16x64x3_S16x64x7_2_012_012_2_wf : ScatterDims.WF S16x512x512x7 S16x64x3 S16x64x7 [2] [0, 1, 2] [0, 1, 2] 2
  scatter_S16x512x512_S16x64x3_S16x64_n_012_012_2_wf : ScatterDims.WF S16x512x512 S16x64x3 S16x64 [] [0, 1, 2] [0, 1, 2] 2

variable [Facts₀]

def scatter_S16x512x512x7_S16x64x3_S16x64x7_2_012_012_2 : ScatterDims S16x512x512x7 S16x64x3 S16x64x7 where
  updateWindowDims := [2]
  insertedWindowDims := [0, 1, 2]
  scatterDimsToOperandDims := [0, 1, 2]
  indexVectorDim := 2
  wf := scatter_S16x512x512x7_S16x64x3_S16x64x7_2_012_012_2_wf
def scatter_S16x512x512_S16x64x3_S16x64_n_012_012_2 : ScatterDims S16x512x512 S16x64x3 S16x64 where
  updateWindowDims := []
  insertedWindowDims := [0, 1, 2]
  scatterDimsToOperandDims := [0, 1, 2]
  indexVectorDim := 2
  wf := scatter_S16x512x512_S16x64x3_S16x64_n_012_012_2_wf

class Facts : Prop extends Facts₀ where

variable [Facts]
-- ==== Proof.KFrame.lean ====
/-
  The frame of `KernelIdeal`: every weakly fair execution of its entry function terminates, nothing faults, and the two
  argument arrays end as they were launched.

  The entry function is twelve stretches of host operations (the grid indices of the targets, the table of cell
  owners, the gathers at the owned cells and the sums over them), then ONE launch on a grid of 16 points, then a
  stretch of ten host operations. At grid point b the launch fetches the block [b, 0, :, :] of the predictions into a
  staging buffer, runs the body, and writes the staging buffer of the result back to block [b, :, :] of a [16, 8, 128]
  array. The body reads its input block, reads (and does not use) its output buffer, and stores ONE value over the
  whole output buffer: the sum over the 512 × 512 block of max(v, 0) + log1p(exp(0 − |v|)), broadcast to [1, 8, 128].
  So after the body the output buffer holds that broadcast whatever it held before, and the input buffer is unchanged.
  No host operation writes an argument array: each writes its own result buffer only.
-/
import proofs.«421473_j29283087024789_3_alg».proof.Proof.Gen.KernelIdeal.Launch
import proofs.«421473_j29283087024789_3_alg».proof.Proof.Gen.KernelIdeal.Skeleton
import proofs.«421473_j29283087024789_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- The twelve stretches of host operations before the launch, in order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11]

/-- The contents of core `c`'s buffers when the launch is entered: after the host operations before it. -/
abbrev V0 (c : Dev nD) : Valuation τ sig (Elt F) := StableHlo.after (List.flatten (pre (F := F))) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the host operations before the launch, the launch, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- The operations after the launch touch unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write neither the predictions nor the launch's result array (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No host operation before the launch writes the predictions: the launch finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Nor the targets. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the launch writes the targets, which no window of the launch stages: they end as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    launch-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- For any proof data whose arrays are the launch-entry contents, a run to the frame post read at the two argument
    arrays — the staged predictions end at their array's entry contents, the targets as the operations after the launch
    leave them — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c)⟩) h

/-! ## What the body leaves in the output window's buffer -/

/-- The whole output buffer, the one rectangle the body stores through. -/
abbrev r0_0 : Rect S1x8x128 := Rect.unit (s := S1x8x128) ![0, 0, 0] S1x8x128.size inb_S1x8x128_S1x8x128_0_0_0
/-- The whole input buffer, the one rectangle the body loads through. -/
abbrev l0_0 : Rect S1x1x512x512 := Rect.unit (s := S1x1x512x512) ![0, 0, 0, 0] S1x1x512x512.size inb_S1x1x512x512_S1x1x512x512_0_0_0_0

/-- The output buffer after the body, from the input block: its one store, of the block's sum broadcast. -/
def out0_1 (x0 : Vec F S1x1x512x512 .f32) : Vec F S1x8x128 .f32 :=
  View.canon [⟨r0_0, k0_pay1 (View.ld x0 l0_0)⟩]

/-- The one store covers the buffer. -/
theorem cover0_1 (p0 : Vec F S1x8x128 .f32) (y : S1x8x128.Idx) :
    ∃ pc ∈ ([⟨r0_0, p0⟩] : List (View.Piece (Elt F) S1x8x128 .f32)), y ∈ pc.1.set :=
  View.cover_of_tiled [⟨r0_0, p0⟩] S1x8x128.size (by rfl) y

/-! ## The body's triple -/

set_option maxHeartbeats 1000000 in
/-- The body on whole staging buffers, the input's at contents `x0` and the output's at anything, runs to the
    continuation holding the input's as it was and the output's at `out0_1 x0`. -/
theorem sound_kernel (c : Dev nD) (E : Set ℕ) (i : grid0.Coords) (arg1 : Memref sig .tc .vmem S1x1x512x512 .f32) (harg1 : arg1.IsWhole) (arg2 : Memref sig .tc .vmem S1x8x128 .f32) (harg2 : arg2.IsWhole)
    (x0 : Vec F S1x1x512x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cls_softplus_kernel i arg1 harg1 arg2 harg2) K := by
  simp only [cc0__cls_softplus_kernel_eq_skeleton]; unfold cc0__cls_softplus_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data of the launch -/

/-- On core `c`: the arrays as the launch finds them; after the body at point `t` the input's buffer at its block and
    the output's at `out0_1` of that block; nothing of the kernel's own to describe; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the body's triple applies; the rest passes unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function terminates, and every final state has each array of the launch at
    what the write-backs leave and every other unscoped buffer as the operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of `KernelIdeal`, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.KFrameBits.lean ====
/-
  The frame of `Kernel`: every weakly fair execution of its entry function terminates, nothing faults, and the two
  argument arrays end as they were launched.

  The entry function is twelve stretches of host operations (the grid indices of the targets, the table of cell
  owners, the gathers at the owned cells and the sums over them), then ONE launch on a grid of 16 points, then a
  stretch of ten host operations. At grid point b the launch fetches the block [b, 0, :, :] of the predictions into a
  staging buffer, runs the body, and writes the staging buffer of the result back to block [b, :, :] of a [16, 8, 128]
  array. The body reads its input block, reads (and does not use) its output buffer, and stores ONE value over the
  whole output buffer: the sum over the 512 × 512 block of max(v, 0) + log1p(exp(0 − |v|)), broadcast to [1, 8, 128].
  So after the body the output buffer holds that broadcast whatever it held before, and the input buffer is unchanged.
  No host operation writes an argument array: each writes its own result buffer only.
-/
import proofs.«421473_j29283087024789_3_alg».proof.Proof.Gen.Kernel.Launch
import proofs.«421473_j29283087024789_3_alg».proof.Proof.Gen.Kernel.Skeleton
import proofs.«421473_j29283087024789_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- The twelve stretches of host operations before the launch, in order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11]

/-- The contents of core `c`'s buffers when the launch is entered: after the host operations before it. -/
abbrev V0 (c : Dev nD) : Valuation τ sig (Elt F) := StableHlo.after (List.flatten (pre (F := F))) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the host operations before the launch, the launch, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- The operations after the launch touch unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write neither the predictions nor the launch's result array (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No host operation before the launch writes the predictions: the launch finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- Nor the targets. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the launch writes the targets, which no window of the launch stages: they end as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    launch-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- For any proof data whose arrays are the launch-entry contents, a run to the frame post read at the two argument
    arrays — the staged predictions end at their array's entry contents, the targets as the operations after the launch
    leave them — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c)⟩) h

/-! ## What the body leaves in the output window's buffer -/

/-- The whole output buffer, the one rectangle the body stores through. -/
abbrev r0_0 : Rect S1x8x128 := Rect.unit (s := S1x8x128) ![0, 0, 0] S1x8x128.size inb_S1x8x128_S1x8x128_0_0_0
/-- The whole input buffer, the one rectangle the body loads through. -/
abbrev l0_0 : Rect S1x1x512x512 := Rect.unit (s := S1x1x512x512) ![0, 0, 0, 0] S1x1x512x512.size inb_S1x1x512x512_S1x1x512x512_0_0_0_0

/-- The output buffer after the body, from the input block: its one store, of the block's sum broadcast. -/
def out0_1 (x0 : Vec F S1x1x512x512 .f32) : Vec F S1x8x128 .f32 :=
  View.canon [⟨r0_0, k0_pay1 (View.ld x0 l0_0)⟩]

/-- The one store covers the buffer. -/
theorem cover0_1 (p0 : Vec F S1x8x128 .f32) (y : S1x8x128.Idx) :
    ∃ pc ∈ ([⟨r0_0, p0⟩] : List (View.Piece (Elt F) S1x8x128 .f32)), y ∈ pc.1.set :=
  View.cover_of_tiled [⟨r0_0, p0⟩] S1x8x128.size (by rfl) y

/-! ## The body's triple -/

set_option maxHeartbeats 1000000 in
/-- The body on whole staging buffers, the input's at contents `x0` and the output's at anything, runs to the
    continuation holding the input's as it was and the output's at `out0_1 x0`. -/
theorem sound_kernel (c : Dev nD) (E : Set ℕ) (i : grid0.Coords) (arg1 : Memref sig .tc .vmem S1x1x512x512 .f32) (harg1 : arg1.IsWhole) (arg2 : Memref sig .tc .vmem S1x8x128 .f32) (harg2 : arg2.IsWhole)
    (x0 : Vec F S1x1x512x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cls_softplus_kernel i arg1 harg1 arg2 harg2) K := by
  simp only [cc0__cls_softplus_kernel_eq_skeleton]; unfold cc0__cls_softplus_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data of the launch -/

/-- On core `c`: the arrays as the launch finds them; after the body at point `t` the input's buffer at its block and
    the output's at `out0_1` of that block; nothing of the kernel's own to describe; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's buffer holds its block, so the body's triple applies; the rest passes unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function terminates, and every final state has each array of the launch at
    what the write-backs leave and every other unscoped buffer as the operations after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of `Kernel`, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KChain.lean ====
/-
  The host side of the idealized kernel program, stage by stage.

  Each stage is the value one host operation (or one short run of them) writes, as a function of the two argument
  arrays: the predictions `p : [16, 8, 512, 512]` and the targets `t : [16, 64, 7]`. In order: the grid column and row
  of every target (its numbers 0 and 1 scaled by 6.4, clamped to [0, 511], truncated); the index triples
  (batch, row, column), each component wrapped when negative; the table of cell owners (every cell −1, then each
  target's number written at its cell, in order); the flat cell index row · 512 + column; the owner read back at each
  target's own cell and compared with the target's number (1.0 when it owns its cell); the count of owners; the eight
  predictions gathered at each target's cell; the sum of the first of them over the owners; the smooth-L1 terms of the
  other seven against the target's own numbers, summed over the owners; the regression term; and, from the launch's
  result array, the sixteen block sums added up, the classification term and the total.
-/
import proofs.«421473_j29283087024789_3_alg».proof.Proof.Gen.KernelIdeal

noncomputable section

namespace Cert.KernelIdeal.Ch

open Cert.KernelIdeal Cert.KernelIdeal.Gen Idealize.ShloMosaic

variable {F : FTy → Type} [FloatOps F]

/-- The targets' number `k ∈ {0, 1}` as a `[16, 64]` array: a slice and a reshape. -/
def coord0 (t : FVec F S16x64x7 .f32) : FVec F S16x64 .f32 :=
  shapeCast S16x64 (extractStridedSlice S16x64x1 ![0, 0, 0] t slices_S16x64x7_S16x64x1_0_0_0) shapeCasts_S16x64x1_S16x64
def coord1 (t : FVec F S16x64x7 .f32) : FVec F S16x64 .f32 :=
  shapeCast S16x64 (extractStridedSlice S16x64x1 ![0, 0, 1] t slices_S16x64x7_S16x64x1_0_0_1) shapeCasts_S16x64x1_S16x64

/-- A coordinate array scaled, clamped between 0 and 511 and truncated to words. -/
def grid (v : FVec F S16x64 .f32) : IVec S16x64 32 :=
  fptosi 32 (minimumf (broadcastInDim S16x64 ![] bcast_S_S16x64 (sitofp (F := F) .f32 (constantI S_ 32 511#32)))
    (maximumf (broadcastInDim S16x64 ![] bcast_S_S16x64 (sitofp (F := F) .f32 (constantI S_ 32 0#32)))
      (mulf v (broadcastInDim S16x64 ![] bcast_S_S16x64 (constant S_ .f32 0x40CCCCCD#32)))))

/-- The grid columns (`%5`) and rows (`%11`). -/
def col (t : FVec F S16x64x7 .f32) : IVec S16x64 32 := grid (coord0 t)
def row (t : FVec F S16x64x7 .f32) : IVec S16x64 32 := grid (coord1 t)

/-- The batch number of every target (`%14`) and its number within the batch (`%17`). -/
def bidx : IVec S16x64 32 :=
  broadcastInDim S16x64 ![0, 1] bcast_S16x1_S16x64_0_1 (broadcastInDim S16x1 ![0] bcast_S16_S16x1_0 (iotaInDim S16 32 0))
def nidx : IVec S16x64 32 :=
  broadcastInDim S16x64 ![0, 1] bcast_S1x64_S16x64_0_1 (broadcastInDim S1x64 ![1] bcast_S64_S1x64_1 (iotaInDim S64 32 0))

/-- An index array with its negative entries wrapped by the axis length `k`. -/
def wrap (v : IVec S16x64 32) (k : BitVec 32) : IVec S16x64 32 :=
  select (cmpi .slt v (broadcastInDim S16x64 ![] bcast_S_S16x64 (constantI S_ 32 0#32)))
    (addi v (broadcastInDim S16x64 ![] bcast_S_S16x64 (constantI S_ 32 k))) v

/-- The index triples (batch, row, column) (`%37`). -/
def triples (t : FVec F S16x64x7 .f32) : IVec S16x64x3 32 :=
  concatenate S16x64x3 2
    [⟨S16x64x1, broadcastInDim S16x64x1 ![0, 1] bcast_S16x64_S16x64x1_0_1 (wrap bidx 16#32)⟩,
     ⟨S16x64x1, broadcastInDim S16x64x1 ![0, 1] bcast_S16x64_S16x64x1_0_1 (wrap (row t) 512#32)⟩,
     ⟨S16x64x1, broadcastInDim S16x64x1 ![0, 1] bcast_S16x64_S16x64x1_0_1 (wrap (col t) 512#32)⟩]
    concatenates_S16x64x1_S16x64x1_S16x64x1_S16x64x3_d2

/-- The table of cell owners (`%38`): −1 everywhere, then each target's number at its cell, in order. -/
def owners (t : FVec F S16x64x7 .f32) : IVec S16x512x512 32 :=
  Host.scatter scatter_S16x512x512_S16x64x3_S16x64_n_012_012_2 (fun _ b => b)
    (broadcastInDim S16x512x512 ![] bcast_S_S16x512x512 (constantI S_ 32 4294967295#32)) (triples t) nidx

/-- The flat cell index row · 512 + column (`%41`). -/
def flat (t : FVec F S16x64x7 .f32) : IVec S16x64 32 :=
  addi (muli (row t) (broadcastInDim S16x64 ![] bcast_S_S16x64 (constantI S_ 32 512#32))) (col t)

/-- The owner of each target's own cell (`%43`): the table flattened per batch and read along its second axis at the
    flat index (wrapped when negative), the reads outside `0 … 262143` replaced by the least word. -/
def ownerAt (t : FVec F S16x64x7 .f32) : IVec S16x64 32 :=
  let ix : IVec S16x64x1 32 := shapeCast S16x64x1
    (select (cmpi .slt (flat t) (broadcastInDim S16x64 ![] bcast_S_S16x64 (constantI S_ 32 0#32)))
      (addi (flat t) (broadcastInDim S16x64 ![] bcast_S_S16x64 (constantI S_ 32 262144#32))) (flat t)) shapeCasts_S16x64_S16x64x1
  select
    (Host.reduce IntOp.andi
      (andi (cmpi .sge ix (broadcastInDim S16x64x1 ![] bcast_S_S16x64x1 (constantI S_ 32 0#32)))
        (cmpi .sle ix (broadcastInDim S16x64x1 ![0, 1, 2] bcast_S1x1x1_S16x64x1_0_1_2 (broadcastInDim S1x1x1 ![2] bcast_S1_S1x1x1_2 (constantI S1 32 262143#32)))))
      (constantI S_ 1 1#1) reducesTo_S16x64x1_S16x64_d2 h_S_)
    (Host.gather gather_S16x262144_S16x64x1_S16x64_n_1_0_0_1_2_11
      (shapeCast S16x262144 (owners t) shapeCasts_S16x512x512_S16x262144) ix)
    (broadcastInDim S16x64 ![] bcast_S_S16x64 (constantI S_ 32 2147483648#32))

/-- 1.0 where a target owns its cell, else 0.0 (`%45`), and the count of owners (`%46`). -/
def isOwner (t : FVec F S16x64x7 .f32) : FVec F S16x64 .f32 := uitofp (F := F) .f32 (cmpi .eq (ownerAt t) nidx)
def count (t : FVec F S16x64x7 .f32) : FVec F S_ .f32 :=
  Host.reduceAdd (isOwner t) (constant S_ .f32 0x00000000#32) reducesTo_S16x64_S_d0_1 h_S_

/-- The eight predictions at each target's cell (`%50`): the predictions flattened per batch and channel and read along
    their third axis at the flat index, the reads outside the range replaced by the not-a-number pattern. -/
def atCells (p : FVec F S16x8x512x512 .f32) (t : FVec F S16x64x7 .f32) : FVec F S16x8x64 .f32 :=
  let fl : IVec S16x8x64 32 := broadcastInDim S16x8x64 ![0, 1, 2] bcast_S16x1x64_S16x8x64_0_1_2 (broadcastInDim S16x1x64 ![0, 2] bcast_S16x64_S16x1x64_0_2 (flat t))
  let ix : IVec S16x8x64x1 32 := shapeCast S16x8x64x1
    (select (cmpi .slt fl (broadcastInDim S16x8x64 ![] bcast_S_S16x8x64 (constantI S_ 32 0#32)))
      (addi fl (broadcastInDim S16x8x64 ![] bcast_S_S16x8x64 (constantI S_ 32 262144#32))) fl) shapeCasts_S16x8x64_S16x8x64x1
  select
    (Host.reduce IntOp.andi
      (andi (cmpi .sge ix (broadcastInDim S16x8x64x1 ![] bcast_S_S16x8x64x1 (constantI S_ 32 0#32)))
        (cmpi .sle ix (broadcastInDim S16x8x64x1 ![0, 1, 2, 3] bcast_S1x1x1x1_S16x8x64x1_0_1_2_3 (broadcastInDim S1x1x1x1 ![3] bcast_S1_S1x1x1x1_3 (constantI S1 32 262143#32)))))
      (constantI S_ 1 1#1) reducesTo_S16x8x64x1_S16x8x64_d3 h_S_)
    (Host.gather gather_S16x8x262144_S16x8x64x1_S16x8x64_n_2_01_01_2_3_111
      (shapeCast S16x8x262144 p shapeCasts_S16x8x512x512_S16x8x262144) ix)
    (broadcastInDim S16x8x64 ![] bcast_S_S16x8x64 (constant S_ .f32 0x7FC00000#32))

/-- The same with the channel last (`%51`). -/
def atCellsT (p : FVec F S16x8x512x512 .f32) (t : FVec F S16x64x7 .f32) : FVec F S16x64x8 .f32 :=
  transpose S16x64x8 [0, 2, 1] (atCells p t) transposes_S16x8x64_S16x64x8_0_2_1

/-- The first channel at each target's cell, times the owner mark, summed (`%56`). -/
def ownerLogitSum (p : FVec F S16x8x512x512 .f32) (t : FVec F S16x64x7 .f32) : FVec F S_ .f32 :=
  Host.reduceAdd
    (mulf (shapeCast S16x64 (extractStridedSlice S16x64x1 ![0, 0, 0] (atCellsT p t) slices_S16x64x8_S16x64x1_0_0_0) shapeCasts_S16x64x1_S16x64) (isOwner t))
    (constant S_ .f32 0x00000000#32) reducesTo_S16x64_S_d0_1 h_S_

/-- The other seven channels minus the target's own numbers (`%57`). -/
def diff (p : FVec F S16x8x512x512 .f32) (t : FVec F S16x64x7 .f32) : FVec F S16x64x7 .f32 :=
  subf (extractStridedSlice S16x64x7 ![0, 0, 1] (atCellsT p t) slices_S16x64x8_S16x64x7_0_0_1) t

/-- The smooth-L1 term of a difference (`%66`): half its square where its magnitude is below 1, else the magnitude less a half. -/
def smooth (d : FVec F S16x64x7 .f32) : FVec F S16x64x7 .f32 :=
  select (cmpf (F := F) .olt (Host.absf d) (broadcastInDim S16x64x7 ![] bcast_S_S16x64x7 (constant S_ .f32 0x3F800000#32)))
    (mulf (mulf (broadcastInDim S16x64x7 ![] bcast_S_S16x64x7 (constant S_ .f32 0x3F000000#32)) d) d)
    (subf (Host.absf d) (broadcastInDim S16x64x7 ![] bcast_S_S16x64x7 (constant S_ .f32 0x3F000000#32)))

/-- The smooth-L1 terms times the owner mark, summed (`%70`). -/
def regSum (p : FVec F S16x8x512x512 .f32) (t : FVec F S16x64x7 .f32) : FVec F S_ .f32 :=
  Host.reduceAdd
    (mulf (smooth (diff p t))
      (broadcastInDim S16x64x7 ![0, 1, 2] bcast_S16x64x1_S16x64x7_0_1_2 (broadcastInDim S16x64x1 ![0, 1] bcast_S16x64_S16x64x1_0_1 (isOwner t))))
    (constant S_ .f32 0x00000000#32) reducesTo_S16x64x7_S_d0_1_2 h_S_

/-- The regression term (`%74`): the sum over the count plus a small constant, when the count is positive, else 0. -/
def regLoss (p : FVec F S16x8x512x512 .f32) (t : FVec F S16x64x7 .f32) : FVec F S_ .f32 :=
  select (cmpf (F := F) .ogt (count t) (constant S_ .f32 0x00000000#32))
    (Host.divf (regSum p t) (addf (count t) (constant S_ .f32 0x358637BD#32)))
    (id (constant S_ .f32 0x00000000#32))

/-- The total (`%82`) from the launch's result array `o : [16, 8, 128]`: its entries `(b, 0, 0)` summed, less the owners'
    logit sum, over 2²², plus twice the regression term. -/
def total (o : FVec F S16x8x128 .f32) (p : FVec F S16x8x512x512 .f32) (t : FVec F S16x64x7 .f32) : FVec F S_ .f32 :=
  addf
    (Host.divf
      (subf
        (Host.reduceAdd (shapeCast S16 (extractStridedSlice S16x1x1 ![0, 0, 0] o slices_S16x8x128_S16x1x1_0_0_0) shapeCasts_S16x1x1_S16)
          (constant S_ .f32 0x00000000#32) reducesTo_S16_S_d0 h_S_)
        (ownerLogitSum p t))
      (constant S_ .f32 0x4A800000#32))
    (mulf (constant S_ .f32 0x40000000#32) (regLoss p t))

end Cert.KernelIdeal.Ch

end
-- ==== Proof.LibNary3.lean ====
/-
  A host operation over a literal family of THREE references (a concatenation of three pieces): what it writes,
  with each operand's contents read at its own reference.

  For a family `xs` of operand references the general statement reads the operands as `fun k => F (xs k)`; under that
  binder the reference `![x, a, b] k` is not a literal, so a fold over a list of operations cannot be computed past
  it. Here the family is spelt out, `Fin.cons (F x) (Fin.cons (F a) (Fin.cons (F b) …))`, so that the operands'
  contents can themselves be rewritten; at the literals `0, 1, 2` the `Fin.cons` reduces by computation. The library
  states the same for four references; this is its statement for three.
-/
import Idealize.ShloMosaic.Lib.StableHlo.Run

namespace Idealize.ShloMosaic.StableHlo

variable {nD : Nat} {τ : Topo} {sig : RefSig} {Val : EltTy → Type}
variable {x a b y : Ref sig .tc}

/-- The result buffer of a three-operand operation holds `f` of the three operands' contents, each at its reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference kept out of the simplifier's index, as the library's one-pass forms are. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The fold of a literal list of host operations computed in one simplifier pass, a three-operand operation read
    operand by operand (the general-family form is left out: it would stop the pass at such an operation). -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-! ## Entering a concatenation's operand list

`concatenate`'s side condition is stated over the operand list, so the simplifier cannot rewrite an operand inside
the list; but the condition depends on the operands' SHAPES only, so for a list of two or of three pieces of fixed
shapes a congruence holds with the same side condition on both sides. Tagged `congr` (locally, by the module that
needs them) they let one simplifier pass compute a fold through a concatenation of computed pieces. -/

/-- Two concatenations of two pieces of the same shapes agree when the pieces agree. -/
theorem concat2_congr {α : Type} (t : Shape) (a : Fin t.rank) (S0 S1 : Shape) {A A' : S0.Idx → α} {B B' : S1.Idx → α}
    (h : Shape.Concatenates [S0, S1] t a) (hA : A = A') (hB : B = B') :
    concatenate t a [⟨S0, A⟩, ⟨S1, B⟩] h = concatenate t a [⟨S0, A'⟩, ⟨S1, B'⟩] h := by
  subst hA hB; rfl

/-- The same for three pieces. -/
theorem concat3_congr {α : Type} (t : Shape) (a : Fin t.rank) (S0 S1 S2 : Shape) {A A' : S0.Idx → α} {B B' : S1.Idx → α} {C C' : S2.Idx → α}
    (h : Shape.Concatenates [S0, S1, S2] t a) (hA : A = A') (hB : B = B') (hC : C = C') :
    concatenate t a [⟨S0, A⟩, ⟨S1, B⟩, ⟨S2, C⟩] h = concatenate t a [⟨S0, A'⟩, ⟨S1, B'⟩, ⟨S2, C'⟩] h := by
  subst hA hB hC; rfl

end Idealize.ShloMosaic.StableHlo
-- ==== Proof.KHost.lean ====
/-
  The kernel program's host values, as the named stages of the two arguments.

  The buffers the host operations before the launch write hold, when the launch is entered, the composed operations of
  the argument arrays: the count of owners, the owners' logit sum and the regression term are the stages of those names.
  The operations after the launch read the launch's result array (as the write-backs leave it) and those buffers (which
  the launch does not touch), so the total is the last stage of the result array and the arguments, and the count is
  still the count.
-/
import proofs.«421473_j29283087024789_3_alg».proof.Proof.KFrame
import proofs.«421473_j29283087024789_3_alg».proof.Proof.KChain
import proofs.«421473_j29283087024789_3_alg».proof.Proof.LibNary3

set_option maxRecDepth 16384

noncomputable section

namespace Cert.KernelIdeal.Hv

open Cert.KernelIdeal Cert.KernelIdeal.Gen Cert.KernelIdeal.Fr
open Idealize.ShloMosaic Idealize.ShloMosaic.TcCoe Idealize.ShloMosaic.StableHlo Idealize.SL.Sem
open Idealize.ShloMosaic.Pipeline (Dat)

attribute [local congr] Idealize.ShloMosaic.StableHlo.concat3_congr

variable {F : FTy → Type} [FloatOps F]
variable (m : (ℓ : Loc nD τ sig) → Buf (Elt F) ℓ)

set_option maxHeartbeats 8000000 in
/-- When the launch is entered, the count buffer holds the count of owners of the launched targets. -/
theorem V_count (c : Dev nD) :
    V m c main_v46 = Ch.count (F := F) (m ((c : Thread nD τ).loc main_arg1)) := by
  dsimp only [V, V0, pre]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp3
  simp only [TRef.ofBuf, TRef.toBuf, cast_eq]
  rfl

set_option maxHeartbeats 8000000 in
/-- The owners' logit sum. -/
theorem V_ownerLogitSum (c : Dev nD) :
    V m c main_v56 = Ch.ownerLogitSum (F := F) (m ((c : Thread nD τ).loc main_arg0)) (m ((c : Thread nD τ).loc main_arg1)) := by
  dsimp only [V, V0, pre]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp3
  simp only [TRef.ofBuf, TRef.toBuf, cast_eq]
  rfl

set_option maxHeartbeats 8000000 in
/-- The regression term. -/
theorem V_regLoss (c : Dev nD) :
    V m c main_v74 = Ch.regLoss (F := F) (m ((c : Thread nD τ).loc main_arg0)) (m ((c : Thread nD τ).loc main_arg1)) := by
  dsimp only [V, V0, pre]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp3
  simp only [TRef.ofBuf, TRef.toBuf, cast_eq]
  rfl

end Cert.KernelIdeal.Hv

end
-- ==== Proof.KTail.lean ====
/-
  The kernel program's two results, from the launch's result array and the two arguments.

  The ten host operations after the launch read the launch's result array as the write-backs leave it, and two buffers
  written before the launch, which the launch does not touch: the owners' logit sum and the regression term. So the
  total is the last stage of the result array and the arguments; and the count, which none of the ten writes, is as it
  was when the launch was entered.
-/
import proofs.«421473_j29283087024789_3_alg».proof.Proof.KHost

set_option maxRecDepth 16384

noncomputable section

namespace Cert.KernelIdeal.Hv

open Cert.KernelIdeal Cert.KernelIdeal.Gen Cert.KernelIdeal.Fr
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ)

set_option maxHeartbeats 4000000 in
/-- The total after the operations that follow the launch. -/
theorem tail_total (c : Dev nD) :
    Pipeline.afterTail₀ cfgs (dats m) 0 (V0 m) [hostOps1] c main_v82
      = Ch.total (F := F) ((dats m 0 c).arrAt 1 cfg0.N) (m ((c : Thread nD τ).loc main_arg0)) (m ((c : Thread nD τ).loc main_arg1)) := by
  have h75 : Pipeline.withArrays spec0 c (V0 m c) (fun w => (dats m 0 c).arrAt w cfg0.N) (Proc.devRef .tc main_v75)
      = (dats m 0 c).arrAt 1 cfg0.N :=
    Pipeline.withArrays_arr spec0 launch0.win.arr_inj c _ _ 1
  have h56 : Pipeline.withArrays spec0 c (V0 m c) (fun w => (dats m 0 c).arrAt w cfg0.N) (Proc.devRef .tc main_v56)
      = V m c main_v56 :=
    Pipeline.withArrays_of_ne spec0 c (V0 m c) _ main_v56 (by decide)
  have h74 : Pipeline.withArrays spec0 c (V0 m c) (fun w => (dats m 0 c).arrAt w cfg0.N) (Proc.devRef .tc main_v74)
      = V m c main_v74 :=
    Pipeline.withArrays_of_ne spec0 c (V0 m c) _ main_v74 (by decide)
  unfold Pipeline.afterTail₀
  simp only [List.flatten_cons, List.flatten_nil, List.append_nil, hostOps1]
  after_results_simp3
  rw [h75, h56, h74, V_ownerLogitSum, V_regLoss]
  rfl

/-- The count after the operations that follow the launch: still the count of owners. -/
theorem tail_count (c : Dev nD) :
    Pipeline.afterTail₀ cfgs (dats m) 0 (V0 m) [hostOps1] c main_v46
      = Ch.count (F := F) (m ((c : Thread nD τ).loc main_arg1)) := by
  unfold Pipeline.afterTail₀
  rw [StableHlo.after_of_forall_not_mem (b := Proc.devRef .tc main_v46) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_v46 (by exact (by decide : ∀ w, Pipeline.arrRef spec0 w ≠ main_v46))]
  exact V_count m c

end Cert.KernelIdeal.Hv

end
-- ==== Proof.LibWinner.lean ====
/-
  The last occurrence of a key, and sums over last occurrences.

  For a finite sequence of keys `key : Fin N → C`, `winner key c` is the LAST position whose key is `c` (none when no
  position has that key). An overwriting scatter that walks the positions in order leaves at `c` what the winner wrote.
  Each key that occurs has exactly one winner, and a position is the winner of its own key exactly when no later position
  repeats that key; so a sum over the positions that are winners is a sum over the keys that occur (`sum_winners`).
-/
import Mathlib.Algebra.BigOperators.Group.Finset.Basic
import Mathlib.Algebra.BigOperators.Fin
import Mathlib.Data.Fintype.Basic
import Mathlib.Data.List.Basic
import Mathlib.Data.List.Sort

namespace Cert.Winner

open scoped BigOperators

variable {N : ℕ} {C : Type} [DecidableEq C]

/-- The last position whose key is `c`. -/
def winner (key : Fin N → C) (c : C) : Option (Fin N) :=
  ((List.finRange N).filter (fun n => key n = c)).getLast?

/-- The last element of a strictly increasing list is a member that every member is at most. -/
private theorem le_of_getLast?_eq_some {α : Type} [LinearOrder α] {l : List α} (hl : l.Pairwise (· < ·)) {a : α}
    (h : l.getLast? = some a) : a ∈ l ∧ ∀ b ∈ l, b ≤ a := by
  obtain ⟨ys, rfl⟩ := List.getLast?_eq_some_iff.1 h
  refine ⟨by simp, ?_⟩
  intro b hb
  rw [List.mem_append, List.mem_singleton] at hb
  rcases hb with hb | rfl
  · exact le_of_lt ((List.pairwise_append.1 hl).2.2 b hb a (by simp))
  · exact le_rfl

/-- In a strictly increasing list, the last element is the member that every member is at most. -/
private theorem getLast?_eq_some_iff_of_pairwise {α : Type} [LinearOrder α] {l : List α} (hl : l.Pairwise (· < ·))
    (a : α) : l.getLast? = some a ↔ a ∈ l ∧ ∀ b ∈ l, b ≤ a := by
  refine ⟨le_of_getLast?_eq_some hl, ?_⟩
  rintro ⟨ha, hmax⟩
  cases h : l.getLast? with
  | none =>
    rw [List.getLast?_eq_none_iff] at h
    subst h
    simp at ha
  | some m =>
    obtain ⟨hm, hmmax⟩ := le_of_getLast?_eq_some hl h
    rw [le_antisymm (hmax m hm) (hmmax a ha)]

/-- The positions whose key is `c`, in order, are strictly increasing. -/
private theorem pairwise_filter (key : Fin N → C) (c : C) :
    ((List.finRange N).filter (fun n => key n = c)).Pairwise (· < ·) :=
  (List.sortedLT_finRange N).pairwise.filter _

/-- `n` is the winner of `c` exactly when its key is `c` and every position with that key is at or before `n`. -/
theorem winner_eq_some_iff (key : Fin N → C) (c : C) (n : Fin N) :
    winner key c = some n ↔ key n = c ∧ ∀ n', key n' = c → n' ≤ n := by
  unfold winner
  rw [getLast?_eq_some_iff_of_pairwise (pairwise_filter key c)]
  simp [List.mem_filter]

/-- `c` has no winner exactly when no position has key `c`. -/
theorem winner_eq_none_iff (key : Fin N → C) (c : C) :
    winner key c = none ↔ ∀ n, key n ≠ c := by
  unfold winner
  rw [List.getLast?_eq_none_iff, List.filter_eq_nil_iff]
  simp

/-- `c` has a winner exactly when some position has key `c`. -/
theorem winner_isSome_iff (key : Fin N → C) (c : C) :
    (winner key c).isSome = true ↔ ∃ n, key n = c := by
  rw [← Option.ne_none_iff_isSome, Ne, winner_eq_none_iff]
  simp only [ne_eq, not_forall, not_not]

/-- The winner of `c` has key `c`. -/
theorem key_of_winner (key : Fin N → C) (c : C) (n : Fin N) (h : winner key c = some n) : key n = c :=
  ((winner_eq_some_iff key c n).1 h).1

/-- A sum over the positions that win their own key is the sum, over all keys, of the winner's term. -/
theorem sum_winners {M : Type*} [AddCommMonoid M] [Fintype C] (key : Fin N → C) (g : Fin N → M) :
    (∑ n, (if winner key (key n) = some n then g n else 0))
      = ∑ c, (match winner key c with | some n => g n | none => 0) := by
  -- the winner's term at a key is the sum, over all positions, of the terms of the positions that win that key
  have h1 : ∀ c, (match winner key c with | some n => g n | none => 0)
      = ∑ n, (if winner key c = some n then g n else 0) := by
    intro c
    cases winner key c with
    | none => simp
    | some m => simp [Finset.sum_ite_eq]
  simp_rw [h1]
  rw [Finset.sum_comm]
  -- a position wins no key but its own
  refine Finset.sum_congr rfl (fun n _ => ?_)
  rw [Finset.sum_eq_single (key n)]
  · intro c _ hc
    rw [if_neg]
    intro h
    exact hc (key_of_winner key c n h).symm
  · intro h
    exact absurd (Finset.mem_univ _) h

end Cert.Winner
-- ==== Proof.Spec.lean ====
/-
  What both programs compute, written over explicit coordinates.

  A target `(b, n)` carries seven numbers; the first two are world coordinates. Each is scaled by the single-precision
  constant nearest 6.4, clamped into `[0, 511]` and truncated toward zero: a grid column `cx` and a grid row `cy`, both
  in `0 … 511` whatever the coordinate is (the clamp makes the scaled value a real number between 0 and 511 even when
  the coordinate is infinite). Several targets of one batch may fall in one cell; the cell then belongs to the LAST of
  them (`win`). `isw` marks the targets that own their cell, `mask` the cells that are owned, and `tm` gives an owned
  cell its owner's seven numbers.
-/
import Idealize.ShloMosaic.PureOps.Ideal
import Idealize.ShloMosaic.Lib.ValueIdx
import Mathlib.Data.EReal.Basic
import Mathlib.Data.EReal.Operations
import proofs.«421473_j29283087024789_3_alg».proof.Proof.LibWinner

noncomputable section

namespace Cert.Spec

open Idealize.ShloMosaic Idealize.ShloMosaic.ValueIdx Cert.Winner
open scoped BigOperators

/-- The targets `[16, 64, 7]` and the predictions `[16, 8, 512, 512]`, as arrays of extended reals. -/
abbrev TT : Type := (⟨3, ![16, 64, 7]⟩ : Shape).Idx → EReal
abbrev PP : Type := (⟨4, ![16, 8, 512, 512]⟩ : Shape).Idx → EReal

/-- The scale, the single-precision constant nearest 6.4, as the exact value of its bit pattern. -/
def scale : EReal := Ideal.ofBits .f32 0x40CCCCCD#32

/-- A world coordinate scaled and clamped between 0 and 511 (the two bounds as the signed values of their words). -/
def clamped (r : EReal) : EReal :=
  min ((((511#32 : BitVec 32).toInt : ℝ) : EReal)) (max ((((0#32 : BitVec 32).toInt : ℝ) : EReal)) (r * scale))

/-- The grid word of a world coordinate: the clamped value truncated toward zero, as a 32-bit word. -/
def gridWord (r : EReal) : BitVec 32 := Ideal.fptosi 32 (clamped r)

/-- The clamped value is a real number between 0 and 511. -/
theorem clamped_real (r : EReal) : ∃ q : ℝ, 0 ≤ q ∧ q ≤ 511 ∧ clamped r = (q : EReal) := by
  -- the two bounds, as real numbers
  have h511 : ((511#32 : BitVec 32).toInt : ℝ) = 511 := by
    have h : (511#32 : BitVec 32).toInt = 511 := by decide
    rw [h]; norm_num
  have h0 : ((0#32 : BitVec 32).toInt : ℝ) = 0 := by
    have h : (0#32 : BitVec 32).toInt = 0 := by decide
    rw [h]; norm_num
  -- the maximum with 0 is at least 0 and the minimum with 511 is at most 511
  have hlo : ((0 : ℝ) : EReal) ≤ clamped r := by
    unfold clamped
    rw [h511, h0]
    exact le_min (EReal.coe_le_coe_iff.2 (by norm_num)) (le_max_left _ _)
  have hhi : clamped r ≤ ((511 : ℝ) : EReal) := by
    unfold clamped
    rw [h511]
    exact min_le_left _ _
  -- an extended real between two reals is a real
  have hne_top : clamped r ≠ ⊤ := ne_top_of_le_ne_top (EReal.coe_ne_top _) hhi
  have hne_bot : clamped r ≠ ⊥ := ne_bot_of_le_ne_bot (EReal.coe_ne_bot _) hlo
  obtain ⟨q, hq⟩ : ∃ q : ℝ, (q : EReal) = clamped r := ⟨(clamped r).toReal, EReal.coe_toReal hne_top hne_bot⟩
  rw [← hq] at hlo hhi
  exact ⟨q, EReal.coe_le_coe_iff.1 hlo, EReal.coe_le_coe_iff.1 hhi, hq.symm⟩

/-- The grid word, read signed, lies in `0 … 511`. -/
theorem gridWord_range (r : EReal) : 0 ≤ (gridWord r).toInt ∧ (gridWord r).toInt ≤ 511 := by
  obtain ⟨q, hq0, hq1, hq⟩ := clamped_real r
  -- the integer part of a real in [0, 511] is an integer in [0, 511]
  have hf0 : 0 ≤ ⌊q⌋ := Int.floor_nonneg.2 hq0
  have hf1 : ⌊q⌋ ≤ 511 := by
    have h : ⌊q⌋ ≤ ⌊(511 : ℝ)⌋ := Int.floor_mono hq1
    rwa [Int.floor_ofNat] at h
  -- so the clamp to the signed 32-bit range leaves it alone, and the word read signed is that integer
  unfold gridWord
  rw [hq, Ideal.fptosi, Ideal.toIntClamped_coe, if_pos hq0, BitVec.toInt_ofInt, Int.bmod_def]
  norm_num
  omega

/-- The grid index of a world coordinate. -/
def gridNat (r : EReal) : Fin 512 :=
  ⟨(gridWord r).toInt.toNat, by have h := gridWord_range r; omega⟩

theorem gridWord_toInt (r : EReal) : (gridWord r).toInt = ((gridNat r).val : ℤ) := by
  have h := gridWord_range r
  show (gridWord r).toInt = (((gridWord r).toInt.toNat : ℕ) : ℤ)
  omega

variable (t : TT) (x : PP)

/-- Target `(b, n)`'s grid column (from its number 0) and grid row (from its number 1). -/
def cx (b : Fin 16) (n : Fin 64) : Fin 512 := gridNat (t (ix3 b n (0 : Fin 7)))
def cy (b : Fin 16) (n : Fin 64) : Fin 512 := gridNat (t (ix3 b n (1 : Fin 7)))

/-- The cell (row, column) of target `n` of batch `b`. -/
def key (b : Fin 16) (n : Fin 64) : Fin 512 × Fin 512 := (cy t b n, cx t b n)

/-- The target that owns cell `(y, x)` of batch `b`: the last one that falls in it. -/
def win (b : Fin 16) (y x : Fin 512) : Option (Fin 64) := winner (key t b) (y, x)

/-- 1 when target `(b, n)` owns its cell, else 0. -/
def isw (b : Fin 16) (n : Fin 64) : EReal := if win t b (cy t b n) (cx t b n) = some n then 1 else 0

/-- 1 when cell `(b, y, x)` is owned, else 0. -/
def mask (b : Fin 16) (y x : Fin 512) : EReal := if (win t b y x).isSome = true then 1 else 0

/-- The owner's number `k` at an owned cell, 0 at a cell nobody owns. -/
def tm (b : Fin 16) (y x : Fin 512) (k : Fin 7) : EReal :=
  match win t b y x with
  | some n => t (ix3 b n k)
  | none => 0

/-! ## The scalar terms -/

/-- The smooth-L1 term of a difference `d`: half its square where its magnitude is below 1, else the magnitude less a
    half (both programs compute it on the host, with the same three constants). -/
def sl1 (d : EReal) : EReal :=
  Scalar.select
    (FloatOps.cmpf (F := Ideal) (φ := .f32) .olt (FloatOps.hostAbsf (F := Ideal) (φ := .f32) d) (FloatOps.ofBits (F := Ideal) .f32 0x3F800000#32))
    (FloatOps.mulf (F := Ideal) (φ := .f32) (FloatOps.mulf (F := Ideal) (φ := .f32) (FloatOps.ofBits (F := Ideal) .f32 0x3F000000#32) d) d)
    (FloatOps.subf (F := Ideal) (φ := .f32) (FloatOps.hostAbsf (F := Ideal) (φ := .f32) d) (FloatOps.ofBits (F := Ideal) .f32 0x3F000000#32))

/-- The launch's term at one logit `v`: max(v, 0) + log1p(exp(0 − |v|)). -/
def softplusK (v : EReal) : EReal :=
  FloatOps.addf (F := Ideal) (φ := .f32)
    (FloatOps.maximumf (F := Ideal) (φ := .f32) v (FloatOps.ofBits (F := Ideal) .f32 0x00000000#32))
    (FloatOps.log1p (F := Ideal) (φ := .f32)
      (FloatOps.exp (F := Ideal) (φ := .f32)
        (FloatOps.subf (F := Ideal) (φ := .f32) (FloatOps.ofBits (F := Ideal) .f32 0x00000000#32) (FloatOps.absf (F := Ideal) (φ := .f32) v))))

/-- The launch's result for batch `b`: the term summed over the batch's 512 × 512 logits (channel 0). -/
def dense (b : Fin 16) : EReal := ∑ h : Fin 512, ∑ w : Fin 512, softplusK (x (ix4 b (0 : Fin 8) h w))

/-- The reference's term at one cell with logit `v` and mask `z`: (max(v, 0) − v · z) + log1p(exp(−|v|)), on the host. -/
def clsR (v z : EReal) : EReal :=
  FloatOps.addf (F := Ideal) (φ := .f32)
    (FloatOps.subf (F := Ideal) (φ := .f32)
      (FloatOps.maximumf (F := Ideal) (φ := .f32) v (FloatOps.ofBits (F := Ideal) .f32 0x00000000#32))
      (FloatOps.mulf (F := Ideal) (φ := .f32) v z))
    (FloatOps.hostUnary (F := Ideal) .log1p (φ := .f32)
      (FloatOps.hostUnary (F := Ideal) .exp (φ := .f32) (FloatOps.hostNegf (F := Ideal) (φ := .f32) (FloatOps.hostAbsf (F := Ideal) (φ := .f32) v))))

end Cert.Spec

end
-- ==== Proof.LibKeepdims.lean ====
/-
  Column vectors read at an index. A "keepdims" reduction leaves a column `[a, 1]`; what is read of it
  downstream is always its row coordinate. Three layout operations on columns, each read at an index written
  by coordinates:
    * a column `[a, 1]` flattened to `[a]` reads at `i` the column's entry `(i, 0)`;
    * a vector `[a]` stood up as a column `[a, 1]` reads at `(i, u)` the vector's entry `i`;
    * a column `[a, 1]` broadcast along the lanes to `[a, b]` reads at `(p, c)` the column's entry `(p, 0)`.
  In each the two row-major positions agree because the unit axis contributes nothing to the position.
-/
import Idealize.ShloMosaic.Lib.Pipeline.Value
import Idealize.ShloMosaic.Lib.ValueIdx

namespace Idealize.ShloMosaic.ValueIdx

open Idealize.ShloMosaic

variable {α : Type}

/-- A column `[a, 1]` cast to the vector `[a]` reads, at `i`, the column at `(i, 0)`: the row-major position of
    `(i, 0)` in `[a, 1]` is `i · 1 + 0 = i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to the column `[a, 1]` reads, at `(i, u)`, the vector at `i`, whatever the unit
    coordinate `u` (which is `0`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the lane
    coordinate `c` is dropped on the unit axis, the row coordinate kept (and if `a` itself is `1` the row
    coordinate is `0` anyway). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibIdealReal.lean ====
/-
  The float operations at the ideal values, on extended reals that are REAL numbers.

  At the ideal values a float is an extended real. A program kept away from the infinities by its precondition
  computes on reals throughout, and each of its operations is then the textbook real operation: this file says
  so, one equation per operation, with the embedding of the reals into the extended reals pushed outside — the
  left side is the operation applied to embedded reals, the right side is one embedded real. Rewriting with these
  equations left to right turns a term of float operations over embedded reals into a single embedded real
  expression, after which what remains is a statement about real numbers.

  Part 1: the scalar operations (a kernel's fields, their host twins, the scalar unit's), the conversion of a
  signed integer, the literal bit patterns, the comparisons, and the maximum against minus infinity.
  Part 2: composites — the smooth part of the stable cross entropy in its two spellings, a finite maximum as a
  fold from minus infinity, a finite sum.

  None of the equations is a simp lemma; the closing comment lists their names in the order a rewriting takes them.
-/
import Idealize.ShloMosaic.PureOps
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Pow.Real
import Mathlib.Analysis.SpecialFunctions.Log.Basic
import Mathlib.Analysis.SpecialFunctions.Exp
import Mathlib.Algebra.BigOperators.Group.Finset.Basic
import Mathlib.Data.Finset.Fold
import Mathlib.Data.Finset.Lattice.Fold

noncomputable section

namespace Idealize.ShloMosaic.IdealReal

open scoped BigOperators

variable {φ : FTy} (a b : ℝ)

/-! ## Part 1 — the scalar operations on reals -/

/-- The embedding of the reals is monotone, so it carries a maximum to the maximum. -/
theorem coe_max : ((max a b : ℝ) : EReal) = max (a : EReal) (b : EReal) :=
  EReal.coe_strictMono.monotone.map_max

/-- The embedding of the reals carries a minimum to the minimum. -/
theorem coe_min : ((min a b : ℝ) : EReal) = min (a : EReal) (b : EReal) :=
  EReal.coe_strictMono.monotone.map_min

/-! ### Sum, difference, product, maximum, minimum -/

/-- The sum of two reals is the real sum. -/
theorem addf_coe : FloatOps.addf (F := Ideal) (φ := φ) (a : EReal) (b : EReal) = ((a + b : ℝ) : EReal) :=
  (EReal.coe_add a b).symm

/-- The difference of two reals is the real difference. -/
theorem subf_coe : FloatOps.subf (F := Ideal) (φ := φ) (a : EReal) (b : EReal) = ((a - b : ℝ) : EReal) :=
  (EReal.coe_sub a b).symm

/-- The product of two reals is the real product. -/
theorem mulf_coe : FloatOps.mulf (F := Ideal) (φ := φ) (a : EReal) (b : EReal) = ((a * b : ℝ) : EReal) :=
  (EReal.coe_mul a b).symm

/-- The maximum of two reals is the real maximum. -/
theorem maximumf_coe : FloatOps.maximumf (F := Ideal) (φ := φ) (a : EReal) (b : EReal) = ((max a b : ℝ) : EReal) :=
  (coe_max a b).symm

/-- The minimum of two reals is the real minimum. -/
theorem minimumf_coe : FloatOps.minimumf (F := Ideal) (φ := φ) (a : EReal) (b : EReal) = ((min a b : ℝ) : EReal) :=
  (coe_min a b).symm

/-- Minus infinity is neutral for the maximum, on the left. -/
theorem maximumf_bot_left (x : Ideal φ) : FloatOps.maximumf (F := Ideal) (φ := φ) (⊥ : EReal) x = x :=
  max_bot_left x

/-- Minus infinity is neutral for the maximum, on the right. -/
theorem maximumf_bot_right (x : Ideal φ) : FloatOps.maximumf (F := Ideal) (φ := φ) x (⊥ : EReal) = x :=
  max_bot_right x

/-! ### Negation and absolute value, a kernel's and the host's -/

/-- The negation of a real is the real negation. -/
theorem negf_coe : FloatOps.negf (F := Ideal) (φ := φ) (a : EReal) = ((-a : ℝ) : EReal) :=
  (EReal.coe_neg a).symm

/-- The absolute value of a real — the larger of it and its negation — is the real absolute value. -/
theorem absf_coe : FloatOps.absf (F := Ideal) (φ := φ) (a : EReal) = ((|a| : ℝ) : EReal) := by
  show max (a : EReal) (-(a : EReal)) = _
  rw [← EReal.coe_neg, ← coe_max, ← abs_eq_max_neg]

/-- The host's negation of a real is the real negation. -/
theorem hostNegf_coe : FloatOps.hostNegf (F := Ideal) (φ := φ) (a : EReal) = ((-a : ℝ) : EReal) :=
  negf_coe a

/-- The host's absolute value of a real is the real absolute value. -/
theorem hostAbsf_coe : FloatOps.hostAbsf (F := Ideal) (φ := φ) (a : EReal) = ((|a| : ℝ) : EReal) :=
  absf_coe a

/-! ### Quotient by a nonzero real -/

/-- The ideal quotient of a real by a nonzero real is the real quotient. -/
theorem ideal_div_coe {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- A kernel's quotient of a real by a nonzero real is the real quotient. -/
theorem divf_coe {b : ℝ} (hb : b ≠ 0) :
    FloatOps.divf (F := Ideal) (φ := φ) (a : EReal) (b : EReal) = ((a / b : ℝ) : EReal) :=
  ideal_div_coe a hb

/-- The host's quotient of a real by a nonzero real is the real quotient. -/
theorem hostDivf_coe {b : ℝ} (hb : b ≠ 0) :
    FloatOps.hostDivf (F := Ideal) (φ := φ) (a : EReal) (b : EReal) = ((a / b : ℝ) : EReal) :=
  ideal_div_coe a hb

/-! ### Exponential and logarithm of one plus -/

/-- A kernel's exponential of a real is the real exponential. -/
theorem exp_coe : FloatOps.exp (F := Ideal) (φ := φ) (a : EReal) = ((Real.exp a : ℝ) : EReal) := rfl

/-- The host's exponential of a real is the real exponential. -/
theorem hostExp_coe : FloatOps.hostUnary (F := Ideal) .exp (φ := φ) (a : EReal) = ((Real.exp a : ℝ) : EReal) := rfl

/-- The ideal `log (1 + ·)` of a real above `-1` is the real logarithm of one plus it. -/
theorem ideal_log1p_coe (h : 0 < 1 + a) : Ideal.log1p (a : EReal) = ((Real.log (1 + a) : ℝ) : EReal) := by
  rw [Ideal.log1p, ← EReal.coe_one, ← EReal.coe_add, Ideal.log_coe, if_neg (not_le.mpr h)]

/-- A kernel's `log1p` of a real above `-1` is the real logarithm of one plus it. -/
theorem log1p_coe (h : 0 < 1 + a) :
    FloatOps.log1p (F := Ideal) (φ := φ) (a : EReal) = ((Real.log (1 + a) : ℝ) : EReal) :=
  ideal_log1p_coe a h

/-- The host's `log1p` of a real above `-1` is the real logarithm of one plus it. -/
theorem hostLog1p_coe (h : 0 < 1 + a) :
    FloatOps.hostUnary (F := Ideal) .log1p (φ := φ) (a : EReal) = ((Real.log (1 + a) : ℝ) : EReal) :=
  ideal_log1p_coe a h

/-! ### The square as a power -/

/-- The ideal power of any real, negative ones too, to the exponent two is its square. -/
theorem ideal_pow_two_coe : Ideal.pow (a : EReal) ((2 : ℝ) : EReal) = ((a ^ 2 : ℝ) : EReal) := by
  rw [Ideal.pow_coe_coe, Real.rpow_eq_pow, Real.rpow_two]

/-- A kernel's power of a real to the exponent two is its square. -/
theorem powf_two_coe : FloatOps.powf (F := Ideal) (φ := φ) (a : EReal) ((2 : ℝ) : EReal) = ((a ^ 2 : ℝ) : EReal) :=
  ideal_pow_two_coe a

/-- The host's power of a real to the exponent two is its square. -/
theorem hostPowf_two_coe :
    FloatOps.hostPowf (F := Ideal) (φ := φ) (a : EReal) ((2 : ℝ) : EReal) = ((a ^ 2 : ℝ) : EReal) :=
  ideal_pow_two_coe a

/-! ### The conversion of a signed integer -/

/-- A signed word converts to the integer it reads as, exactly (a kernel's conversion and the host's are this
    one function). -/
theorem sitofp_eq {w : Nat} (x : BitVec w) :
    FloatOps.sitofp (F := Ideal) φ x = (((x.toInt : ℤ) : ℝ) : EReal) := rfl

/-- The scalar unit's conversion of a signed word likewise. -/
theorem scalar_sitofp_eq {w : Nat} (x : BitVec w) :
    Scalar.sitofp (F := Ideal) φ x = (((x.toInt : ℤ) : ℝ) : EReal) := rfl

/-! ### The literal bit patterns -/

/-- `+0.0` denotes zero. -/
theorem ofBits_zero : Ideal.ofBits .f32 0x00000000#32 = 0 := by
  simp [Ideal.ofBits, Ideal.ieee]

/-- `+0.0` denotes the real zero. -/
theorem ofBits_zero_coe : Ideal.ofBits .f32 0x00000000#32 = ((0 : ℝ) : EReal) := by
  rw [ofBits_zero, EReal.coe_zero]

/-- `1.0` denotes the real one. -/
theorem ofBits_one : Ideal.ofBits .f32 0x3F800000#32 = ((1 : ℝ) : EReal) := by
  simp [Ideal.ofBits, Ideal.ieee, -EReal.coe_mul]; norm_num

/-- `2.0` denotes the real two. -/
theorem ofBits_two : Ideal.ofBits .f32 0x40000000#32 = ((2 : ℝ) : EReal) := by
  simp [Ideal.ofBits, Ideal.ieee, -EReal.coe_mul]; norm_num

/-- `0.25` denotes a quarter. -/
theorem ofBits_quarter : Ideal.ofBits .f32 0x3E800000#32 = ((1 / 4 : ℝ) : EReal) := by
  simp [Ideal.ofBits, Ideal.ieee, -EReal.coe_mul]; norm_num

/-- `0.75` denotes three quarters. -/
theorem ofBits_three_quarters : Ideal.ofBits .f32 0x3F400000#32 = ((3 / 4 : ℝ) : EReal) := by
  simp [Ideal.ofBits, Ideal.ieee, -EReal.coe_mul]; norm_num

/-- `2097152.0`, two to the twenty-first, denotes that real. -/
theorem ofBits_2097152 : Ideal.ofBits .f32 0x4A000000#32 = ((2097152 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-- The pattern of plus infinity denotes the top element. -/
theorem ofBits_inf : Ideal.ofBits .f32 0x7F800000#32 = ⊤ := by
  simp [Ideal.ofBits, Ideal.ieee]

/-- The quiet not-a-number pattern denotes the junk value, the bottom element. -/
theorem ofBits_nan : Ideal.ofBits .f32 0x7FC00000#32 = ⊥ := by
  simp [Ideal.ofBits, Ideal.ieee]

/-! ### Comparisons of reals -/

/-- Equality of two embedded reals is equality of the reals. -/
theorem cmpf_oeq_coe_eq_one :
    FloatOps.cmpf (F := Ideal) (φ := φ) .oeq (a : EReal) (b : EReal) = 1#1 ↔ a = b := by
  show BitVec.ofBool (decide ((a : EReal) = (b : EReal))) = 1#1 ↔ a = b
  by_cases h : a = b
  · simp [h]
  · have : ¬ ((a : EReal) = (b : EReal)) := fun e => h (EReal.coe_eq_coe_iff.mp e)
    simp [h, this]

/-- The equality test of two embedded reals answers zero exactly when the reals differ. -/
theorem cmpf_oeq_coe_eq_zero :
    FloatOps.cmpf (F := Ideal) (φ := φ) .oeq (a : EReal) (b : EReal) = 0#1 ↔ a ≠ b := by
  show BitVec.ofBool (decide ((a : EReal) = (b : EReal))) = 0#1 ↔ a ≠ b
  by_cases h : a = b
  · simp [h]
  · have : ¬ ((a : EReal) = (b : EReal)) := fun e => h (EReal.coe_eq_coe_iff.mp e)
    simp [h, this]

/-- The strict order test of two embedded reals is the order of the reals. -/
theorem cmpf_olt_coe_eq_one :
    FloatOps.cmpf (F := Ideal) (φ := φ) .olt (a : EReal) (b : EReal) = 1#1 ↔ a < b := by
  show BitVec.ofBool (decide ((a : EReal) < (b : EReal))) = 1#1 ↔ a < b
  by_cases h : a < b
  · have : (a : EReal) < (b : EReal) := EReal.coe_lt_coe_iff.mpr h
    simp [h, this]
  · have : ¬ ((a : EReal) < (b : EReal)) := fun e => h (EReal.coe_lt_coe_iff.mp e)
    simp [h, this]

/-- The strict order test of two embedded reals answers zero exactly when the first is not below the second. -/
theorem cmpf_olt_coe_eq_zero :
    FloatOps.cmpf (F := Ideal) (φ := φ) .olt (a : EReal) (b : EReal) = 0#1 ↔ b ≤ a := by
  show BitVec.ofBool (decide ((a : EReal) < (b : EReal))) = 0#1 ↔ b ≤ a
  by_cases h : a < b
  · have : (a : EReal) < (b : EReal) := EReal.coe_lt_coe_iff.mpr h
    simp [h, this, not_le.mpr h]
  · have : ¬ ((a : EReal) < (b : EReal)) := fun e => h (EReal.coe_lt_coe_iff.mp e)
    simp [this, not_lt.mp h]

/-- A selection on the equality test of two embedded reals is the choice by the equality of the reals. -/
theorem select_cmpf_oeq_coe {α : Type} (x y : α) :
    Scalar.select (FloatOps.cmpf (F := Ideal) (φ := φ) .oeq (a : EReal) (b : EReal)) x y = if a = b then x else y := by
  unfold Scalar.select
  by_cases h : a = b
  · rw [(cmpf_oeq_coe_eq_one (φ := φ) a b).mpr h, if_pos (by decide), if_pos h]
  · rw [(cmpf_oeq_coe_eq_zero (φ := φ) a b).mpr h, if_neg (by decide), if_neg h]

/-- A selection on the strict order test of two embedded reals is the choice by the order of the reals. -/
theorem select_cmpf_olt_coe {α : Type} (x y : α) :
    Scalar.select (FloatOps.cmpf (F := Ideal) (φ := φ) .olt (a : EReal) (b : EReal)) x y = if a < b then x else y := by
  unfold Scalar.select
  by_cases h : a < b
  · rw [(cmpf_olt_coe_eq_one (φ := φ) a b).mpr h, if_pos (by decide), if_pos h]
  · rw [(cmpf_olt_coe_eq_zero (φ := φ) a b).mpr (not_lt.mp h), if_neg (by decide), if_neg h]

/-! ### The scalar unit's operations

At the ideal values the scalar unit computes the same exact operations as the vector unit. -/

/-- The scalar unit's sum of two reals is the real sum. -/
theorem scalar_addf_coe : Scalar.addf (F := Ideal) (φ := φ) (a : EReal) (b : EReal) = ((a + b : ℝ) : EReal) :=
  addf_coe a b

/-- The scalar unit's difference of two reals is the real difference. -/
theorem scalar_subf_coe : Scalar.subf (F := Ideal) (φ := φ) (a : EReal) (b : EReal) = ((a - b : ℝ) : EReal) :=
  subf_coe a b

/-- The scalar unit's product of two reals is the real product. -/
theorem scalar_mulf_coe : Scalar.mulf (F := Ideal) (φ := φ) (a : EReal) (b : EReal) = ((a * b : ℝ) : EReal) :=
  mulf_coe a b

/-- The scalar unit's quotient of a real by a nonzero real is the real quotient. -/
theorem scalar_divf_coe {b : ℝ} (hb : b ≠ 0) :
    Scalar.divf (F := Ideal) (φ := φ) (a : EReal) (b : EReal) = ((a / b : ℝ) : EReal) :=
  ideal_div_coe a hb

/-- The scalar unit's maximum of two reals is the real maximum. -/
theorem scalar_maximumf_coe :
    Scalar.maximumf (F := Ideal) (φ := φ) (a : EReal) (b : EReal) = ((max a b : ℝ) : EReal) :=
  maximumf_coe a b

/-- The scalar unit's minimum of two reals is the real minimum. -/
theorem scalar_minimumf_coe :
    Scalar.minimumf (F := Ideal) (φ := φ) (a : EReal) (b : EReal) = ((min a b : ℝ) : EReal) :=
  minimumf_coe a b

/-- The scalar unit's negation of a real is the real negation. -/
theorem scalar_negf_coe : Scalar.negf (F := Ideal) (φ := φ) (a : EReal) = ((-a : ℝ) : EReal) :=
  negf_coe a

/-- The scalar unit's absolute value of a real is the real absolute value. -/
theorem scalar_absf_coe : Scalar.absf (F := Ideal) (φ := φ) (a : EReal) = ((|a| : ℝ) : EReal) :=
  absf_coe (φ := φ) a

/-! ## Part 2 — composites -/

/-- One plus an exponential is positive: the argument of every logarithm below. -/
theorem one_add_exp_pos (t : ℝ) : 0 < 1 + Real.exp t := add_pos one_pos (Real.exp_pos t)

/-! ### The smooth part of the stable cross entropy, `log (1 + exp (-|x|))` -/

/-- The host's spelling at one element: `log1p` of the exponential of the negated absolute value. -/
theorem host_log1p_exp_neg_abs (x : ℝ) :
    FloatOps.hostUnary (F := Ideal) .log1p (φ := φ)
        (FloatOps.hostUnary .exp (FloatOps.hostNegf (FloatOps.hostAbsf (x : EReal))))
      = ((Real.log (1 + Real.exp (-|x|)) : ℝ) : EReal) := by
  rw [hostAbsf_coe, hostNegf_coe, hostExp_coe, hostLog1p_coe _ (one_add_exp_pos _)]

/-- The host's spelling over a whole array, read at an index whose element is the real `x`. -/
theorem host_log1p_exp_neg_abs_apply {s : Shape} (v : FVec Ideal s φ) (i : s.Idx) (x : ℝ) (hv : v i = (x : EReal)) :
    Host.log1p (Host.exp (Host.negf (Host.absf v))) i = ((Real.log (1 + Real.exp (-|x|)) : ℝ) : EReal) := by
  show FloatOps.hostUnary .log1p (FloatOps.hostUnary .exp (FloatOps.hostNegf (FloatOps.hostAbsf (v i)))) = _
  rw [hv]
  exact host_log1p_exp_neg_abs x

/-- A kernel's spelling at one element: the negation written as a subtraction from the literal zero. -/
theorem kernel_log1p_exp_neg_abs (x : ℝ) :
    FloatOps.log1p (F := Ideal) (φ := .f32)
        (FloatOps.exp (FloatOps.subf (FloatOps.ofBits .f32 0x00000000#32) (FloatOps.absf (x : EReal))))
      = ((Real.log (1 + Real.exp (-|x|)) : ℝ) : EReal) := by
  rw [Ideal.ofBits_def, ofBits_zero_coe, absf_coe, subf_coe, zero_sub, exp_coe, log1p_coe _ (one_add_exp_pos _)]

/-- A kernel's spelling over a whole vector — the zero a broadcast scalar literal — read at an index whose
    element is the real `x`. -/
theorem kernel_log1p_exp_neg_abs_apply {s : Shape} (v : FVec Ideal s .f32) (i : s.Idx) (x : ℝ) (hv : v i = (x : EReal)) :
    log1p (exp (subf (broadcast s (Scalar.ofBits (F := Ideal) .f32 0x00000000#32)) (absf v))) i
      = ((Real.log (1 + Real.exp (-|x|)) : ℝ) : EReal) := by
  show FloatOps.log1p (FloatOps.exp (FloatOps.subf (FloatOps.ofBits .f32 0x00000000#32) (FloatOps.absf (v i)))) = _
  rw [hv]
  exact kernel_log1p_exp_neg_abs x

/-! ### A finite maximum, as a fold from minus infinity -/

/-- The fold of the maximum from minus infinity over a nonempty finite set of embedded reals is the embedded
    largest of them. -/
theorem fold_max_bot_coe {ι : Type*} (s : Finset ι) (hs : s.Nonempty) (f : ι → ℝ) :
    s.fold max (⊥ : EReal) (fun k => ((f k : ℝ) : EReal)) = ((s.sup' hs f : ℝ) : EReal) := by
  rw [Finset.apply_sup'_eq_sup'_comp hs (fun r : ℝ => (r : EReal)) coe_max, Finset.sup'_eq_sup]
  rfl

/-- The same with the float maximum as the folded operation, which is how a host max-reduction reads. -/
theorem fold_maximumf_bot_coe {ι : Type*} (s : Finset ι) (hs : s.Nonempty) (f : ι → ℝ) :
    s.fold (FloatOps.maximumf (F := Ideal) (φ := φ)) (⊥ : EReal) (fun k => ((f k : ℝ) : EReal))
      = ((s.sup' hs f : ℝ) : EReal) :=
  fold_max_bot_coe s hs f

/-- The same for any family that is, on the set, the embedding of a real family. -/
theorem fold_maximumf_bot_eq {ι : Type*} (s : Finset ι) (hs : s.Nonempty) (g : ι → Ideal φ) (f : ι → ℝ)
    (hg : ∀ k ∈ s, g k = ((f k : ℝ) : EReal)) :
    s.fold (FloatOps.maximumf (F := Ideal) (φ := φ)) (⊥ : EReal) g = ((s.sup' hs f : ℝ) : EReal) := by
  rw [Finset.fold_congr hg]
  exact fold_maximumf_bot_coe s hs f

/-! ### A finite sum -/

/-- A finite sum of embedded reals is the embedded sum. -/
theorem coe_finset_sum {ι : Type*} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert k s hk ih => rw [Finset.sum_insert hk, Finset.sum_insert hk, ih, EReal.coe_add]

/-- A sum of embedded reals over a whole finite type is the embedded sum. -/
theorem coe_sum {ι : Type*} [Fintype ι] (f : ι → ℝ) : ∑ k, ((f k : ℝ) : EReal) = ((∑ k, f k : ℝ) : EReal) :=
  coe_finset_sum Finset.univ f

/-- A finite sum of a family that is, on the set, the embedding of a real family is the embedded real sum. -/
theorem sum_eq_coe_sum {ι : Type*} (s : Finset ι) (g : ι → EReal) (f : ι → ℝ)
    (hg : ∀ k ∈ s, g k = ((f k : ℝ) : EReal)) : ∑ k ∈ s, g k = ((∑ k ∈ s, f k : ℝ) : EReal) := by
  rw [Finset.sum_congr rfl hg]
  exact coe_finset_sum s f

/-
  The equations above, in the order a rewriting from the leaves of a term to its root takes them (with `simp only`
  the order is immaterial; the side conditions `b ≠ 0` of the quotients and `0 < 1 + a` of `log1p` are goals the
  caller closes, e.g. `simp only [...] ` with a discharger, or `rw` with the hypothesis supplied):

    literals     Ideal.ofBits_def, ofBits_zero (or ofBits_zero_coe), ofBits_one, ofBits_two, ofBits_quarter,
                 ofBits_three_quarters, ofBits_2097152, ofBits_neg_inf, ofBits_inf, ofBits_nan
    conversion   sitofp_eq, scalar_sitofp_eq
    one operand  negf_coe, absf_coe, hostNegf_coe, hostAbsf_coe, exp_coe, hostExp_coe, log1p_coe, hostLog1p_coe,
                 scalar_negf_coe, scalar_absf_coe
    two operands addf_coe, subf_coe, mulf_coe, divf_coe, hostDivf_coe, maximumf_coe, minimumf_coe,
                 maximumf_bot_left, maximumf_bot_right, powf_two_coe, hostPowf_two_coe,
                 scalar_addf_coe, scalar_subf_coe, scalar_mulf_coe, scalar_divf_coe, scalar_maximumf_coe,
                 scalar_minimumf_coe
    comparisons  cmpf_oeq_coe_eq_one, cmpf_oeq_coe_eq_zero, cmpf_olt_coe_eq_one, cmpf_olt_coe_eq_zero,
                 select_cmpf_oeq_coe, select_cmpf_olt_coe
    composites   host_log1p_exp_neg_abs, host_log1p_exp_neg_abs_apply, kernel_log1p_exp_neg_abs,
                 kernel_log1p_exp_neg_abs_apply, fold_max_bot_coe, fold_maximumf_bot_coe, fold_maximumf_bot_eq,
                 coe_finset_sum, coe_sum, sum_eq_coe_sum
    (helpers)    coe_max, coe_min, ideal_div_coe, ideal_log1p_coe, ideal_pow_two_coe, one_add_exp_pos
-/

end Idealize.ShloMosaic.IdealReal

end
-- ==== Proof.KValue.lean ====
/-
  The launch's result array.

  At grid point b the body leaves in the output buffer the sum, over the 512 × 512 logits of batch b's channel 0, of
  max(v, 0) + log1p(exp(0 − |v|)), at every one of its 8 × 128 places: the lanes are summed row by row, the 512 row
  sums are summed, and the one number is broadcast. Point b writes that buffer back to block [b, :, :] of the
  [16, 8, 128] result array, the sixteen blocks cover the array, and so entry (b, s, l) of the array after the launch
  is batch b's sum.
-/
import proofs.«421473_j29283087024789_3_alg».proof.Proof.KFrame
import proofs.«421473_j29283087024789_3_alg».proof.Proof.Spec
import proofs.«421473_j29283087024789_3_alg».proof.Proof.LibKeepdims
import proofs.«421473_j29283087024789_3_alg».proof.Proof.LibIdealReal
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.SL.Sem
open scoped BigOperators

variable (m : (ℓ : Loc nD τ sig) → Buf (Elt Ideal) ℓ)

/-! ## The body's value at an index -/

/-- Every entry of what the body stores is the sum, over the 512 rows and the 512 lanes of its input block, of
    max(v, 0) + log1p(exp(0 − |v|)): the broadcast reads the one number, the number is the sum of the 512 row sums,
    and row h's sum is the sum over its lanes. -/
theorem pay_apply (v0 : Vec Ideal S1x1x512x512 .f32) (y : S1x8x128.Idx) :
    k0_pay1 (F := Ideal) v0 y
      = ∑ h : Fin 512, ∑ w : Fin 512, Cert.Spec.softplusK (v0 (ix4 (0 : Fin 1) (0 : Fin 1) h w)) := by
  unfold k0_pay1
  dsimp only
  rw [broadcast_apply]
  unfold extractAt
  refine (shapeCast_apply _ _ _ (ix1 (0 : Fin 1)) ?_).trans ?_
  · rw [Shape.rowMajor_val_one, Shape.rowMajor_val_two]; rfl
  refine (Ideal.multiReduction_add_single _ _ _ _ _ _).trans ?_
  refine Finset.sum_congr rfl fun (h : Fin 512) _ => ?_
  have e : reduces_S512x1_S1.lift (ix1 (0 : Fin 1)) h = ix2 h (0 : Fin 1) :=
    funext fun a => by match a with | ⟨0, _⟩ => exact Fin.ext rfl | ⟨1, _⟩ => exact Fin.ext rfl
  refine (congrArg _ e).trans ?_
  refine (shapeCast_a_a1_apply _ _ h 0).trans ?_
  refine (Ideal.multiReduction_add_single _ _ _ _ _ _).trans ?_
  refine Finset.sum_congr rfl fun (w : Fin 512) _ => ?_
  have e2 : reduces_S512x512_S512.lift (ix1 h) w = ix2 h w :=
    funext fun a => by match a with | ⟨0, _⟩ => exact Fin.ext rfl | ⟨1, _⟩ => exact Fin.ext rfl
  refine (congrArg _ e2).trans ?_
  show Cert.Spec.softplusK (shapeCast S512x512 v0 shapeCasts_S1x1x512x512_S512x512 (ix2 h w)) = _
  refine congrArg Cert.Spec.softplusK ?_
  refine shapeCast_apply _ _ _ (ix4 (0 : Fin 1) (0 : Fin 1) h w) ?_
  rw [Shape.rowMajor_val_four, Shape.rowMajor_val_two]
  show (((0 : Nat) * 1 + 0) * 512 + h.val) * 512 + w.val = h.val * 512 + w.val
  omega

/-! ## The blocks' places in their arrays -/

/-- At point t the input window is at block (t, 0, 0, 0) of the predictions and the output window at block (t, 0, 0)
    of the result. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The input block at point t, at row h and lane w, is the prediction at (t, 0, h, w). -/
theorem iblk_apply (c : Dev nD) (t : Fin cfg0.N) (b : Fin 16) (hb : b.val = t.val) (h w : Fin 512) :
    (iblk (F := Ideal) m c 0 t : Vec Ideal S1x1x512x512 .f32) (ix4 (0 : Fin 1) (0 : Fin 1) h w)
      = (m ((c : Thread nD τ).loc main_arg0) : S16x8x512x512.Idx → EReal) (ix4 b (0 : Fin 8) h w) := by
  obtain ⟨e0, e1, e2, e3, -, -, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 1 + 1 * 0 = b.val; omega
  | ⟨1, _⟩ => show win0_0.index t (1 : Fin 4) * 1 + 1 * 0 = 0; omega
  | ⟨2, _⟩ => show win0_0.index t (2 : Fin 4) * 512 + 1 * h.val = h.val; omega
  | ⟨3, _⟩ => show win0_0.index t (3 : Fin 4) * 512 + 1 * w.val = w.val; omega

/-! ## The result array -/

/-- What the result array ends holding: at (b, s, l), the sum over batch b's logits. -/
def total (x : Cert.Spec.PP) : S16x8x128.Idx → EReal := fun i => Cert.Spec.dense x (i 0)

/-- The zero offsets of a rank-3 rectangle, however spelt. -/
theorem zeros3 : (![0, 0, 0] : Fin 3 → Nat) = fun _ => 0 := funext fun a => by fin_cases a <;> rfl
/-- The zero offsets of a rank-4 rectangle, however spelt. -/
theorem zeros4 : (![0, 0, 0, 0] : Fin 4 → Nat) = fun _ => 0 := funext fun a => by fin_cases a <;> rfl

/-- What point t writes back is block t of `total` of the predictions: the body leaves the sum over its input block
    at every place of the output buffer, and its input block is batch t's channel 0. -/
theorem flushed_eq (c : Dev nD) (t : Fin cfg0.N) :
    (dats (F := Ideal) m 0 c).flushed 1 t
      = ((cfg0.win 1).blk t).view.read (Elt Ideal) (total (m ((c : Thread nD τ).loc main_arg0))) := by
  show (cfg0.win 1).cut (grid0.coords t) ((dats m 0 c).after 1 t) = _
  rw [after0_1]
  unfold out0_1
  rw [View.canon_unit_zero zeros3]
  simp only [View.ld_unit_zero (S := S1x1x512x512) zeros4]
  obtain ⟨-, -, -, -, e4, -, -⟩ := idx_facts t
  funext j
  rw [View.read_apply]
  refine (pay_apply _ _).trans ?_
  have ht : t.val < 16 := lt_of_lt_of_eq t.isLt N_0
  have hb : (((cfg0.win 1).blk t).view.emb j (0 : Fin 3)) = (⟨t.val, ht⟩ : Fin 16) := by
    apply Fin.ext
    show win0_1.index t (0 : Fin 3) * 1 + 1 * (j 0).val = t.val
    have hj : (j 0).val < 1 := (j 0).isLt
    omega
  show _ = Cert.Spec.dense _ (((cfg0.win 1).blk t).view.emb j (0 : Fin 3))
  rw [hb]
  unfold Cert.Spec.dense
  exact Finset.sum_congr rfl fun h _ => Finset.sum_congr rfl fun w _ =>
    congrArg Cert.Spec.softplusK (iblk_apply m c t ⟨t.val, ht⟩ rfl h w)

/-- An index of the result array is in point t's block iff each coordinate is in the block's range on its axis. -/
theorem mem_blk (t : Fin cfg0.N) (i : S16x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v75).slice (win0_1.rect t)).set ↔ _
  rw [View.set_slice_whole, Rect.mem_set_unit]
  exact Iff.rfl

/-- Every index of the result array is in the block of the point of its batch. -/
theorem cover (i : S16x8x128.Idx) : ∃ t : Fin cfg0.N, (cfg0.win 1).flush t = true ∧ i ∈ ((cfg0.win 1).blk t).view.set := by
  have h0 : (i 0).val < 16 := (i 0).isLt
  have h1 : (i 1).val < 8 := (i 1).isLt
  have h2 : (i 2).val < 128 := (i 2).isLt
  let t : Fin cfg0.N := ⟨(i 0).val, by rw [show cfg0.N = 16 from N_0]; exact h0⟩
  obtain ⟨-, -, -, -, e4, e5, e6⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; rw [e4]; show (i 0).val * 1 ≤ (i 0).val ∧ (i 0).val < (i 0).val * 1 + 1; omega
  | ⟨1, _⟩ => show win0_1.index t (1 : Fin 3) * 8 ≤ (i 1).val ∧ (i 1).val < win0_1.index t (1 : Fin 3) * 8 + 8; omega
  | ⟨2, _⟩ => show win0_1.index t (2 : Fin 3) * 128 ≤ (i 2).val ∧ (i 2).val < win0_1.index t (2 : Fin 3) * 128 + 128; omega

/-- The result array after the launch is `total` of the predictions. -/
theorem final_arr (c : Dev nD) :
    (dats (F := Ideal) m 0 c).arrAt 1 cfg0.N = total (m ((c : Thread nD τ).loc main_arg0)) :=
  (dats m 0 c).arrAt_eq_of_cover 1 (total (m ((c : Thread nD τ).loc main_arg0))) (fun t _ => flushed_eq m c t) cover

/-- Entry `(b, s, l)` of the result array after the launch is the sum over batch `b`'s logits. -/
theorem final1 (c : Dev nD) (b : Fin 16) (s : Fin 8) (l : Fin 128) :
    (dats (F := Ideal) m 0 c).arrAt 1 cfg0.N (ix3 b s l)
      = Cert.Spec.dense (m ((c : Thread nD τ).loc main_arg0)) b := by
  rw [final_arr]
  rfl

end Cert.KernelIdeal.Val

end
-- ==== Proof.LibScatterLast.lean ====
/-
  An overwriting scatter read at a position on which several updates may land: the last one wins.

  The scatter is a left fold over the update indices in row-major order. The step for the update with row-major
  number n replaces the entry at the position that update lands on (when it lands inside the operand) by the
  update's value and leaves every other entry as it was. Read at one position k:

  * a step whose update lands on k gives the update's value, whatever the accumulator held;
  * a step whose update does not land on k (it lands elsewhere, or is dropped) gives what the accumulator held;
  * hence a fold of steps none of which lands on k leaves the entry at k alone;
  * and over a strictly increasing list of update numbers, if n is in the list, lands on k, and every lander on k
    in the list has number at most n, the fold's entry at k is the value of update n: once step n has been taken
    every later number is greater than n, so no later step lands on k.

  The row-major enumeration of all update indices is strictly increasing, so the scatter's entry at k is the value
  of the update that lands on k with the greatest row-major number, and the operand's entry when no update lands
  on k.
-/
import Idealize.ShloMosaic.PureOps.ShapeOps
import Idealize.ShloMosaic.PureOps.Dims

namespace Idealize.ShloMosaic

variable {s si u : Shape} {α : Type} {w : Nat}

/-- One step of the overwriting scatter's fold: the update with row-major number n replaces the entry at the
    position it lands on, when there is one, and changes nothing else. -/
def ScatterDims.setStep (d : ScatterDims s si u) (idx : IVec si w) (upd : u.Idx → α) (r : s.Idx → α)
    (n : Fin u.numel) : s.Idx → α :=
  match d.resultIdx? (u.rowMajor.symm n) idx with
  | some i => fun i' => if i' = i then upd (u.rowMajor.symm n) else r i'
  | none => r

/-- The overwriting scatter is the left fold of its steps over all row-major numbers, starting at the operand. -/
theorem Host.scatter_set_eq_foldl (d : ScatterDims s si u) (x : s.Idx → α) (idx : IVec si w) (upd : u.Idx → α) :
    Host.scatter d (fun _ b => b) x idx upd = (List.finRange u.numel).foldl (d.setStep idx upd) x := rfl

/-- A step whose update lands on k writes that update's value at k. -/
theorem ScatterDims.setStep_apply_of_landing (d : ScatterDims s si u) (idx : IVec si w) (upd : u.Idx → α)
    (r : s.Idx → α) (n : Fin u.numel) (k : s.Idx) (h : d.resultIdx? (u.rowMajor.symm n) idx = some k) :
    d.setStep idx upd r n k = upd (u.rowMajor.symm n) := by
  unfold ScatterDims.setStep
  simp only [h]
  exact if_pos trivial

/-- A step whose update does not land on k (it lands elsewhere or is dropped) leaves the entry at k alone. -/
theorem ScatterDims.setStep_apply_of_not_landing (d : ScatterDims s si u) (idx : IVec si w) (upd : u.Idx → α)
    (r : s.Idx → α) (n : Fin u.numel) (k : s.Idx) (h : d.resultIdx? (u.rowMajor.symm n) idx ≠ some k) :
    d.setStep idx upd r n k = r k := by
  unfold ScatterDims.setStep
  cases hc : d.resultIdx? (u.rowMajor.symm n) idx with
  | none => rfl
  | some i =>
    have hki : k ≠ i := fun e => h (by rw [hc, e])
    exact if_neg hki

/-- A fold of steps none of which lands on k leaves the entry at k alone. -/
theorem ScatterDims.foldl_setStep_apply_of_no_landing (d : ScatterDims s si u) (idx : IVec si w) (upd : u.Idx → α)
    (k : s.Idx) (l : List (Fin u.numel)) (acc : s.Idx → α)
    (h : ∀ n ∈ l, d.resultIdx? (u.rowMajor.symm n) idx ≠ some k) :
    l.foldl (d.setStep idx upd) acc k = acc k := by
  induction l generalizing acc with
  | nil => rfl
  | cons m l ih =>
    rw [List.foldl_cons, ih _ (fun n hn => h n (List.mem_cons_of_mem _ hn))]
    exact d.setStep_apply_of_not_landing idx upd acc m k (h m List.mem_cons_self)

/-- Over a strictly increasing list of update numbers: if n is in the list, lands on k, and every number in the
    list that lands on k is at most n, the fold's entry at k is the value of update n. -/
theorem ScatterDims.foldl_setStep_apply_of_last (d : ScatterDims s si u) (idx : IVec si w) (upd : u.Idx → α)
    (k : s.Idx) (n : Fin u.numel) (hn : d.resultIdx? (u.rowMajor.symm n) idx = some k)
    (l : List (Fin u.numel)) (acc : s.Idx → α) (hl : l.Pairwise (· < ·)) (hmem : n ∈ l)
    (hlast : ∀ m ∈ l, d.resultIdx? (u.rowMajor.symm m) idx = some k → m ≤ n) :
    l.foldl (d.setStep idx upd) acc k = upd (u.rowMajor.symm n) := by
  induction l generalizing acc with
  | nil => exact absurd hmem List.not_mem_nil
  | cons m l ih =>
    rw [List.foldl_cons]
    obtain ⟨hhead, htail⟩ := List.pairwise_cons.1 hl
    by_cases hin : n ∈ l
    · exact ih _ htail hin (fun m' hm' => hlast m' (List.mem_cons_of_mem _ hm'))
    · have hnm : n = m := by
        rcases List.mem_cons.1 hmem with e | e
        · exact e
        · exact absurd e hin
      subst hnm
      rw [d.foldl_setStep_apply_of_no_landing idx upd k l _ (fun a ha hland =>
        absurd (hlast a (List.mem_cons_of_mem _ ha) hland) (Fin.not_le.2 (hhead a ha)))]
      exact d.setStep_apply_of_landing idx upd acc n k hn

/-- The overwriting scatter read at a position k on which update j lands, every update that lands on k having
    row-major number at most j's: the entry is j's value (the last lander in row-major order wins). -/
theorem Host.scatter_set_apply_of_last {α : Type} {w : Nat} {s si u : Shape} (d : ScatterDims s si u)
    (x : s.Idx → α) (idx : IVec si w) (upd : u.Idx → α) (k : s.Idx) (j : u.Idx)
    (hj : d.resultIdx? j idx = some k)
    (hlast : ∀ j', d.resultIdx? j' idx = some k → (u.rowMajor j').val ≤ (u.rowMajor j).val) :
    Host.scatter d (fun _ b => b) x idx upd k = upd j := by
  rw [Host.scatter_set_eq_foldl]
  have hn : d.resultIdx? (u.rowMajor.symm (u.rowMajor j)) idx = some k := by
    rw [Equiv.symm_apply_apply]; exact hj
  rw [d.foldl_setStep_apply_of_last idx upd k (u.rowMajor j) hn (List.finRange u.numel) x
    (List.pairwise_lt_finRange _) (List.mem_finRange _) (fun m _ hm => by
      have := hlast (u.rowMajor.symm m) hm
      rw [Equiv.apply_symm_apply] at this
      exact Fin.le_def.2 this)]
  rw [Equiv.symm_apply_apply]

/-- The overwriting scatter read at a position no update lands on: the operand's entry. -/
theorem Host.scatter_set_apply_of_no_landing {α : Type} {w : Nat} {s si u : Shape} (d : ScatterDims s si u)
    (x : s.Idx → α) (idx : IVec si w) (upd : u.Idx → α) (k : s.Idx)
    (hnone : ∀ j, d.resultIdx? j idx ≠ some k) :
    Host.scatter d (fun _ b => b) x idx upd k = x k := by
  rw [Host.scatter_set_eq_foldl]
  exact d.foldl_setStep_apply_of_no_landing idx upd k (List.finRange u.numel) x (fun n _ => hnone _)

end Idealize.ShloMosaic
-- ==== Proof.LibGatherAlong.lean ====
/-
  THE BATCHED TAKE ALONG AN AXIS, READ AT AN INDEX.

  Picking, in every row of a table `x : [R, N]`, the entries at the columns an integer array `idx : [R, C]` names
  (`take_along_axis(x, idx, axis = 1)`) is a gather whose rows are BATCHED: row `b` of the result reads row `b` of
  the operand and row `b` of the indices. Its dimension numbers, over the indices as `[R, C, 1]`: no offset axes;
  operand axis 1 collapsed and addressed by the start index (start index map `[1]`); operand axis 0 a batching axis
  paired with indices axis 0; the index vector on indices axis 2; slices of one element (`[1, 1]`).

  Result element `(b, s)` is the operand at row `b` and at the column `idx[b, s, 0]`, that word read as a SIGNED
  integer and CLAMPED into `[0, N − 1]`: a negative word reads column 0 (the signed value's natural-number part is 0),
  a word at or past `N` reads the last column `N − 1`. In range, `0 ≤ z < N`, the column is `z` itself
  (`gather_along_inrange`).
-/
import Idealize.ShloMosaic.PureOps.ShapeOps
import Idealize.ShloMosaic.Lib.ValueIdx

noncomputable section

namespace Idealize.ShloMosaic.Host

open Idealize.ShloMosaic Idealize.ShloMosaic.ValueIdx

variable {α : Type}

/-- The dimension numbers of the batched take along axis 1, for an operand `[R, N]`, start indices `[R, C, 1]` and a
    result `[R, C]`; their conditions `wf` are decided on a program's literal shapes. -/
abbrev alongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, s)`: row `b` of the operand, at the column `idx[b, s, 0]` read signed and clamped into
    `[0, N − 1]` (a negative word gives column 0, a word at or past `N` gives column `N − 1`). -/
theorem gather_along_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (b : Fin R) (s : Fin C) :
    Host.gather (alongDims R N C wf) x idx (ix2 b s)
      = x (ix2 b ⟨min (idx (ix3 b s (0 : Fin 1))).toInt.toNat (N - 1), by omega⟩) := by
  unfold Host.gather
  congr 1
  funext a
  refine Fin.ext ?_
  match a with
  | ⟨0, _⟩ =>
    -- the batching axis: no start, no offset; the row is the result's own row
    show (alongDims R N C wf).start (ix2 b s) idx 0 + (alongDims R N C wf).batchCoord (ix2 b s) 0
        + (alongDims R N C wf).offCoord (ix2 b s) 0 = b.val
    have hb : (0 : Fin 2) ∈ (alongDims R N C wf).operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    -- the collapsed axis: the clamped start index alone
    show (alongDims R N C wf).start (ix2 b s) idx 1 + (alongDims R N C wf).batchCoord (ix2 b s) 1
        + (alongDims R N C wf).offCoord (ix2 b s) 1 = min (idx (ix3 b s (0 : Fin 1))).toInt.toNat (N - 1)
    have hc : (1 : Fin 2) ∈ (alongDims R N C wf).collapsedSliceDims := List.mem_singleton.mpr rfl
    have hnb : (1 : Fin 2) ∉ (alongDims R N C wf).operandBatchingDims := fun h =>
      Nat.one_ne_zero (congrArg Fin.val (List.mem_singleton.mp h))
    have hm : (1 : Fin 2) ∈ (alongDims R N C wf).startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (alongDims R N C wf).siIdx (ix2 b s) ⟨List.idxOf (1 : Fin 2) (alongDims R N C wf).startIndexMap,
        List.idxOf_lt_length_iff.2 hm⟩ = ix3 b s (0 : Fin 1) := by
      funext c; refine Fin.ext ?_
      match c with
      | ⟨0, _⟩ => rfl
      | ⟨1, _⟩ => rfl
      | ⟨2, _⟩ => rfl
    rw [hsi]
    rfl

/-- The same for ANY dimension-number record of these shapes whose fields are the batched take's lists (a program's
    printed record is one: each hypothesis by `rfl`). -/
theorem gather_along_apply_of {R N C w : Nat} (hN : 0 < N)
    (d : GatherDims ⟨2, ![R, N]⟩ ⟨3, ![R, C, 1]⟩ ⟨2, ![R, C]⟩)
    (hod : d.offsetDims = []) (hcoll : d.collapsedSliceDims = [1]) (hob : d.operandBatchingDims = [0])
    (hsb : d.startIndicesBatchingDims = [0]) (hsim : d.startIndexMap = [1]) (hivd : d.indexVectorDim = 2)
    (hss : d.sliceSizes = ![1, 1])
    (x : (⟨2, ![R, N]⟩ : Shape).Idx → α) (idx : IVec ⟨3, ![R, C, 1]⟩ w) (b : Fin R) (s : Fin C) :
    Host.gather d x idx (ix2 b s)
      = x (ix2 b ⟨min (idx (ix3 b s (0 : Fin 1))).toInt.toNat (N - 1), by omega⟩) := by
  obtain ⟨od, cd, ob, sb, sm, iv, ss, wf⟩ := d
  simp only at hod hcoll hob hsb hsim hivd hss
  subst hod hcoll hob hsb hsim hivd hss
  exact gather_along_apply hN wf x idx b s

/-- IN RANGE the clamp is the identity: a start word whose signed value `z` has `0 ≤ z < N` reads column `z`. -/
theorem gather_along_inrange {R N C w : Nat}
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (b : Fin R) (s : Fin C)
    (h0 : 0 ≤ (idx (ix3 b s (0 : Fin 1))).toInt) (hlt : (idx (ix3 b s (0 : Fin 1))).toInt < N) :
    Host.gather (alongDims R N C wf) x idx (ix2 b s)
      = x (ix2 b ⟨(idx (ix3 b s (0 : Fin 1))).toInt.toNat, by omega⟩) := by
  have hN : 0 < N := by omega
  rw [gather_along_apply hN wf x idx b s]
  congr 2
  refine Fin.ext ?_
  show min (idx (ix3 b s (0 : Fin 1))).toInt.toNat (N - 1) = (idx (ix3 b s (0 : Fin 1))).toInt.toNat
  omega

end Idealize.ShloMosaic.Host

end
-- ==== Proof.LibGatherAlong3.lean ====
/-
  THE TAKE ALONG THE LAST AXIS OF A RANK-3 TABLE, READ AT AN INDEX.

  Picking, in every row `(a, b)` of a table `x : [A, B, N]`, the entries at the positions an integer array
  `idx : [A, B, C]` names (`take_along_axis(x, idx, axis = 2)`) is a gather whose rows are BATCHED on two axes:
  row `(a, b)` of the result reads row `(a, b)` of the operand and row `(a, b)` of the indices. Its dimension
  numbers, over the indices as `[A, B, C, 1]`: no offset axes; operand axis 2 collapsed and addressed by the start
  index (start index map `[2]`); operand axes 0 and 1 batching axes paired with indices axes 0 and 1; the index
  vector on indices axis 3; slices of one element (`[1, 1, 1]`).

  Result element `(a, b, s)` is the operand at row `(a, b)` and at the position `idx[a, b, s, 0]`, that word read
  as a SIGNED integer and CLAMPED into `[0, N − 1]`: a negative word reads position 0 (the signed value's
  natural-number part is 0), a word at or past `N` reads the last position `N − 1`. In range, `0 ≤ z < N`, the
  position is `z` itself (`gather_along3_inrange_of`).
-/
import Idealize.ShloMosaic.PureOps.ShapeOps
import Idealize.ShloMosaic.Lib.ValueIdx

noncomputable section

namespace Idealize.ShloMosaic.Host

open Idealize.ShloMosaic Idealize.ShloMosaic.ValueIdx

variable {α : Type}

/-- The dimension numbers of the take along axis 2 batched on axes 0 and 1, for an operand `[A, B, N]`, start
    indices `[A, B, C, 1]` and a result `[A, B, C]`; their conditions `wf` are decided on a program's literal
    shapes. -/
abbrev alongDims3 (A B N C : Nat)
    (wf : GatherDims.WF ⟨3, ![A, B, N]⟩ ⟨4, ![A, B, C, 1]⟩ ⟨3, ![A, B, C]⟩ [] [2] [0, 1] [2] [0, 1] 3 ![1, 1, 1]) :
    GatherDims ⟨3, ![A, B, N]⟩ ⟨4, ![A, B, C, 1]⟩ ⟨3, ![A, B, C]⟩ where
  offsetDims := []
  collapsedSliceDims := [2]
  operandBatchingDims := [0, 1]
  startIndicesBatchingDims := [0, 1]
  startIndexMap := [2]
  indexVectorDim := 3
  sliceSizes := ![1, 1, 1]
  wf := wf

/-- THE GATHER READ AT `(a, b, s)`: row `(a, b)` of the operand, at the position `idx[a, b, s, 0]` read signed and
    clamped into `[0, N − 1]` (a negative word gives position 0, a word at or past `N` gives position `N − 1`). -/
theorem gather_along3_apply {A B N C w : Nat} (hN : 0 < N)
    (wf : GatherDims.WF ⟨3, ![A, B, N]⟩ ⟨4, ![A, B, C, 1]⟩ ⟨3, ![A, B, C]⟩ [] [2] [0, 1] [2] [0, 1] 3 ![1, 1, 1])
    (x : (⟨3, ![A, B, N]⟩ : Shape).Idx → α) (idx : IVec ⟨4, ![A, B, C, 1]⟩ w) (a : Fin A) (b : Fin B) (s : Fin C) :
    Host.gather (alongDims3 A B N C wf) x idx (ix3 a b s)
      = x (ix3 a b ⟨min (idx (ix4 a b s (0 : Fin 1))).toInt.toNat (N - 1), by omega⟩) := by
  unfold Host.gather
  congr 1
  funext ax
  refine Fin.ext ?_
  match ax with
  | ⟨0, _⟩ =>
    -- the first batching axis: no start, no offset; the coordinate is the result's own on axis 0
    show (alongDims3 A B N C wf).start (ix3 a b s) idx 0 + (alongDims3 A B N C wf).batchCoord (ix3 a b s) 0
        + (alongDims3 A B N C wf).offCoord (ix3 a b s) 0 = a.val
    have hb : (0 : Fin 3) ∈ (alongDims3 A B N C wf).operandBatchingDims := List.mem_cons_self
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    -- the second batching axis: no start, no offset; the coordinate is the result's own on axis 1
    show (alongDims3 A B N C wf).start (ix3 a b s) idx 1 + (alongDims3 A B N C wf).batchCoord (ix3 a b s) 1
        + (alongDims3 A B N C wf).offCoord (ix3 a b s) 1 = b.val
    have hb : (1 : Fin 3) ∈ (alongDims3 A B N C wf).operandBatchingDims :=
      List.mem_cons_of_mem _ List.mem_cons_self
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨2, _⟩ =>
    -- the collapsed axis: the clamped start index alone
    show (alongDims3 A B N C wf).start (ix3 a b s) idx 2 + (alongDims3 A B N C wf).batchCoord (ix3 a b s) 2
        + (alongDims3 A B N C wf).offCoord (ix3 a b s) 2 = min (idx (ix4 a b s (0 : Fin 1))).toInt.toNat (N - 1)
    have hc : (2 : Fin 3) ∈ (alongDims3 A B N C wf).collapsedSliceDims := List.mem_singleton.mpr rfl
    have hnb : (2 : Fin 3) ∉ (alongDims3 A B N C wf).operandBatchingDims := by
      show (2 : Fin 3) ∉ ([0, 1] : List (Fin 3))
      decide
    have hm : (2 : Fin 3) ∈ (alongDims3 A B N C wf).startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (alongDims3 A B N C wf).siIdx (ix3 a b s) ⟨List.idxOf (2 : Fin 3) (alongDims3 A B N C wf).startIndexMap,
        List.idxOf_lt_length_iff.2 hm⟩ = ix4 a b s (0 : Fin 1) := by
      funext c; refine Fin.ext ?_
      match c with
      | ⟨0, _⟩ => rfl
      | ⟨1, _⟩ => rfl
      | ⟨2, _⟩ => rfl
      | ⟨3, _⟩ => rfl
    rw [hsi]
    rfl

/-- The same for ANY dimension-number record of these shapes whose fields are this take's lists (a program's
    printed record is one: each hypothesis by `rfl`). -/
theorem gather_along3_apply_of {A B N C w : Nat} (hN : 0 < N)
    (d : GatherDims ⟨3, ![A, B, N]⟩ ⟨4, ![A, B, C, 1]⟩ ⟨3, ![A, B, C]⟩)
    (hod : d.offsetDims = []) (hcoll : d.collapsedSliceDims = [2]) (hob : d.operandBatchingDims = [0, 1])
    (hsb : d.startIndicesBatchingDims = [0, 1]) (hsim : d.startIndexMap = [2]) (hivd : d.indexVectorDim = 3)
    (hss : d.sliceSizes = ![1, 1, 1])
    (x : (⟨3, ![A, B, N]⟩ : Shape).Idx → α) (idx : IVec ⟨4, ![A, B, C, 1]⟩ w) (a : Fin A) (b : Fin B) (s : Fin C) :
    Host.gather d x idx (ix3 a b s)
      = x (ix3 a b ⟨min (idx (ix4 a b s (0 : Fin 1))).toInt.toNat (N - 1), by omega⟩) := by
  obtain ⟨od, cd, ob, sb, sm, iv, ss, wf⟩ := d
  simp only at hod hcoll hob hsb hsim hivd hss
  subst hod hcoll hob hsb hsim hivd hss
  exact gather_along3_apply hN wf x idx a b s

/-- IN RANGE the clamp is the identity: a start word whose signed value `z` has `0 ≤ z < N` reads position `z`. -/
theorem gather_along3_inrange_of {A B N C w : Nat} (hN : 0 < N)
    (d : GatherDims ⟨3, ![A, B, N]⟩ ⟨4, ![A, B, C, 1]⟩ ⟨3, ![A, B, C]⟩)
    (hod : d.offsetDims = []) (hcoll : d.collapsedSliceDims = [2]) (hob : d.operandBatchingDims = [0, 1])
    (hsb : d.startIndicesBatchingDims = [0, 1]) (hsim : d.startIndexMap = [2]) (hivd : d.indexVectorDim = 3)
    (hss : d.sliceSizes = ![1, 1, 1])
    (x : (⟨3, ![A, B, N]⟩ : Shape).Idx → α) (idx : IVec ⟨4, ![A, B, C, 1]⟩ w) (a : Fin A) (b : Fin B) (s : Fin C)
    (h0 : 0 ≤ (idx (ix4 a b s (0 : Fin 1))).toInt) (hlt : (idx (ix4 a b s (0 : Fin 1))).toInt < N) :
    Host.gather d x idx (ix3 a b s)
      = x (ix3 a b ⟨(idx (ix4 a b s (0 : Fin 1))).toInt.toNat, by omega⟩) := by
  rw [gather_along3_apply_of hN d hod hcoll hob hsb hsim hivd hss x idx a b s]
  congr 2
  refine Fin.ext ?_
  show min (idx (ix4 a b s (0 : Fin 1))).toInt.toNat (N - 1) = (idx (ix4 a b s (0 : Fin 1))).toInt.toNat
  omega

end Idealize.ShloMosaic.Host

end
-- ==== Proof.LibScatterConst.lean ====
/-
  An overwriting scatter all of whose updates carry one value, read at one position of the result.

  The scatter is a left fold over the update indices: each update that lands inside the operand overwrites the
  element it lands on, each update that falls outside is dropped. When every update carries the same value v the
  order of the fold is immaterial: a position holds v exactly when some update lands on it, and its old value
  otherwise.

  Then the landing condition is made explicit for scalar updates scattered into a rank-2 operand at index pairs
  [row, position]: update (b', s') lands on (b, i) exactly when its pair of indices, read as signed integers, is
  (b, i).
-/
import Idealize.ShloMosaic.Lib.StableHlo
import Idealize.ShloMosaic.PureOps.ShapeOps
import Idealize.ShloMosaic.Lib.ValueIdx

namespace Idealize.ShloMosaic

/-- A left fold of overwriting steps, every written value being v. The step at n writes val n at the position
    land n (when there is one) and changes nothing else. After the fold, a position that some step of the list
    lands on holds v, and a position no step lands on holds what the accumulator held. -/
theorem foldl_overwrite_const {β ι α : Type} (land : β → Option ι) (val : β → α) (v : α)
    (hval : ∀ n, val n = v) (step : (ι → α) → β → (ι → α))
    (hhit : ∀ r n i, land n = some i → step r n i = val n)
    (hmiss : ∀ r n i i', land n = some i → i' ≠ i → step r n i' = r i')
    (hnone : ∀ r n, land n = none → step r n = r)
    (l : List β) (acc : ι → α) (j : ι) :
    ((∃ n ∈ l, land n = some j) → (l.foldl step acc) j = v) ∧
      ((¬ ∃ n ∈ l, land n = some j) → (l.foldl step acc) j = acc j) := by
  induction l generalizing acc with
  | nil =>
    constructor
    · rintro ⟨n, hn, _⟩
      exact absurd hn (List.not_mem_nil)
    · intro _
      rfl
  | cons n l ih =>
    rw [List.foldl_cons]
    obtain ⟨ih1, ih2⟩ := ih (step acc n)
    constructor
    · rintro ⟨m, hm, hland⟩
      by_cases hl : ∃ m ∈ l, land m = some j
      · exact ih1 hl
      · rw [ih2 hl]
        rcases List.mem_cons.1 hm with rfl | hm'
        · rw [hhit acc m j hland, hval]
        · exact absurd ⟨m, hm', hland⟩ hl
    · intro hno
      have hl : ¬ ∃ m ∈ l, land m = some j := fun ⟨m, hm, h⟩ => hno ⟨m, List.mem_cons_of_mem _ hm, h⟩
      have hn : land n ≠ some j := fun h => hno ⟨n, List.mem_cons_self, h⟩
      rw [ih2 hl]
      cases hc : land n with
      | none => rw [hnone acc n hc]
      | some i =>
        have hji : j ≠ i := fun h => hn (by rw [hc, h])
        exact hmiss acc n i j hc hji

variable {s si u : Shape} {α : Type} {w : Nat}

/-- An overwriting scatter whose updates all carry the value v: position j of the result holds v when some update
    index k lands on j (its result index d.resultIdx? k idx is some j: start read signed off the indices, not
    clamped, plus the window coordinate, inside the operand on every axis), and the operand's element otherwise.
    Several updates may land on one position; they all write v, so the order of the fold does not matter. -/
theorem Host.scatter_const (d : ScatterDims s si u) (x : s.Idx → α) (idx : IVec si w) (upd : u.Idx → α) (v : α)
    (hupd : ∀ k, upd k = v) (j : s.Idx) [Decidable (∃ k : u.Idx, d.resultIdx? k idx = some j)] :
    Host.scatter d (fun _ b => b) x idx upd j
      = if (∃ k : u.Idx, d.resultIdx? k idx = some j) then v else x j := by
  have hiff : (∃ k : u.Idx, d.resultIdx? k idx = some j)
      ↔ ∃ n ∈ List.finRange u.numel, d.resultIdx? (u.rowMajor.symm n) idx = some j := by
    constructor
    · rintro ⟨k, hk⟩
      exact ⟨u.rowMajor k, List.mem_finRange _, by rw [Equiv.symm_apply_apply]; exact hk⟩
    · rintro ⟨n, _, hn⟩
      exact ⟨_, hn⟩
  have key : ∀ step : (s.Idx → α) → Fin u.numel → (s.Idx → α),
      (∀ r n i, d.resultIdx? (u.rowMajor.symm n) idx = some i → step r n i = upd (u.rowMajor.symm n)) →
      (∀ r n i i', d.resultIdx? (u.rowMajor.symm n) idx = some i → i' ≠ i → step r n i' = r i') →
      (∀ r n, d.resultIdx? (u.rowMajor.symm n) idx = none → step r n = r) →
      (List.finRange u.numel).foldl step x j
        = if (∃ k : u.Idx, d.resultIdx? k idx = some j) then v else x j := by
    intro step hhit hmiss hnone
    have h2 := foldl_overwrite_const (fun n : Fin u.numel => d.resultIdx? (u.rowMajor.symm n) idx)
      (fun n => upd (u.rowMajor.symm n)) v (fun n => hupd _) step hhit hmiss hnone (List.finRange u.numel) x j
    split_ifs with h
    · exact h2.1 (hiff.1 h)
    · exact h2.2 (fun h' => h (hiff.2 h'))
  unfold Host.scatter
  apply key
  · intro r n i h
    simp only [h]
    exact if_pos trivial
  · intro r n i i' h hne
    simp only [h]
    exact if_neg hne
  · intro r n h
    simp only [h]

/-- An update lands on the position k exactly when, on every operand axis, its start (read signed off the indices)
    plus its window coordinate is k's coordinate on that axis. -/
theorem ScatterDims.resultIdx?_eq_some_iff (d : ScatterDims s si u) (idx : IVec si w) (j : u.Idx) (k : s.Idx) :
    d.resultIdx? j idx = some k ↔ ∀ a, d.start j idx a + (d.window j a : Int) = ((k a).val : Int) := by
  unfold ScatterDims.resultIdx?
  split
  · next h =>
    constructor
    · intro e a
      have := congrFun (Option.some.inj e) a
      have h1 := h a
      rw [← this]; simp only []; omega
    · intro e
      congr 1
      funext a
      apply Fin.ext
      have := e a; simp only []; omega
  · next h =>
    constructor
    · intro e; exact absurd e (by simp)
    · intro e
      exfalso; apply h; intro a
      have := e a; have := (k a).isLt; omega

section RowPos

open ValueIdx

variable {R C R' K : Nat}

/-- The dimension numbers of a scatter of scalars into a rank-2 operand at index pairs [row, position]: no window
    axes, both operand axes inserted, the index vector (of length two, on the last axis of the indices) naming the
    operand's axes in order. The well-formedness condition is taken as given. -/
abbrev ScatterDims.rowPos
    (hwf : ScatterDims.WF (⟨2, ![R, C]⟩ : Shape) ⟨3, ![R', K, 2]⟩ ⟨2, ![R', K]⟩ [] [0, 1] [0, 1] 2) :
    ScatterDims (⟨2, ![R, C]⟩ : Shape) ⟨3, ![R', K, 2]⟩ ⟨2, ![R', K]⟩ :=
  { updateWindowDims := [], insertedWindowDims := [0, 1], scatterDimsToOperandDims := [0, 1], indexVectorDim := 2,
    wf := hwf }

variable (hwf : ScatterDims.WF (⟨2, ![R, C]⟩ : Shape) ⟨3, ![R', K, 2]⟩ ⟨2, ![R', K]⟩ [] [0, 1] [0, 1] 2)

/-- There is no window: the window coordinate is zero on both operand axes. -/
theorem ScatterDims.rowPos_window (k : (⟨2, ![R', K]⟩ : Shape).Idx) (a : Fin 2) :
    (ScatterDims.rowPos hwf).window k a = 0 := by
  unfold ScatterDims.window
  rw [dif_neg]
  exact fun h => List.not_mem_nil (show a ∈ ([] : List (Fin 2)) from h)

/-- The scatter-indices index read for component c of update (b', s'): the update's two coordinates, then c. -/
theorem ScatterDims.rowPos_siIdx (b' : Fin R') (s' : Fin K) (c : Fin 2) :
    (ScatterDims.rowPos hwf).siIdx (ix2 b' s') c = ix3 b' s' c := by
  funext a
  match a with
  | ⟨0, _⟩ => rfl
  | ⟨1, _⟩ => rfl
  | ⟨2, _⟩ => rfl

/-- The start on the row axis is the first component of the update's index pair. -/
theorem ScatterDims.rowPos_start_zero (idx : IVec (⟨3, ![R', K, 2]⟩ : Shape) w) (b' : Fin R') (s' : Fin K) :
    (ScatterDims.rowPos hwf).start (ix2 b' s') idx 0 = (idx (ix3 b' s' 0)).toInt := by
  unfold ScatterDims.start
  have h0 : (0 : Fin 2) ∈ (ScatterDims.rowPos hwf).scatterDimsToOperandDims := List.mem_cons_self
  rw [dif_pos h0]
  exact congrArg (fun q => (idx q).toInt) (ScatterDims.rowPos_siIdx hwf b' s' 0)

/-- The start on the position axis is the second component of the update's index pair. -/
theorem ScatterDims.rowPos_start_one (idx : IVec (⟨3, ![R', K, 2]⟩ : Shape) w) (b' : Fin R') (s' : Fin K) :
    (ScatterDims.rowPos hwf).start (ix2 b' s') idx 1 = (idx (ix3 b' s' 1)).toInt := by
  unfold ScatterDims.start
  have h1 : (1 : Fin 2) ∈ (ScatterDims.rowPos hwf).scatterDimsToOperandDims :=
    List.mem_cons_of_mem _ List.mem_cons_self
  rw [dif_pos h1]
  exact congrArg (fun q => (idx q).toInt) (ScatterDims.rowPos_siIdx hwf b' s' 1)

/-- Update (b', s') lands on position (b, i) exactly when its index pair, read signed, is (b, i). (An index pair
    outside the operand equals no position, so the update is dropped.) -/
theorem ScatterDims.rowPos_resultIdx?_eq_some_iff (idx : IVec (⟨3, ![R', K, 2]⟩ : Shape) w)
    (b' : Fin R') (s' : Fin K) (b : Fin R) (i : Fin C) :
    (ScatterDims.rowPos hwf).resultIdx? (ix2 b' s') idx = some (ix2 b i)
      ↔ (idx (ix3 b' s' 0)).toInt = (b.val : Int) ∧ (idx (ix3 b' s' 1)).toInt = (i.val : Int) := by
  rw [ScatterDims.resultIdx?_eq_some_iff]
  constructor
  · intro h
    have e0 := h 0
    have e1 := h 1
    rw [ScatterDims.rowPos_start_zero, ScatterDims.rowPos_window] at e0
    rw [ScatterDims.rowPos_start_one, ScatterDims.rowPos_window] at e1
    constructor
    · have e0' : (idx (ix3 b' s' 0)).toInt + ((0 : Nat) : Int) = (b.val : Int) := e0
      omega
    · have e1' : (idx (ix3 b' s' 1)).toInt + ((0 : Nat) : Int) = (i.val : Int) := e1
      omega
  · rintro ⟨e0, e1⟩ a
    match a with
    | ⟨0, _⟩ =>
      show (ScatterDims.rowPos hwf).start (ix2 b' s') idx 0 + ((ScatterDims.rowPos hwf).window (ix2 b' s') 0 : Int)
        = (b.val : Int)
      rw [ScatterDims.rowPos_start_zero, ScatterDims.rowPos_window, e0]
      simp
    | ⟨1, _⟩ =>
      show (ScatterDims.rowPos hwf).start (ix2 b' s') idx 1 + ((ScatterDims.rowPos hwf).window (ix2 b' s') 1 : Int)
        = (i.val : Int)
      rw [ScatterDims.rowPos_start_one, ScatterDims.rowPos_window, e1]
      simp

/-- An overwriting scatter at index pairs [row, position], every update carrying v, read at position (b, i): v when
    some update's index pair, read signed, is (b, i), and the operand's element otherwise. -/
theorem Host.scatter_rowPos_const (x : (⟨2, ![R, C]⟩ : Shape).Idx → α) (idx : IVec (⟨3, ![R', K, 2]⟩ : Shape) w)
    (upd : (⟨2, ![R', K]⟩ : Shape).Idx → α) (v : α) (hupd : ∀ k, upd k = v) (b : Fin R) (i : Fin C)
    [Decidable (∃ (b' : Fin R') (s' : Fin K),
      (idx (ix3 b' s' 0)).toInt = (b.val : Int) ∧ (idx (ix3 b' s' 1)).toInt = (i.val : Int))] :
    Host.scatter (ScatterDims.rowPos hwf) (fun _ b => b) x idx upd (ix2 b i)
      = if (∃ (b' : Fin R') (s' : Fin K),
          (idx (ix3 b' s' 0)).toInt = (b.val : Int) ∧ (idx (ix3 b' s' 1)).toInt = (i.val : Int))
        then v else x (ix2 b i) := by
  classical
  have hiff : (∃ k : (⟨2, ![R', K]⟩ : Shape).Idx, (ScatterDims.rowPos hwf).resultIdx? k idx = some (ix2 b i))
      ↔ ∃ (b' : Fin R') (s' : Fin K),
          (idx (ix3 b' s' 0)).toInt = (b.val : Int) ∧ (idx (ix3 b' s' 1)).toInt = (i.val : Int) := by
    constructor
    · rintro ⟨k, hk⟩
      rw [eq_ix2 k] at hk
      exact ⟨k 0, k 1, (ScatterDims.rowPos_resultIdx?_eq_some_iff hwf idx (k 0) (k 1) b i).1 hk⟩
    · rintro ⟨b', s', h⟩
      exact ⟨ix2 b' s', (ScatterDims.rowPos_resultIdx?_eq_some_iff hwf idx b' s' b i).2 h⟩
  rw [Host.scatter_const (ScatterDims.rowPos hwf) x idx upd v hupd (ix2 b i)]
  by_cases h : ∃ (b' : Fin R') (s' : Fin K),
      (idx (ix3 b' s' 0)).toInt = (b.val : Int) ∧ (idx (ix3 b' s' 1)).toInt = (i.val : Int)
  · rw [if_pos h, if_pos (hiff.2 h)]
  · rw [if_neg h, if_neg (fun h' => h (hiff.1 h'))]

end RowPos

end Idealize.ShloMosaic
-- ==== Proof.LibSumIdx.lean ====
/-
  Sums over an index set of rank 1, 3 or 4 as iterated sums over the coordinates.

  An index of a shape `[n₀, …, n_{r−1}]` is its tuple of coordinates, so the index set is the product of the coordinate
  ranges and a sum over it is the iterated sum, outermost axis first. (Rank 2 is in the library.)
-/
import Idealize.ShloMosaic.Lib.ValueIdx
import Mathlib.Algebra.BigOperators.Group.Finset.Basic
import Mathlib.Algebra.BigOperators.Fin

namespace Idealize.ShloMosaic.ValueIdx

open scoped BigOperators

variable {M : Type*} [AddCommMonoid M]

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {n : Nat} (f : (⟨1, ![n]⟩ : Shape).Idx → M) : ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx
-- ==== Proof.KIndex.lean ====
/-
  The kernel program's host stages read against the specification.

  A target's grid column and row words are the specification's grid words of its numbers 0 and 1, in 0 … 511, so no
  index is negative and the flat cell index row · 512 + column lies in 0 … 262143: every wrap is the identity and every
  read along an axis is in range. The owners' table holds, at a cell some target of the batch falls in, the number of
  the last such target, and −1 elsewhere; read back at a target's own cell and compared with the target's number it
  gives 1 exactly when the target owns its cell. The predictions read at the flat index are the predictions at the
  target's cell. The three host sums are then sums over the batch, the target (and the channel) of the specification's terms.
-/
import proofs.«421473_j29283087024789_3_alg».proof.Proof.KChain
import proofs.«421473_j29283087024789_3_alg».proof.Proof.Spec
import proofs.«421473_j29283087024789_3_alg».proof.Proof.LibScatterLast
import proofs.«421473_j29283087024789_3_alg».proof.Proof.LibGatherAlong
import proofs.«421473_j29283087024789_3_alg».proof.Proof.LibGatherAlong3
import proofs.«421473_j29283087024789_3_alg».proof.Proof.LibScatterConst
import proofs.«421473_j29283087024789_3_alg».proof.Proof.LibIdealReal
import proofs.«421473_j29283087024789_3_alg».proof.Proof.LibSumIdx
import Idealize.ShloMosaic.Lib.Pipeline.Value
import Idealize.ShloMosaic.Lib.ValueLayout
import Idealize.ShloMosaic.PureOps.Ideal.Laws

noncomputable section

namespace Cert.KernelIdeal.Ix

open Cert.KernelIdeal Cert.KernelIdeal.Gen Idealize.ShloMosaic Idealize.ShloMosaic.ValueIdx
open scoped BigOperators

variable (p : FVec Ideal S16x8x512x512 .f32) (t : FVec Ideal S16x64x7 .f32)

/-! ## The grid column and row of a target -/

/-- The targets' number 0 as a [16, 64] array, read at (b, n). -/
theorem coord0_apply (b : Fin 16) (n : Fin 64) : Ch.coord0 (F := Ideal) t (ix2 b n) = t (ix3 b n (0 : Fin 7)) := by
  unfold Ch.coord0
  refine (shapeCast_apply _ shapeCasts_S16x64x1_S16x64 (ix2 b n) (ix3 b n (0 : Fin 1)) ?_).trans ?_
  · rw [Shape.rowMajor_val_three, Shape.rowMajor_val_two]
    show (b.val * 64 + n.val) * 1 + 0 = b.val * 64 + n.val
    omega
  · exact extractStridedSlice_apply ![0, 0, 0] t slices_S16x64x7_S16x64x1_0_0_0 (ix3 b n (0 : Fin 1)) (ix3 b n (0 : Fin 7))
      (fun a => match a with
        | ⟨0, _⟩ => by show b.val = 0 + b.val; omega
        | ⟨1, _⟩ => by show n.val = 0 + n.val; omega
        | ⟨2, _⟩ => by show 0 = 0 + 0; omega)

/-- The targets' number 1 as a [16, 64] array, read at (b, n). -/
theorem coord1_apply (b : Fin 16) (n : Fin 64) : Ch.coord1 (F := Ideal) t (ix2 b n) = t (ix3 b n (1 : Fin 7)) := by
  unfold Ch.coord1
  refine (shapeCast_apply _ shapeCasts_S16x64x1_S16x64 (ix2 b n) (ix3 b n (0 : Fin 1)) ?_).trans ?_
  · rw [Shape.rowMajor_val_three, Shape.rowMajor_val_two]
    show (b.val * 64 + n.val) * 1 + 0 = b.val * 64 + n.val
    omega
  · exact extractStridedSlice_apply ![0, 0, 1] t slices_S16x64x7_S16x64x1_0_0_1 (ix3 b n (0 : Fin 1)) (ix3 b n (1 : Fin 7))
      (fun a => match a with
        | ⟨0, _⟩ => by show b.val = 0 + b.val; omega
        | ⟨1, _⟩ => by show n.val = 0 + n.val; omega
        | ⟨2, _⟩ => by show 1 = 1 + 0; omega)

/-- The grid array of a coordinate array holds, at every index, the grid word of the coordinate there. -/
theorem grid_apply (v : FVec Ideal S16x64 .f32) (j : S16x64.Idx) : Ch.grid (F := Ideal) v j = Cert.Spec.gridWord (v j) := rfl

/-- The grid column of target (b, n) is the grid word of its number 0. -/
theorem col_apply (b : Fin 16) (n : Fin 64) : Ch.col (F := Ideal) t (ix2 b n) = Cert.Spec.gridWord (t (ix3 b n (0 : Fin 7))) := by
  unfold Ch.col
  rw [grid_apply, coord0_apply]

/-- The grid row of target (b, n) is the grid word of its number 1. -/
theorem row_apply (b : Fin 16) (n : Fin 64) : Ch.row (F := Ideal) t (ix2 b n) = Cert.Spec.gridWord (t (ix3 b n (1 : Fin 7))) := by
  unfold Ch.row
  rw [grid_apply, coord1_apply]

/-- Read signed, the grid column word is the specification's column, a number in 0 … 511. -/
theorem col_toInt (b : Fin 16) (n : Fin 64) : (Ch.col (F := Ideal) t (ix2 b n)).toInt = ((Cert.Spec.cx t b n).val : ℤ) := by
  rw [col_apply]; exact Cert.Spec.gridWord_toInt _

/-- Read signed, the grid row word is the specification's row, a number in 0 … 511. -/
theorem row_toInt (b : Fin 16) (n : Fin 64) : (Ch.row (F := Ideal) t (ix2 b n)).toInt = ((Cert.Spec.cy t b n).val : ℤ) := by
  rw [row_apply]; exact Cert.Spec.gridWord_toInt _

/-! ## Words, read signed -/

/-- A 32-bit word whose signed value is a natural number below 2³¹ has that number as its unsigned value. -/
theorem toNat_of_toInt {x : BitVec 32} {m : ℕ} (h : x.toInt = (m : ℤ)) : x.toNat = m := by
  rw [BitVec.toInt_eq_toNat_cond] at h
  have := x.isLt
  split at h <;> omega

/-- The word of a natural number below 2³¹, read signed, is that number. -/
theorem toInt_ofNat_of_lt {m : ℕ} (h : m < 2147483648) : (BitVec.ofNat 32 m).toInt = (m : ℤ) := by
  rw [BitVec.toInt_eq_toNat_cond, BitVec.toNat_ofNat]
  have e : m % 2 ^ 32 = m := Nat.mod_eq_of_lt (by omega)
  rw [e, if_pos (by omega)]

/-- A word is the word of its signed value when that is a natural number. -/
theorem eq_ofNat_of_toInt {x : BitVec 32} {m : ℕ} (h : x.toInt = (m : ℤ)) : x = BitVec.ofNat 32 m := by
  apply BitVec.eq_of_toNat_eq
  rw [toNat_of_toInt h, BitVec.toNat_ofNat]
  have := x.isLt
  have := toNat_of_toInt h
  exact (Nat.mod_eq_of_lt (by omega)).symm

/-- The signed comparison "below zero" of a word that is not negative is the zero bit, so a select on it takes its
    second branch. -/
theorem select_slt_zero_of_nonneg {α : Type} (x : BitVec 32) (a c : α) (h : 0 ≤ x.toInt) :
    Scalar.select (IntOp.cmpi .slt x 0#32) a c = c := by
  have hs : x.slt 0#32 = false := by
    rw [BitVec.slt_eq_decide]
    have h0 : (0#32 : BitVec 32).toInt = 0 := by decide
    rw [h0]
    exact decide_eq_false (by omega)
  show (if BitVec.ofBool (x.slt 0#32) = 1 then a else c) = c
  rw [hs]
  exact if_neg (by decide)

/-- An index array's wrap leaves an entry that is not negative alone. -/
theorem wrap_apply_of_nonneg (v : IVec S16x64 32) (k : BitVec 32) (j : S16x64.Idx) (h : 0 ≤ (v j).toInt) :
    Ch.wrap v k j = v j :=
  select_slt_zero_of_nonneg (v j) _ _ h

/-- The batch number array at (b, n) is the word of b. -/
theorem bidx_apply (b : Fin 16) (n : Fin 64) : Ch.bidx (ix2 b n) = BitVec.ofNat 32 b.val := by
  unfold Ch.bidx
  refine (broadcastInDim_apply _ bcast_S16x1_S16x64_0_1 _ (ix2 b n) (ix2 b (0 : Fin 1)) (fun a => match a with
    | ⟨0, _⟩ => by show b.val = if (16 : Nat) = 1 then 0 else b.val; rw [if_neg (by decide)]
    | ⟨1, _⟩ => by show 0 = if (1 : Nat) = 1 then 0 else n.val; rw [if_pos rfl])).trans ?_
  refine (broadcastInDim_apply _ bcast_S16_S16x1_0 _ (ix2 b (0 : Fin 1)) (ix1 b) (fun a => match a with
    | ⟨0, _⟩ => by show b.val = if (16 : Nat) = 1 then 0 else b.val; rw [if_neg (by decide)])).trans ?_
  rfl

/-- The target number array at (b, n) is the word of n. -/
theorem nidx_apply (b : Fin 16) (n : Fin 64) : Ch.nidx (ix2 b n) = BitVec.ofNat 32 n.val := by
  unfold Ch.nidx
  refine (broadcastInDim_apply _ bcast_S1x64_S16x64_0_1 _ (ix2 b n) (ix2 (0 : Fin 1) n) (fun a => match a with
    | ⟨0, _⟩ => by show 0 = if (1 : Nat) = 1 then 0 else b.val; rw [if_pos rfl]
    | ⟨1, _⟩ => by show n.val = if (64 : Nat) = 1 then 0 else n.val; rw [if_neg (by decide)])).trans ?_
  refine (broadcastInDim_apply _ bcast_S64_S1x64_1 _ (ix2 (0 : Fin 1) n) (ix1 n) (fun a => match a with
    | ⟨0, _⟩ => by show n.val = if (64 : Nat) = 1 then 0 else n.val; rw [if_neg (by decide)])).trans ?_
  rfl

/-- Read signed, the batch number word is b. -/
theorem bidx_toInt (b : Fin 16) (n : Fin 64) : (Ch.bidx (ix2 b n)).toInt = (b.val : ℤ) := by
  rw [bidx_apply]; exact toInt_ofNat_of_lt (by have := b.isLt; omega)

/-- The flat cell index of target (b, n), read signed, is row · 512 + column. -/
theorem flat_toInt (b : Fin 16) (n : Fin 64) :
    (Ch.flat (F := Ideal) t (ix2 b n)).toInt = (((Cert.Spec.cy t b n).val * 512 + (Cert.Spec.cx t b n).val : ℕ) : ℤ) := by
  have hr := toNat_of_toInt (row_toInt t b n)
  have hc := toNat_of_toInt (col_toInt t b n)
  have hy := (Cert.Spec.cy t b n).isLt
  have hx := (Cert.Spec.cx t b n).isLt
  show ((Ch.row (F := Ideal) t (ix2 b n)) * 512#32 + (Ch.col (F := Ideal) t (ix2 b n))).toInt = _
  rw [BitVec.toInt_eq_toNat_cond, BitVec.toNat_add, BitVec.toNat_mul, hr, hc]
  have h512 : (512#32 : BitVec 32).toNat = 512 := by decide
  rw [h512]
  have e1 : (Cert.Spec.cy t b n).val * 512 % 2 ^ 32 = (Cert.Spec.cy t b n).val * 512 := Nat.mod_eq_of_lt (by omega)
  rw [e1]
  have e2 : ((Cert.Spec.cy t b n).val * 512 + (Cert.Spec.cx t b n).val) % 2 ^ 32
      = (Cert.Spec.cy t b n).val * 512 + (Cert.Spec.cx t b n).val := Nat.mod_eq_of_lt (by omega)
  rw [e2, if_pos (by omega)]

/-! ## The index triples -/

/-- A [16, 64] array stood up as [16, 64, 1] reads at (b, n, 0) the array at (b, n). -/
theorem bcast_unit_apply {α : Type} (v : S16x64.Idx → α) (b : Fin 16) (n : Fin 64) (u : Fin 1) :
    broadcastInDim S16x64x1 ![0, 1] bcast_S16x64_S16x64x1_0_1 v (ix3 b n u) = v (ix2 b n) :=
  broadcastInDim_apply _ bcast_S16x64_S16x64x1_0_1 v (ix3 b n u) (ix2 b n) (fun a => match a with
    | ⟨0, _⟩ => by show b.val = if (16 : Nat) = 1 then 0 else b.val; rw [if_neg (by decide)]
    | ⟨1, _⟩ => by show n.val = if (64 : Nat) = 1 then 0 else n.val; rw [if_neg (by decide)])

/-- Component 0 of target (b, n)'s triple is its batch number. -/
theorem triples_apply_zero (b : Fin 16) (n : Fin 64) :
    Ch.triples (F := Ideal) t (ix3 b n (0 : Fin 3)) = Ch.bidx (ix2 b n) := by
  unfold Ch.triples
  refine (concatenate_apply_piece (2 : Fin 3) _ _ (ix3 b n (0 : Fin 3))
    0 (by show (0 : ℕ) < 3; omega) S16x64x1 _ rfl rfl 0 rfl (ix3 b n (0 : Fin 1))
    (fun a ha => match a, ha with
      | ⟨0, _⟩, _ => rfl
      | ⟨1, _⟩, _ => rfl
      | ⟨2, _⟩, ha => absurd rfl ha) rfl).trans ?_
  rw [bcast_unit_apply]
  exact wrap_apply_of_nonneg _ _ _ (by rw [bidx_toInt]; omega)

/-- Component 1 is its grid row. -/
theorem triples_apply_one (b : Fin 16) (n : Fin 64) :
    Ch.triples (F := Ideal) t (ix3 b n (1 : Fin 3)) = Ch.row (F := Ideal) t (ix2 b n) := by
  unfold Ch.triples
  refine (concatenate_apply_piece (2 : Fin 3) _ _ (ix3 b n (1 : Fin 3))
    1 (by show (1 : ℕ) < 3; omega) S16x64x1 _ rfl rfl 1 rfl (ix3 b n (0 : Fin 1))
    (fun a ha => match a, ha with
      | ⟨0, _⟩, _ => rfl
      | ⟨1, _⟩, _ => rfl
      | ⟨2, _⟩, ha => absurd rfl ha) rfl).trans ?_
  rw [bcast_unit_apply]
  exact wrap_apply_of_nonneg _ _ _ (by rw [row_toInt]; omega)

/-- Component 2 is its grid column. -/
theorem triples_apply_two (b : Fin 16) (n : Fin 64) :
    Ch.triples (F := Ideal) t (ix3 b n (2 : Fin 3)) = Ch.col (F := Ideal) t (ix2 b n) := by
  unfold Ch.triples
  refine (concatenate_apply_piece (2 : Fin 3) _ _ (ix3 b n (2 : Fin 3))
    2 (by show (2 : ℕ) < 3; omega) S16x64x1 _ rfl rfl 2 rfl (ix3 b n (0 : Fin 1))
    (fun a ha => match a, ha with
      | ⟨0, _⟩, _ => rfl
      | ⟨1, _⟩, _ => rfl
      | ⟨2, _⟩, ha => absurd rfl ha) rfl).trans ?_
  rw [bcast_unit_apply]
  exact wrap_apply_of_nonneg _ _ _ (by rw [col_toInt]; omega)

/-! ## Where an update lands -/

/-- The scatter's dimension numbers: no window axes, all three operand axes inserted, the index vector (batch, row,
    column) on the last axis of the indices. -/
abbrev sd : ScatterDims S16x512x512 S16x64x3 S16x64 := scatter_S16x512x512_S16x64x3_S16x64_n_012_012_2

/-- There is no window: the window coordinate is zero on every operand axis. -/
theorem sd_window (k : S16x64.Idx) (a : Fin 3) : sd.window k a = 0 := by
  unfold ScatterDims.window
  rw [dif_neg]
  exact fun h => List.not_mem_nil (show a ∈ ([] : List (Fin 3)) from h)

/-- The index read for component c of update (b, n): the update's two coordinates, then c. -/
theorem sd_siIdx (b : Fin 16) (n : Fin 64) (c : Fin 3) : sd.siIdx (ix2 b n) c = ix3 b n c := by
  funext a
  match a with
  | ⟨0, _⟩ => rfl
  | ⟨1, _⟩ => rfl
  | ⟨2, _⟩ => rfl

/-- The start on the batch axis is component 0 of the update's triple, read signed. -/
theorem sd_start_zero (idx : IVec S16x64x3 32) (b : Fin 16) (n : Fin 64) :
    sd.start (ix2 b n) idx 0 = (idx (ix3 b n (0 : Fin 3))).toInt := by
  unfold ScatterDims.start
  have h0 : (0 : Fin 3) ∈ sd.scatterDimsToOperandDims := List.mem_cons_self
  rw [dif_pos h0]
  exact congrArg (fun q => (idx q).toInt) (sd_siIdx b n 0)

/-- The start on the row axis is component 1 of the update's triple, read signed. -/
theorem sd_start_one (idx : IVec S16x64x3 32) (b : Fin 16) (n : Fin 64) :
    sd.start (ix2 b n) idx 1 = (idx (ix3 b n (1 : Fin 3))).toInt := by
  unfold ScatterDims.start
  have h1 : (1 : Fin 3) ∈ sd.scatterDimsToOperandDims := List.mem_cons_of_mem _ List.mem_cons_self
  rw [dif_pos h1]
  exact congrArg (fun q => (idx q).toInt) (sd_siIdx b n 1)

/-- The start on the column axis is component 2 of the update's triple, read signed. -/
theorem sd_start_two (idx : IVec S16x64x3 32) (b : Fin 16) (n : Fin 64) :
    sd.start (ix2 b n) idx 2 = (idx (ix3 b n (2 : Fin 3))).toInt := by
  unfold ScatterDims.start
  have h2 : (2 : Fin 3) ∈ sd.scatterDimsToOperandDims :=
    List.mem_cons_of_mem _ (List.mem_cons_of_mem _ List.mem_cons_self)
  rw [dif_pos h2]
  exact congrArg (fun q => (idx q).toInt) (sd_siIdx b n 2)

/-- Update (b, n) lands on cell (b', y, x) exactly when b' is its batch and (y, x) its grid row and column. -/
theorem landing_iff (b : Fin 16) (n : Fin 64) (b' : Fin 16) (y x : Fin 512) :
    sd.resultIdx? (ix2 b n) (Ch.triples (F := Ideal) t) = some (ix3 b' y x)
      ↔ b' = b ∧ y = Cert.Spec.cy t b n ∧ x = Cert.Spec.cx t b n := by
  rw [ScatterDims.resultIdx?_eq_some_iff]
  constructor
  · intro h
    have e0 := h 0
    have e1 := h 1
    have e2 := h 2
    rw [sd_start_zero, sd_window, triples_apply_zero, bidx_toInt] at e0
    rw [sd_start_one, sd_window, triples_apply_one, row_toInt] at e1
    rw [sd_start_two, sd_window, triples_apply_two, col_toInt] at e2
    have e0' : (b.val : ℤ) + ((0 : ℕ) : ℤ) = (b'.val : ℤ) := e0
    have e1' : ((Cert.Spec.cy t b n).val : ℤ) + ((0 : ℕ) : ℤ) = (y.val : ℤ) := e1
    have e2' : ((Cert.Spec.cx t b n).val : ℤ) + ((0 : ℕ) : ℤ) = (x.val : ℤ) := e2
    exact ⟨Fin.ext (by omega), Fin.ext (by omega), Fin.ext (by omega)⟩
  · rintro ⟨rfl, rfl, rfl⟩ a
    match a with
    | ⟨0, _⟩ =>
      show sd.start (ix2 b' n) (Ch.triples (F := Ideal) t) 0 + ((sd.window (ix2 b' n) 0 : ℕ) : ℤ) = (b'.val : ℤ)
      rw [sd_start_zero, sd_window, triples_apply_zero, bidx_toInt]
      simp
    | ⟨1, _⟩ =>
      show sd.start (ix2 b' n) (Ch.triples (F := Ideal) t) 1 + ((sd.window (ix2 b' n) 1 : ℕ) : ℤ)
        = ((Cert.Spec.cy t b' n).val : ℤ)
      rw [sd_start_one, sd_window, triples_apply_one, row_toInt]
      simp
    | ⟨2, _⟩ =>
      show sd.start (ix2 b' n) (Ch.triples (F := Ideal) t) 2 + ((sd.window (ix2 b' n) 2 : ℕ) : ℤ)
        = ((Cert.Spec.cx t b' n).val : ℤ)
      rw [sd_start_two, sd_window, triples_apply_two, col_toInt]
      simp

/-! ## The owners' table -/

/-- The cell owners' table at (b, y, x): the word of the number of the last target of batch b that falls in the cell,
    the word −1 when none does. -/
theorem owners_apply (b : Fin 16) (y x : Fin 512) :
    Ch.owners (F := Ideal) t (ix3 b y x) = (match Cert.Spec.win t b y x with
      | some n => BitVec.ofNat 32 n.val
      | none => 4294967295#32) := by
  unfold Ch.owners
  cases hw : Cert.Spec.win t b y x with
  | none =>
    refine (Host.scatter_set_apply_of_no_landing sd _ (Ch.triples (F := Ideal) t) Ch.nidx (ix3 b y x) ?_).trans rfl
    intro j hj
    obtain ⟨b'', n', rfl⟩ : ∃ b'' n', j = ix2 b'' n' := ⟨j 0, j 1, eq_ix2 j⟩
    obtain ⟨hb, hy, hx⟩ := (landing_iff t b'' n' b y x).1 hj
    subst hb
    refine (Cert.Winner.winner_eq_none_iff (Cert.Spec.key t b) (y, x)).1 hw n' ?_
    show (Cert.Spec.cy t b n', Cert.Spec.cx t b n') = (y, x)
    rw [hy, hx]
  | some n =>
    obtain ⟨hkey, hmax⟩ := (Cert.Winner.winner_eq_some_iff (Cert.Spec.key t b) (y, x) n).1 hw
    have hy : y = Cert.Spec.cy t b n := (congrArg Prod.fst hkey).symm
    have hx : x = Cert.Spec.cx t b n := (congrArg Prod.snd hkey).symm
    refine (Host.scatter_set_apply_of_last sd _ (Ch.triples (F := Ideal) t) Ch.nidx (ix3 b y x) (ix2 b n)
      ((landing_iff t b n b y x).2 ⟨rfl, hy, hx⟩) ?_).trans (nidx_apply b n)
    intro j' hj'
    obtain ⟨b'', n', rfl⟩ : ∃ b'' n', j' = ix2 b'' n' := ⟨j' 0, j' 1, eq_ix2 j'⟩
    obtain ⟨hb, hy', hx'⟩ := (landing_iff t b'' n' b y x).1 hj'
    subst hb
    have hle : n' ≤ n := hmax n' (by
      show (Cert.Spec.cy t b n', Cert.Spec.cx t b n') = (y, x)
      rw [hy', hx'])
    have hle' : n'.val ≤ n.val := hle
    rw [Shape.rowMajor_val_two, Shape.rowMajor_val_two]
    show b.val * 64 + n'.val ≤ b.val * 64 + n.val
    omega

/-! ## Reading the table back at a target's own cell -/

/-- A fold of "and" over bits that are all one, from the one bit, is the one bit. -/
theorem foldl_andi_one {β : Type} (g : β → BitVec 1) (l : List β) (hg : ∀ n ∈ l, g n = 1#1) :
    l.foldl (fun r n => IntOp.andi r (g n)) 1#1 = 1#1 := by
  induction l with
  | nil => rfl
  | cons a l ih =>
    rw [List.foldl_cons, hg a List.mem_cons_self]
    exact ih (fun n hn => hg n (List.mem_cons_of_mem _ hn))

/-- An "and" reduction of an array of one bits, from the one bit, is the one bit everywhere. -/
theorem reduce_andi_eq_one {s t' u : Shape} {axes : List (Fin s.rank)} (x : s.Idx → BitVec 1) (init : u.Idx → BitVec 1)
    (h : s.ReducesTo axes t') (hu : 0 < u.numel) (j : t'.Idx) (hx : ∀ i, x i = 1#1) (hinit : ∀ i, init i = 1#1) :
    Host.reduce IntOp.andi x init h hu j = 1#1 := by
  unfold Host.reduce
  rw [hinit]
  exact foldl_andi_one (fun n => x (s.rowMajor.symm n)) _ (fun n _ => hx _)

/-- A select on the one bit takes its first branch. -/
theorem select_one {α : Type} (a c : α) : Scalar.select 1#1 a c = a := if_pos rfl

/-- The range test 0 ≤ v ≤ 262143 of a word whose signed value is in that range is the one bit. -/
theorem range_mask_eq_one (v : BitVec 32) (h0 : 0 ≤ v.toInt) (h1 : v.toInt ≤ 262143) :
    IntOp.andi (IntOp.cmpi .sge v 0#32) (IntOp.cmpi .sle v 262143#32) = 1#1 := by
  have e0 : (0#32 : BitVec 32).toInt = 0 := by decide
  have e1 : (262143#32 : BitVec 32).toInt = 262143 := by decide
  have a : (0#32 : BitVec 32).sle v = true := by
    rw [BitVec.sle_eq_decide, e0]; exact decide_eq_true h0
  have c : v.sle 262143#32 = true := by
    rw [BitVec.sle_eq_decide, e1]; exact decide_eq_true h1
  show BitVec.ofBool ((0#32 : BitVec 32).sle v) &&& BitVec.ofBool (v.sle 262143#32) = 1#1
  rw [a, c]
  decide

/-- The index array of the read-back: the flat index, wrapped when negative, as a [16, 64, 1] array. -/
def ownIx : IVec S16x64x1 32 :=
  shapeCast S16x64x1
    (select (cmpi .slt (Ch.flat (F := Ideal) t) (broadcastInDim S16x64 ![] bcast_S_S16x64 (constantI S_ 32 0#32)))
      (addi (Ch.flat (F := Ideal) t) (broadcastInDim S16x64 ![] bcast_S_S16x64 (constantI S_ 32 262144#32))) (Ch.flat (F := Ideal) t))
    shapeCasts_S16x64_S16x64x1

/-- The wrap is the identity: the index array at (b, n, 0) is the flat index of (b, n). -/
theorem ownIx_apply (b : Fin 16) (n : Fin 64) (u : Fin 1) : ownIx t (ix3 b n u) = Ch.flat (F := Ideal) t (ix2 b n) := by
  unfold ownIx
  refine (shapeCast_apply _ shapeCasts_S16x64_S16x64x1 (ix3 b n u) (ix2 b n) ?_).trans ?_
  · rw [Shape.rowMajor_val_three, Shape.rowMajor_val_two]
    show b.val * 64 + n.val = (b.val * 64 + n.val) * 1 + u.val
    omega
  · exact select_slt_zero_of_nonneg _ _ _ (by rw [flat_toInt]; omega)

/-- The read-back, written over its index array: where the index passes the range test, the table flattened per batch
    read along its second axis at the index; elsewhere the least word. -/
theorem ownerAt_eq : Ch.ownerAt (F := Ideal) t =
    select
      (Host.reduce IntOp.andi
        (andi (cmpi .sge (ownIx t) (broadcastInDim S16x64x1 ![] bcast_S_S16x64x1 (constantI S_ 32 0#32)))
          (cmpi .sle (ownIx t) (broadcastInDim S16x64x1 ![0, 1, 2] bcast_S1x1x1_S16x64x1_0_1_2 (broadcastInDim S1x1x1 ![2] bcast_S1_S1x1x1_2 (constantI S1 32 262143#32)))))
        (constantI S_ 1 1#1) reducesTo_S16x64x1_S16x64_d2 h_S_)
      (Host.gather gather_S16x262144_S16x64x1_S16x64_n_1_0_0_1_2_11
        (shapeCast S16x262144 (Ch.owners (F := Ideal) t) shapeCasts_S16x512x512_S16x262144) (ownIx t))
      (broadcastInDim S16x64 ![] bcast_S_S16x64 (constantI S_ 32 2147483648#32)) := rfl

/-- The owner read back at target (b, n)'s own cell is the table's entry at that cell. -/
theorem ownerAt_apply (b : Fin 16) (n : Fin 64) :
    Ch.ownerAt (F := Ideal) t (ix2 b n) = Ch.owners (F := Ideal) t (ix3 b (Cert.Spec.cy t b n) (Cert.Spec.cx t b n)) := by
  have hy := (Cert.Spec.cy t b n).isLt
  have hx := (Cert.Spec.cx t b n).isLt
  rw [ownerAt_eq]
  show Scalar.select (Host.reduce IntOp.andi _ _ reducesTo_S16x64x1_S16x64_d2 h_S_ (ix2 b n)) _ _ = _
  rw [reduce_andi_eq_one _ (constantI S_ 1 1#1) _ _ _ (fun i => by
    obtain ⟨b', n', u, rfl⟩ : ∃ b' n' u, i = ix3 b' n' u := ⟨i 0, i 1, i 2, eq_ix3 i⟩
    show IntOp.andi (IntOp.cmpi .sge (ownIx t (ix3 b' n' u)) 0#32) (IntOp.cmpi .sle (ownIx t (ix3 b' n' u)) 262143#32) = 1#1
    have hy' := (Cert.Spec.cy t b' n').isLt
    have hx' := (Cert.Spec.cx t b' n').isLt
    exact range_mask_eq_one _ (by rw [ownIx_apply, flat_toInt]; omega) (by rw [ownIx_apply, flat_toInt]; omega)) (fun _ => rfl)]
  rw [select_one]
  refine (Host.gather_along_apply_of (R := 16) (N := 262144) (C := 64) (by omega)
    gather_S16x262144_S16x64x1_S16x64_n_1_0_0_1_2_11 rfl rfl rfl rfl rfl rfl rfl _ (ownIx t) b n).trans ?_
  refine shapeCast_apply _ shapeCasts_S16x512x512_S16x262144 _ (ix3 b (Cert.Spec.cy t b n) (Cert.Spec.cx t b n)) ?_
  rw [Shape.rowMajor_val_three, Shape.rowMajor_val_two]
  show (b.val * 512 + (Cert.Spec.cy t b n).val) * 512 + (Cert.Spec.cx t b n).val
    = b.val * 262144 + min (ownIx t (ix3 b n (0 : Fin 1))).toInt.toNat (262144 - 1)
  rw [ownIx_apply, flat_toInt]
  omega

/-! ## The owner mark -/

theorem cmpi_eq_self (v : BitVec 32) : IntOp.cmpi .eq v v = 1#1 := by
  show BitVec.ofBool (v == v) = 1#1
  rw [beq_self_eq_true]
  rfl

/-- The equality test of two different words is the zero bit. -/
theorem cmpi_eq_of_ne (v v' : BitVec 32) (h : v ≠ v') : IntOp.cmpi .eq v v' = 0#1 := by
  show BitVec.ofBool (v == v') = 0#1
  rw [beq_eq_false_iff_ne.2 h]
  rfl

/-- The words of two numbers below 64 are equal only when the numbers are. -/
theorem ofNat_ne_of_ne {m n : Fin 64} (h : m ≠ n) : BitVec.ofNat 32 m.val ≠ BitVec.ofNat 32 n.val := by
  intro e
  have e' := congrArg BitVec.toNat e
  rw [BitVec.toNat_ofNat, BitVec.toNat_ofNat] at e'
  have := m.isLt
  have := n.isLt
  exact h (Fin.ext (by omega))

/-- The word −1 is the word of no number below 64. -/
theorem neg_one_ne_ofNat (n : Fin 64) : (4294967295#32 : BitVec 32) ≠ BitVec.ofNat 32 n.val := by
  intro e
  have e' := congrArg BitVec.toNat e
  rw [BitVec.toNat_ofNat, BitVec.toNat_ofNat] at e'
  have := n.isLt
  omega

/-- The owner mark of target (b, n): 1 when it is the last target of its batch in its cell, else 0. -/
theorem isOwner_apply (b : Fin 16) (n : Fin 64) : Ch.isOwner (F := Ideal) t (ix2 b n) = Cert.Spec.isw t b n := by
  show ((((IntOp.cmpi .eq (Ch.ownerAt (F := Ideal) t (ix2 b n)) (Ch.nidx (ix2 b n))).toNat : ℕ) : ℝ) : EReal) = _
  rw [ownerAt_apply, owners_apply, nidx_apply]
  unfold Cert.Spec.isw
  cases hw : Cert.Spec.win t b (Cert.Spec.cy t b n) (Cert.Spec.cx t b n) with
  | none =>
    rw [if_neg (by simp)]
    show ((((IntOp.cmpi .eq (4294967295#32 : BitVec 32) (BitVec.ofNat 32 n.val)).toNat : ℕ) : ℝ) : EReal) = 0
    rw [cmpi_eq_of_ne _ _ (neg_one_ne_ofNat n)]
    simp
  | some m =>
    show ((((IntOp.cmpi .eq (BitVec.ofNat 32 m.val) (BitVec.ofNat 32 n.val)).toNat : ℕ) : ℝ) : EReal) = _
    by_cases hmn : m = n
    · subst hmn
      rw [if_pos rfl, cmpi_eq_self]
      simp
    · rw [if_neg (by simpa using hmn), cmpi_eq_of_ne _ _ (ofNat_ne_of_ne hmn)]
      simp

/-! ## The predictions at a target's cell -/

/-- The flat index broadcast over the eight channels. -/
def cellFl : IVec S16x8x64 32 :=
  broadcastInDim S16x8x64 ![0, 1, 2] bcast_S16x1x64_S16x8x64_0_1_2
    (broadcastInDim S16x1x64 ![0, 2] bcast_S16x64_S16x1x64_0_2 (Ch.flat (F := Ideal) t))

/-- The broadcast flat index at (b, ch, n) is the flat index of (b, n), whatever the channel. -/
theorem cellFl_apply (b : Fin 16) (ch : Fin 8) (n : Fin 64) : cellFl t (ix3 b ch n) = Ch.flat (F := Ideal) t (ix2 b n) := by
  unfold cellFl
  refine (broadcastInDim_apply _ bcast_S16x1x64_S16x8x64_0_1_2 _ (ix3 b ch n) (ix3 b (0 : Fin 1) n) (fun a => match a with
    | ⟨0, _⟩ => by show b.val = if (16 : Nat) = 1 then 0 else b.val; rw [if_neg (by decide)]
    | ⟨1, _⟩ => by show 0 = if (1 : Nat) = 1 then 0 else ch.val; rw [if_pos rfl]
    | ⟨2, _⟩ => by show n.val = if (64 : Nat) = 1 then 0 else n.val; rw [if_neg (by decide)])).trans ?_
  exact broadcastInDim_apply _ bcast_S16x64_S16x1x64_0_2 _ (ix3 b (0 : Fin 1) n) (ix2 b n) (fun a => match a with
    | ⟨0, _⟩ => by show b.val = if (16 : Nat) = 1 then 0 else b.val; rw [if_neg (by decide)]
    | ⟨1, _⟩ => by show n.val = if (64 : Nat) = 1 then 0 else n.val; rw [if_neg (by decide)])

/-- The index array of the read: the broadcast flat index, wrapped when negative, as a [16, 8, 64, 1] array. -/
def cellIx : IVec S16x8x64x1 32 :=
  shapeCast S16x8x64x1
    (select (cmpi .slt (cellFl t) (broadcastInDim S16x8x64 ![] bcast_S_S16x8x64 (constantI S_ 32 0#32)))
      (addi (cellFl t) (broadcastInDim S16x8x64 ![] bcast_S_S16x8x64 (constantI S_ 32 262144#32))) (cellFl t))
    shapeCasts_S16x8x64_S16x8x64x1

/-- The wrap is the identity: the index array at (b, ch, n, 0) is the flat index of (b, n). -/
theorem cellIx_apply (b : Fin 16) (ch : Fin 8) (n : Fin 64) (u : Fin 1) :
    cellIx t (ix4 b ch n u) = Ch.flat (F := Ideal) t (ix2 b n) := by
  unfold cellIx
  refine (shapeCast_apply _ shapeCasts_S16x8x64_S16x8x64x1 (ix4 b ch n u) (ix3 b ch n) ?_).trans ?_
  · rw [Shape.rowMajor_val_four, Shape.rowMajor_val_three]
    show (b.val * 8 + ch.val) * 64 + n.val = ((b.val * 8 + ch.val) * 64 + n.val) * 1 + u.val
    omega
  · refine (select_slt_zero_of_nonneg _ _ _ (by rw [cellFl_apply, flat_toInt]; omega)).trans ?_
    exact cellFl_apply t b ch n

/-- The gathered predictions, written over their index array: where the index passes the range test, the predictions
    flattened per batch and channel read along their third axis at the index; elsewhere the not-a-number pattern. -/
theorem atCells_eq : Ch.atCells (F := Ideal) p t =
    select
      (Host.reduce IntOp.andi
        (andi (cmpi .sge (cellIx t) (broadcastInDim S16x8x64x1 ![] bcast_S_S16x8x64x1 (constantI S_ 32 0#32)))
          (cmpi .sle (cellIx t) (broadcastInDim S16x8x64x1 ![0, 1, 2, 3] bcast_S1x1x1x1_S16x8x64x1_0_1_2_3 (broadcastInDim S1x1x1x1 ![3] bcast_S1_S1x1x1x1_3 (constantI S1 32 262143#32)))))
        (constantI S_ 1 1#1) reducesTo_S16x8x64x1_S16x8x64_d3 h_S_)
      (Host.gather gather_S16x8x262144_S16x8x64x1_S16x8x64_n_2_01_01_2_3_111
        (shapeCast S16x8x262144 p shapeCasts_S16x8x512x512_S16x8x262144) (cellIx t))
      (broadcastInDim S16x8x64 ![] bcast_S_S16x8x64 (constant S_ .f32 0x7FC00000#32)) := rfl

/-- The gathered predictions at (b, ch, n): channel ch of batch b at target (b, n)'s cell. -/
theorem atCells_apply (b : Fin 16) (ch : Fin 8) (n : Fin 64) :
    Ch.atCells (F := Ideal) p t (ix3 b ch n) = p (ix4 b ch (Cert.Spec.cy t b n) (Cert.Spec.cx t b n)) := by
  have hy := (Cert.Spec.cy t b n).isLt
  have hx := (Cert.Spec.cx t b n).isLt
  rw [atCells_eq]
  show Scalar.select (Host.reduce IntOp.andi _ _ reducesTo_S16x8x64x1_S16x8x64_d3 h_S_ (ix3 b ch n)) _ _ = _
  rw [reduce_andi_eq_one _ (constantI S_ 1 1#1) _ _ _ (fun i => by
    obtain ⟨b', c', n', u, rfl⟩ : ∃ b' c' n' u, i = ix4 b' c' n' u := ⟨i 0, i 1, i 2, i 3, eq_ix4 i⟩
    show IntOp.andi (IntOp.cmpi .sge (cellIx t (ix4 b' c' n' u)) 0#32) (IntOp.cmpi .sle (cellIx t (ix4 b' c' n' u)) 262143#32) = 1#1
    have hy' := (Cert.Spec.cy t b' n').isLt
    have hx' := (Cert.Spec.cx t b' n').isLt
    exact range_mask_eq_one _ (by rw [cellIx_apply, flat_toInt]; omega) (by rw [cellIx_apply, flat_toInt]; omega)) (fun _ => rfl)]
  rw [select_one]
  refine (Host.gather_along3_apply_of (A := 16) (B := 8) (N := 262144) (C := 64) (by omega)
    gather_S16x8x262144_S16x8x64x1_S16x8x64_n_2_01_01_2_3_111 rfl rfl rfl rfl rfl rfl rfl _ (cellIx t) b ch n).trans ?_
  refine shapeCast_apply _ shapeCasts_S16x8x512x512_S16x8x262144 _ (ix4 b ch (Cert.Spec.cy t b n) (Cert.Spec.cx t b n)) ?_
  rw [Shape.rowMajor_val_four, Shape.rowMajor_val_three]
  show ((b.val * 8 + ch.val) * 512 + (Cert.Spec.cy t b n).val) * 512 + (Cert.Spec.cx t b n).val
    = (b.val * 8 + ch.val) * 262144 + min (cellIx t (ix4 b ch n (0 : Fin 1))).toInt.toNat (262144 - 1)
  rw [cellIx_apply, flat_toInt]
  omega

/-! ## The channel-last predictions and the three sums -/

/-- The gathered predictions with the channel last, at (b, n, ch). -/
theorem atCellsT_apply (b : Fin 16) (n : Fin 64) (ch : Fin 8) :
    Ch.atCellsT (F := Ideal) p t (ix3 b n ch) = p (ix4 b ch (Cert.Spec.cy t b n) (Cert.Spec.cx t b n)) := by
  unfold Ch.atCellsT
  exact (transpose_apply [0, 2, 1] _ transposes_S16x8x64_S16x64x8_0_2_1 (ix3 b n ch) (ix3 b ch n) (fun a => match a with
    | ⟨0, _⟩ => rfl
    | ⟨1, _⟩ => rfl
    | ⟨2, _⟩ => rfl)).trans (atCells_apply p t b ch n)

/-- The first channel as a [16, 64] array, at (b, n). -/
theorem logit_apply (v : FVec Ideal S16x64x8 .f32) (b : Fin 16) (n : Fin 64) :
    shapeCast S16x64 (extractStridedSlice S16x64x1 ![0, 0, 0] v slices_S16x64x8_S16x64x1_0_0_0) shapeCasts_S16x64x1_S16x64 (ix2 b n)
      = v (ix3 b n (0 : Fin 8)) := by
  refine (shapeCast_apply _ shapeCasts_S16x64x1_S16x64 (ix2 b n) (ix3 b n (0 : Fin 1)) ?_).trans ?_
  · rw [Shape.rowMajor_val_three, Shape.rowMajor_val_two]
    show (b.val * 64 + n.val) * 1 + 0 = b.val * 64 + n.val
    omega
  · exact extractStridedSlice_apply ![0, 0, 0] v slices_S16x64x8_S16x64x1_0_0_0 (ix3 b n (0 : Fin 1)) (ix3 b n (0 : Fin 8))
      (fun a => match a with
        | ⟨0, _⟩ => by show b.val = 0 + b.val; omega
        | ⟨1, _⟩ => by show n.val = 0 + n.val; omega
        | ⟨2, _⟩ => by show 0 = 0 + 0; omega)

/-- The difference array at (b, n, k): channel k + 1 at the target's cell less the target's number k. -/
theorem diff_apply (b : Fin 16) (n : Fin 64) (k : Fin 7) :
    Ch.diff (F := Ideal) p t (ix3 b n k)
      = p (ix4 b k.succ (Cert.Spec.cy t b n) (Cert.Spec.cx t b n)) - t (ix3 b n k) := by
  show extractStridedSlice S16x64x7 ![0, 0, 1] (Ch.atCellsT (F := Ideal) p t) slices_S16x64x8_S16x64x7_0_0_1 (ix3 b n k) - t (ix3 b n k) = _
  rw [extractStridedSlice_apply ![0, 0, 1] (Ch.atCellsT (F := Ideal) p t) slices_S16x64x8_S16x64x7_0_0_1 (ix3 b n k) (ix3 b n k.succ)
    (fun a => match a with
      | ⟨0, _⟩ => by show b.val = 0 + b.val; omega
      | ⟨1, _⟩ => by show n.val = 0 + n.val; omega
      | ⟨2, _⟩ => by show k.val + 1 = 1 + k.val; omega), atCellsT_apply]

/-- The owner mark broadcast over the seven numbers, at (b, n, k). -/
theorem isOwner_bcast_apply (b : Fin 16) (n : Fin 64) (k : Fin 7) :
    broadcastInDim S16x64x7 ![0, 1, 2] bcast_S16x64x1_S16x64x7_0_1_2
      (broadcastInDim S16x64x1 ![0, 1] bcast_S16x64_S16x64x1_0_1 (Ch.isOwner (F := Ideal) t)) (ix3 b n k) = Cert.Spec.isw t b n := by
  refine (broadcastInDim_apply _ bcast_S16x64x1_S16x64x7_0_1_2 _ (ix3 b n k) (ix3 b n (0 : Fin 1)) (fun a => match a with
    | ⟨0, _⟩ => by show b.val = if (16 : Nat) = 1 then 0 else b.val; rw [if_neg (by decide)]
    | ⟨1, _⟩ => by show n.val = if (64 : Nat) = 1 then 0 else n.val; rw [if_neg (by decide)]
    | ⟨2, _⟩ => by show 0 = if (1 : Nat) = 1 then 0 else k.val; rw [if_pos rfl])).trans ?_
  rw [bcast_unit_apply]
  exact isOwner_apply t b n

/-- The count of owners is the sum of the owner marks. -/
theorem count_eq :
    Ch.count (F := Ideal) t = fun _ => ∑ b : Fin 16, ∑ n : Fin 64, Cert.Spec.isw t b n := by
  funext j
  unfold Ch.count
  simp only [Host.reduceAdd, Ideal.hostReduceAdd_def]
  refine (Ideal.hostReduceAdd_total reducesTo_S16x64_S_d0_1 (fun b => b.elim0) _ _ j).trans ?_
  rw [sum_idx2]
  show Ideal.ofBits .f32 0x00000000#32 + _ = _
  rw [IdealReal.ofBits_zero, zero_add]
  exact Finset.sum_congr rfl fun b _ => Finset.sum_congr rfl fun n _ => isOwner_apply t b n

/-- The owners' logit sum. -/
theorem ownerLogitSum_eq :
    Ch.ownerLogitSum (F := Ideal) p t
      = fun _ => ∑ b : Fin 16, ∑ n : Fin 64,
          p (ix4 b (0 : Fin 8) (Cert.Spec.cy t b n) (Cert.Spec.cx t b n)) * Cert.Spec.isw t b n := by
  funext j
  unfold Ch.ownerLogitSum
  simp only [Host.reduceAdd, Ideal.hostReduceAdd_def]
  refine (Ideal.hostReduceAdd_total reducesTo_S16x64_S_d0_1 (fun b => b.elim0) _ _ j).trans ?_
  rw [sum_idx2]
  show Ideal.ofBits .f32 0x00000000#32 + _ = _
  rw [IdealReal.ofBits_zero, zero_add]
  refine Finset.sum_congr rfl fun b _ => Finset.sum_congr rfl fun n _ => ?_
  show shapeCast S16x64 (extractStridedSlice S16x64x1 ![0, 0, 0] (Ch.atCellsT (F := Ideal) p t) slices_S16x64x8_S16x64x1_0_0_0)
      shapeCasts_S16x64x1_S16x64 (ix2 b n) * Ch.isOwner (F := Ideal) t (ix2 b n) = _
  rw [logit_apply, atCellsT_apply, isOwner_apply]

/-- The owners' smooth-L1 sum. -/
theorem regSum_eq :
    Ch.regSum (F := Ideal) p t
      = fun _ => ∑ b : Fin 16, ∑ n : Fin 64, ∑ k : Fin 7,
          Cert.Spec.sl1 (p (ix4 b k.succ (Cert.Spec.cy t b n) (Cert.Spec.cx t b n)) - t (ix3 b n k)) * Cert.Spec.isw t b n := by
  funext j
  unfold Ch.regSum
  simp only [Host.reduceAdd, Ideal.hostReduceAdd_def]
  refine (Ideal.hostReduceAdd_total reducesTo_S16x64x7_S_d0_1_2 (fun b => b.elim0) _ _ j).trans ?_
  rw [sum_idx3]
  show Ideal.ofBits .f32 0x00000000#32 + _ = _
  rw [IdealReal.ofBits_zero, zero_add]
  refine Finset.sum_congr rfl fun b _ => Finset.sum_congr rfl fun n _ => Finset.sum_congr rfl fun k _ => ?_
  show Cert.Spec.sl1 (Ch.diff (F := Ideal) p t (ix3 b n k))
      * broadcastInDim S16x64x7 ![0, 1, 2] bcast_S16x64x1_S16x64x7_0_1_2
          (broadcastInDim S16x64x1 ![0, 1] bcast_S16x64_S16x64x1_0_1 (Ch.isOwner (F := Ideal) t)) (ix3 b n k) = _
  rw [diff_apply, isOwner_bcast_apply]

end Cert.KernelIdeal.Ix

end
-- ==== Proof.RIndex.lean ====
/-
  The reference program's stages read against the specification.

  The reference scatters the constant 1 into a zero array of cells (the mask: 1 at a cell some target falls in, 0
  elsewhere) and each target's seven numbers into a zero array of cells × 7 (at a cell some target of the batch falls
  in, the numbers of the last such target; 0 elsewhere): the specification's mask and owner's numbers. Its three sums —
  of the mask, of the classification term over the cells, of the masked smooth-L1 terms over cells and channels — are
  then iterated sums of the specification's terms.
-/
import proofs.«421473_j29283087024789_3_alg».proof.Proof.RefRead
import proofs.«421473_j29283087024789_3_alg».proof.Proof.Spec
import proofs.«421473_j29283087024789_3_alg».proof.Proof.LibScatterLast
import proofs.«421473_j29283087024789_3_alg».proof.Proof.LibScatterConst
import proofs.«421473_j29283087024789_3_alg».proof.Proof.LibIdealReal
import proofs.«421473_j29283087024789_3_alg».proof.Proof.LibSumIdx
import Idealize.ShloMosaic.Lib.Pipeline.Value
import Idealize.ShloMosaic.Lib.ValueLayout
import Idealize.ShloMosaic.PureOps.Ideal.Laws

noncomputable section

namespace Cert.ReferenceIdeal.Ix

open Cert.ReferenceIdeal Cert.ReferenceIdeal.Gen Cert.ReferenceIdeal.ReadP Idealize.ShloMosaic Idealize.ShloMosaic.ValueIdx
open scoped BigOperators

variable (p : FVec Ideal S16x8x512x512 .f32) (t : FVec Ideal S16x64x7 .f32)

/-! ## The grid words of a target -/

/-- The slice-and-reshape index of number 0 of target (b, n). -/
theorem idx_v4 (b : Fin 16) (n : Fin 64) : idx_main_v3 (idx_main_v4 (ix2 b n)) = ix3 b n (0 : Fin 7) := by
  funext a
  match a with
  | ⟨0, _⟩ => apply Fin.ext; show (b.val * 64 + n.val) / 64 = b.val; omega
  | ⟨1, _⟩ => apply Fin.ext; show (b.val * 64 + n.val) / 1 % 64 = n.val; omega
  | ⟨2, _⟩ => rfl

theorem idx_v10 (b : Fin 16) (n : Fin 64) : idx_main_v9 (idx_main_v10 (ix2 b n)) = ix3 b n (1 : Fin 7) := by
  funext a
  match a with
  | ⟨0, _⟩ => apply Fin.ext; show (b.val * 64 + n.val) / 64 = b.val; omega
  | ⟨1, _⟩ => apply Fin.ext; show (b.val * 64 + n.val) / 1 % 64 = n.val; omega
  | ⟨2, _⟩ => rfl

/-- The column word of target (b, n). -/
theorem v8_apply (b : Fin 16) (n : Fin 64) :
    val_main_v8 (F := Ideal) t (ix2 b n) = Cert.Spec.gridWord (t (ix3 b n (0 : Fin 7))) := by
  rw [val_main_v8_apply, val_main_v7_apply, val_main_call0_v4_apply, val_main_call0_v3_apply, val_main_c_0_apply,
    val_main_call0_v2_apply, val_main_call0_v1_apply, val_main_call0_v0_apply, val_main_c_apply,
    val_main_v6_apply, val_main_v4_apply, val_main_v3_apply, val_main_v5_apply, val_main_cst_apply, idx_v4]
  rfl

theorem v14_apply (b : Fin 16) (n : Fin 64) :
    val_main_v14 (F := Ideal) t (ix2 b n) = Cert.Spec.gridWord (t (ix3 b n (1 : Fin 7))) := by
  rw [val_main_v14_apply, val_main_v13_apply, val_main_call1_v4_apply, val_main_call1_v3_apply, val_main_c_3_apply,
    val_main_call1_v2_apply, val_main_call1_v1_apply, val_main_call1_v0_apply, val_main_c_2_apply,
    val_main_v12_apply, val_main_v10_apply, val_main_v9_apply, val_main_v11_apply, val_main_cst_1_apply, idx_v10]
  rfl

/-- A negative-index wrap leaves a word that reads nonnegative alone. -/
theorem wrap_id (v k : BitVec 32) (h : 0 ≤ v.toInt) :
    Scalar.select (IntOp.cmpi .slt v 0#32) (IntOp.addi v k) v = v := by
  have hs : v.slt 0#32 = false := by
    rw [BitVec.slt_eq_decide]
    have h0 : (0#32 : BitVec 32).toInt = 0 := by decide
    rw [h0]
    exact decide_eq_false (by omega)
  show Scalar.select (BitVec.ofBool (v.slt 0#32)) (IntOp.addi v k) v = v
  rw [hs]
  exact select_zero _ _

/-- The batch word of target (b, n). -/
theorem v17_apply (b : Fin 16) (n : Fin 64) : val_main_v17 (F := Ideal) (ix2 b n) = BitVec.ofNat 32 b.val := by
  rw [val_main_v17_apply, val_main_v16_apply, val_main_v15_apply]

/-- A small number, as a 32-bit word read signed, is itself. -/
theorem ofNat_toInt_of_lt (m : Nat) (h : m < 512) : (BitVec.ofNat 32 m).toInt = (m : Int) := by
  have hn : (BitVec.ofNat 32 m).toNat = m := by
    rw [BitVec.toNat_ofNat]; omega
  rw [BitVec.toInt_eq_toNat_of_lt (by rw [hn]; omega), hn]

/-- The wrapped batch, row and column words of target (b, n), for the first scatter. -/
theorem v23_apply (b : Fin 16) (n : Fin 64) : val_main_v23 (F := Ideal) (ix2 b n) = BitVec.ofNat 32 b.val := by
  rw [val_main_v23_apply, val_main_v20_apply, val_main_v22_apply, val_main_v19_apply, val_main_c_5_apply, v17_apply]
  exact wrap_id _ _ (by rw [ofNat_toInt_of_lt _ (by have := b.isLt; omega)]; omega)

theorem v28_apply (b : Fin 16) (n : Fin 64) :
    val_main_v28 (F := Ideal) t (ix2 b n) = Cert.Spec.gridWord (t (ix3 b n (1 : Fin 7))) := by
  rw [val_main_v28_apply, val_main_v25_apply, val_main_v27_apply, val_main_v24_apply, val_main_c_7_apply, v14_apply]
  exact wrap_id _ _ (Cert.Spec.gridWord_range _).1

theorem v33_apply (b : Fin 16) (n : Fin 64) :
    val_main_v33 (F := Ideal) t (ix2 b n) = Cert.Spec.gridWord (t (ix3 b n (0 : Fin 7))) := by
  rw [val_main_v33_apply, val_main_v30_apply, val_main_v32_apply, val_main_v29_apply, val_main_c_9_apply, v8_apply]
  exact wrap_id _ _ (Cert.Spec.gridWord_range _).1

/-- The same for the second scatter. -/
theorem v44_apply (b : Fin 16) (n : Fin 64) : val_main_v44 (F := Ideal) (ix2 b n) = BitVec.ofNat 32 b.val := by
  rw [val_main_v44_apply, val_main_v41_apply, val_main_v43_apply, val_main_v40_apply, val_main_c_12_apply, v17_apply]
  exact wrap_id _ _ (by rw [ofNat_toInt_of_lt _ (by have := b.isLt; omega)]; omega)

theorem v49_apply (b : Fin 16) (n : Fin 64) :
    val_main_v49 (F := Ideal) t (ix2 b n) = Cert.Spec.gridWord (t (ix3 b n (1 : Fin 7))) := by
  rw [val_main_v49_apply, val_main_v46_apply, val_main_v48_apply, val_main_v45_apply, val_main_c_14_apply, v14_apply]
  exact wrap_id _ _ (Cert.Spec.gridWord_range _).1

theorem v54_apply (b : Fin 16) (n : Fin 64) :
    val_main_v54 (F := Ideal) t (ix2 b n) = Cert.Spec.gridWord (t (ix3 b n (0 : Fin 7))) := by
  rw [val_main_v54_apply, val_main_v51_apply, val_main_v53_apply, val_main_v50_apply, val_main_c_16_apply, v8_apply]
  exact wrap_id _ _ (Cert.Spec.gridWord_range _).1

/-- A column broadcast [16, 64] → [16, 64, 1] reads its operand at (b, n). -/
theorem idx_col (b : Fin 16) (n : Fin 64) (c : Fin 1) : idx_main_v34 (ix3 b n c) = ix2 b n := by
  funext a
  match a with
  | ⟨0, _⟩ => rfl
  | ⟨1, _⟩ => rfl

/-- Three [16, 64, 1] pieces joined along the last axis, read at (b, n, c): piece c at (b, n, 0). -/
theorem concat3_apply {α : Type} (x0 x1 x2 : S16x64x1.Idx → α) (b : Fin 16) (n : Fin 64) :
    concatenate S16x64x3 2 [⟨S16x64x1, x0⟩, ⟨S16x64x1, x1⟩, ⟨S16x64x1, x2⟩]
        concatenates_S16x64x1_S16x64x1_S16x64x1_S16x64x3_d2 (ix3 b n (0 : Fin 3)) = x0 (ix3 b n (0 : Fin 1)) ∧
    concatenate S16x64x3 2 [⟨S16x64x1, x0⟩, ⟨S16x64x1, x1⟩, ⟨S16x64x1, x2⟩]
        concatenates_S16x64x1_S16x64x1_S16x64x1_S16x64x3_d2 (ix3 b n (1 : Fin 3)) = x1 (ix3 b n (0 : Fin 1)) ∧
    concatenate S16x64x3 2 [⟨S16x64x1, x0⟩, ⟨S16x64x1, x1⟩, ⟨S16x64x1, x2⟩]
        concatenates_S16x64x1_S16x64x1_S16x64x1_S16x64x3_d2 (ix3 b n (2 : Fin 3)) = x2 (ix3 b n (0 : Fin 1)) := by
  have hoff : ∀ (c : Fin 3) (a : Fin S16x64x1.rank), a.cast (rfl : S16x64x1.rank = S16x64x3.rank) ≠ (2 : Fin 3) →
      ((ix3 b n (0 : Fin 1) : S16x64x1.Idx) a).val = ((ix3 b n c : S16x64x3.Idx) (a.cast rfl)).val := by
    intro c a ha
    match a with
    | ⟨0, _⟩ => rfl
    | ⟨1, _⟩ => rfl
    | ⟨2, _⟩ => exact absurd rfl ha
  refine ⟨?_, ?_, ?_⟩
  · exact concatenate_apply_piece (t := S16x64x3) (a := (2 : Fin 3)) (xs := [⟨S16x64x1, x0⟩, ⟨S16x64x1, x1⟩, ⟨S16x64x1, x2⟩])
      concatenates_S16x64x1_S16x64x1_S16x64x1_S16x64x3_d2 (ix3 b n (0 : Fin 3)) 0 (by simp) S16x64x1 x0 rfl rfl 0 rfl
      (ix3 b n (0 : Fin 1)) (hoff 0) rfl
  · exact concatenate_apply_piece (t := S16x64x3) (a := (2 : Fin 3)) (xs := [⟨S16x64x1, x0⟩, ⟨S16x64x1, x1⟩, ⟨S16x64x1, x2⟩])
      concatenates_S16x64x1_S16x64x1_S16x64x1_S16x64x3_d2 (ix3 b n (1 : Fin 3)) 1 (by simp) S16x64x1 x1 rfl rfl 1 rfl
      (ix3 b n (0 : Fin 1)) (hoff 1) rfl
  · exact concatenate_apply_piece (t := S16x64x3) (a := (2 : Fin 3)) (xs := [⟨S16x64x1, x0⟩, ⟨S16x64x1, x1⟩, ⟨S16x64x1, x2⟩])
      concatenates_S16x64x1_S16x64x1_S16x64x1_S16x64x3_d2 (ix3 b n (2 : Fin 3)) 2 (by simp) S16x64x1 x2 rfl rfl 2 rfl
      (ix3 b n (0 : Fin 1)) (hoff 2) rfl

/-- The index triples of the first scatter at (b, n): the batch word, the row word, the column word. -/
theorem v37_apply (b : Fin 16) (n : Fin 64) :
    val_main_v37 (F := Ideal) t (ix3 b n (0 : Fin 3)) = BitVec.ofNat 32 b.val ∧
    val_main_v37 (F := Ideal) t (ix3 b n (1 : Fin 3)) = Cert.Spec.gridWord (t (ix3 b n (1 : Fin 7))) ∧
    val_main_v37 (F := Ideal) t (ix3 b n (2 : Fin 3)) = Cert.Spec.gridWord (t (ix3 b n (0 : Fin 7))) := by
  obtain ⟨h0, h1, h2⟩ := concat3_apply (val_main_v34 (F := Ideal)) (val_main_v35 (F := Ideal) t)
    (val_main_v36 (F := Ideal) t) b n
  refine ⟨?_, ?_, ?_⟩
  · refine h0.trans ?_
    rw [val_main_v34_apply, idx_col, v23_apply]
  · refine h1.trans ?_
    have e : idx_main_v35 (ix3 b n (0 : Fin 1)) = ix2 b n := idx_col b n 0
    rw [val_main_v35_apply, e, v28_apply]
  · refine h2.trans ?_
    have e : idx_main_v36 (ix3 b n (0 : Fin 1)) = ix2 b n := idx_col b n 0
    rw [val_main_v36_apply, e, v33_apply]

/-- The index triples of the second scatter at (b, n): the same three words. -/
theorem v58_apply (b : Fin 16) (n : Fin 64) :
    val_main_v58 (F := Ideal) t (ix3 b n (0 : Fin 3)) = BitVec.ofNat 32 b.val ∧
    val_main_v58 (F := Ideal) t (ix3 b n (1 : Fin 3)) = Cert.Spec.gridWord (t (ix3 b n (1 : Fin 7))) ∧
    val_main_v58 (F := Ideal) t (ix3 b n (2 : Fin 3)) = Cert.Spec.gridWord (t (ix3 b n (0 : Fin 7))) := by
  obtain ⟨h0, h1, h2⟩ := concat3_apply (val_main_v55 (F := Ideal)) (val_main_v56 (F := Ideal) t)
    (val_main_v57 (F := Ideal) t) b n
  refine ⟨?_, ?_, ?_⟩
  · refine h0.trans ?_
    have e : idx_main_v55 (ix3 b n (0 : Fin 1)) = ix2 b n := idx_col b n 0
    rw [val_main_v55_apply, e, v44_apply]
  · refine h1.trans ?_
    have e : idx_main_v56 (ix3 b n (0 : Fin 1)) = ix2 b n := idx_col b n 0
    rw [val_main_v56_apply, e, v49_apply]
  · refine h2.trans ?_
    have e : idx_main_v57 (ix3 b n (0 : Fin 1)) = ix2 b n := idx_col b n 0
    rw [val_main_v57_apply, e, v54_apply]

/-! ## Where an update lands -/

/-- The mask scatter has no window. -/
theorem d60_window (j : S16x64.Idx) (a : Fin 3) :
    scatter_S16x512x512_S16x64x3_S16x64_n_012_012_2.window j a = 0 := by
  unfold ScatterDims.window
  rw [dif_neg]
  revert a
  decide

/-- The scatter-indices index read for component c of update (b, n): (b, n, c). -/
theorem d60_siIdx (b : Fin 16) (n : Fin 64) (c : Fin 3) :
    scatter_S16x512x512_S16x64x3_S16x64_n_012_012_2.siIdx (ix2 b n) c = ix3 b n c := by
  funext a
  match a with
  | ⟨0, _⟩ => rfl
  | ⟨1, _⟩ => rfl
  | ⟨2, _⟩ => rfl

/-- The start on each operand axis is the matching component of the update's index triple. -/
theorem d60_start (idx : IVec S16x64x3 32) (b : Fin 16) (n : Fin 64) :
    scatter_S16x512x512_S16x64x3_S16x64_n_012_012_2.start (ix2 b n) idx 0 = (idx (ix3 b n (0 : Fin 3))).toInt ∧
    scatter_S16x512x512_S16x64x3_S16x64_n_012_012_2.start (ix2 b n) idx 1 = (idx (ix3 b n (1 : Fin 3))).toInt ∧
    scatter_S16x512x512_S16x64x3_S16x64_n_012_012_2.start (ix2 b n) idx 2 = (idx (ix3 b n (2 : Fin 3))).toInt := by
  refine ⟨?_, ?_, ?_⟩
  · unfold ScatterDims.start
    rw [dif_pos (by decide)]
    exact congrArg (fun q => (idx q).toInt) (d60_siIdx b n 0)
  · unfold ScatterDims.start
    rw [dif_pos (by decide)]
    exact congrArg (fun q => (idx q).toInt) (d60_siIdx b n 1)
  · unfold ScatterDims.start
    rw [dif_pos (by decide)]
    exact congrArg (fun q => (idx q).toInt) (d60_siIdx b n 2)

/-- Update (b, n) of the mask scatter lands on (b', y, x) exactly when its index triple, read signed, is (b', y, x). -/
theorem d60_lands (idx : IVec S16x64x3 32) (b : Fin 16) (n : Fin 64) (b' : Fin 16) (y x : Fin 512) :
    scatter_S16x512x512_S16x64x3_S16x64_n_012_012_2.resultIdx? (ix2 b n) idx = some (ix3 b' y x)
      ↔ (idx (ix3 b n (0 : Fin 3))).toInt = (b'.val : Int) ∧ (idx (ix3 b n (1 : Fin 3))).toInt = (y.val : Int)
        ∧ (idx (ix3 b n (2 : Fin 3))).toInt = (x.val : Int) := by
  obtain ⟨s0, s1, s2⟩ := d60_start idx b n
  rw [ScatterDims.resultIdx?_eq_some_iff]
  constructor
  · intro h
    have e0 := h 0
    have e1 := h 1
    have e2 := h 2
    rw [s0, d60_window] at e0
    rw [s1, d60_window] at e1
    rw [s2, d60_window] at e2
    refine ⟨?_, ?_, ?_⟩
    · have e0' : (idx (ix3 b n (0 : Fin 3))).toInt + ((0 : Nat) : Int) = (b'.val : Int) := e0
      omega
    · have e1' : (idx (ix3 b n (1 : Fin 3))).toInt + ((0 : Nat) : Int) = (y.val : Int) := e1
      omega
    · have e2' : (idx (ix3 b n (2 : Fin 3))).toInt + ((0 : Nat) : Int) = (x.val : Int) := e2
      omega
  · rintro ⟨e0, e1, e2⟩ a
    match a with
    | ⟨0, _⟩ =>
      show scatter_S16x512x512_S16x64x3_S16x64_n_012_012_2.start (ix2 b n) idx 0
        + (scatter_S16x512x512_S16x64x3_S16x64_n_012_012_2.window (ix2 b n) 0 : Int) = (b'.val : Int)
      rw [s0, d60_window, e0]; simp
    | ⟨1, _⟩ =>
      show scatter_S16x512x512_S16x64x3_S16x64_n_012_012_2.start (ix2 b n) idx 1
        + (scatter_S16x512x512_S16x64x3_S16x64_n_012_012_2.window (ix2 b n) 1 : Int) = (y.val : Int)
      rw [s1, d60_window, e1]; simp
    | ⟨2, _⟩ =>
      show scatter_S16x512x512_S16x64x3_S16x64_n_012_012_2.start (ix2 b n) idx 2
        + (scatter_S16x512x512_S16x64x3_S16x64_n_012_012_2.window (ix2 b n) 2 : Int) = (x.val : Int)
      rw [s2, d60_window, e2]; simp

/-- The numbers scatter's window: the update's last coordinate on the operand's last axis, nothing on the others. -/
theorem d38_window (b : Fin 16) (n : Fin 64) (k : Fin 7) :
    scatter_S16x512x512x7_S16x64x3_S16x64x7_2_012_012_2.window (ix3 b n k) 0 = 0 ∧
    scatter_S16x512x512x7_S16x64x3_S16x64x7_2_012_012_2.window (ix3 b n k) 1 = 0 ∧
    scatter_S16x512x512x7_S16x64x3_S16x64x7_2_012_012_2.window (ix3 b n k) 2 = 0 ∧
    scatter_S16x512x512x7_S16x64x3_S16x64x7_2_012_012_2.window (ix3 b n k) 3 = k.val := by
  refine ⟨?_, ?_, ?_, ?_⟩
  · unfold ScatterDims.window
    rw [dif_neg (by decide)]
  · unfold ScatterDims.window
    rw [dif_neg (by decide)]
  · unfold ScatterDims.window
    rw [dif_neg (by decide)]
  · unfold ScatterDims.window
    rw [dif_pos (by decide)]
    rfl

theorem d38_siIdx (b : Fin 16) (n : Fin 64) (k : Fin 7) (c : Fin 3) :
    scatter_S16x512x512x7_S16x64x3_S16x64x7_2_012_012_2.siIdx (ix3 b n k) c = ix3 b n c := by
  funext a
  match a with
  | ⟨0, _⟩ => rfl
  | ⟨1, _⟩ => rfl
  | ⟨2, _⟩ => rfl

theorem d38_start (idx : IVec S16x64x3 32) (b : Fin 16) (n : Fin 64) (k : Fin 7) :
    scatter_S16x512x512x7_S16x64x3_S16x64x7_2_012_012_2.start (ix3 b n k) idx 0 = (idx (ix3 b n (0 : Fin 3))).toInt ∧
    scatter_S16x512x512x7_S16x64x3_S16x64x7_2_012_012_2.start (ix3 b n k) idx 1 = (idx (ix3 b n (1 : Fin 3))).toInt ∧
    scatter_S16x512x512x7_S16x64x3_S16x64x7_2_012_012_2.start (ix3 b n k) idx 2 = (idx (ix3 b n (2 : Fin 3))).toInt ∧
    scatter_S16x512x512x7_S16x64x3_S16x64x7_2_012_012_2.start (ix3 b n k) idx 3 = 0 := by
  refine ⟨?_, ?_, ?_, ?_⟩
  · unfold ScatterDims.start
    rw [dif_pos (by decide)]
    exact congrArg (fun q => (idx q).toInt) (d38_siIdx b n k 0)
  · unfold ScatterDims.start
    rw [dif_pos (by decide)]
    exact congrArg (fun q => (idx q).toInt) (d38_siIdx b n k 1)
  · unfold ScatterDims.start
    rw [dif_pos (by decide)]
    exact congrArg (fun q => (idx q).toInt) (d38_siIdx b n k 2)
  · unfold ScatterDims.start
    rw [dif_neg (by decide)]

/-- Update (b, n, k) of the numbers scatter lands on (b', y, x, k') exactly when its index triple, read signed, is
    (b', y, x) and k' = k. -/
theorem d38_lands (idx : IVec S16x64x3 32) (b : Fin 16) (n : Fin 64) (k : Fin 7) (b' : Fin 16) (y x : Fin 512)
    (k' : Fin 7) :
    scatter_S16x512x512x7_S16x64x3_S16x64x7_2_012_012_2.resultIdx? (ix3 b n k) idx = some (ix4 b' y x k')
      ↔ (idx (ix3 b n (0 : Fin 3))).toInt = (b'.val : Int) ∧ (idx (ix3 b n (1 : Fin 3))).toInt = (y.val : Int)
        ∧ (idx (ix3 b n (2 : Fin 3))).toInt = (x.val : Int) ∧ k' = k := by
  obtain ⟨s0, s1, s2, s3⟩ := d38_start idx b n k
  obtain ⟨w0, w1, w2, w3⟩ := d38_window b n k
  rw [ScatterDims.resultIdx?_eq_some_iff]
  constructor
  · intro h
    have e0 := h 0
    have e1 := h 1
    have e2 := h 2
    have e3 := h 3
    rw [s0, w0] at e0
    rw [s1, w1] at e1
    rw [s2, w2] at e2
    rw [s3, w3] at e3
    refine ⟨?_, ?_, ?_, ?_⟩
    · have e0' : (idx (ix3 b n (0 : Fin 3))).toInt + ((0 : Nat) : Int) = (b'.val : Int) := e0
      omega
    · have e1' : (idx (ix3 b n (1 : Fin 3))).toInt + ((0 : Nat) : Int) = (y.val : Int) := e1
      omega
    · have e2' : (idx (ix3 b n (2 : Fin 3))).toInt + ((0 : Nat) : Int) = (x.val : Int) := e2
      omega
    · have e3' : (0 : Int) + ((k.val : Nat) : Int) = (k'.val : Int) := e3
      apply Fin.ext
      omega
  · rintro ⟨e0, e1, e2, rfl⟩ a
    match a with
    | ⟨0, _⟩ =>
      show scatter_S16x512x512x7_S16x64x3_S16x64x7_2_012_012_2.start (ix3 b n k') idx 0
        + (scatter_S16x512x512x7_S16x64x3_S16x64x7_2_012_012_2.window (ix3 b n k') 0 : Int) = (b'.val : Int)
      rw [s0, w0, e0]; simp
    | ⟨1, _⟩ =>
      show scatter_S16x512x512x7_S16x64x3_S16x64x7_2_012_012_2.start (ix3 b n k') idx 1
        + (scatter_S16x512x512x7_S16x64x3_S16x64x7_2_012_012_2.window (ix3 b n k') 1 : Int) = (y.val : Int)
      rw [s1, w1, e1]; simp
    | ⟨2, _⟩ =>
      show scatter_S16x512x512x7_S16x64x3_S16x64x7_2_012_012_2.start (ix3 b n k') idx 2
        + (scatter_S16x512x512x7_S16x64x3_S16x64x7_2_012_012_2.window (ix3 b n k') 2 : Int) = (x.val : Int)
      rw [s2, w2, e2]; simp
    | ⟨3, _⟩ =>
      show scatter_S16x512x512x7_S16x64x3_S16x64x7_2_012_012_2.start (ix3 b n k') idx 3
        + (scatter_S16x512x512x7_S16x64x3_S16x64x7_2_012_012_2.window (ix3 b n k') 3 : Int) = (k'.val : Int)
      rw [s3, w3]; simp

/-! ## The two scatters read at a cell -/

/-- With the program's index triples, update (b, n) of the mask scatter lands on (b', y, x) exactly when b' = b and
    (y, x) is the target's cell. -/
theorem mask_lands (b : Fin 16) (n : Fin 64) (b' : Fin 16) (y x : Fin 512) :
    scatter_S16x512x512_S16x64x3_S16x64_n_012_012_2.resultIdx? (ix2 b n) (val_main_v58 (F := Ideal) t)
        = some (ix3 b' y x)
      ↔ b' = b ∧ Cert.Spec.key t b n = (y, x) := by
  obtain ⟨h0, h1, h2⟩ := v58_apply t b n
  rw [d60_lands, h0, h1, h2, ofNat_toInt_of_lt _ (by have := b.isLt; omega), Cert.Spec.gridWord_toInt,
    Cert.Spec.gridWord_toInt]
  constructor
  · rintro ⟨e0, e1, e2⟩
    refine ⟨Fin.ext (by omega), ?_⟩
    show (Cert.Spec.cy t b n, Cert.Spec.cx t b n) = (y, x)
    exact Prod.ext (Fin.ext (by exact_mod_cast e1)) (Fin.ext (by exact_mod_cast e2))
  · rintro ⟨rfl, e⟩
    have e' : (Cert.Spec.cy t b' n, Cert.Spec.cx t b' n) = (y, x) := e
    obtain ⟨ey, ex⟩ := Prod.mk.inj e'
    refine ⟨rfl, ?_, ?_⟩
    · rw [← ey]; rfl
    · rw [← ex]; rfl

/-- The mask array at a cell is the specification's mask: 1 where some target of the batch falls, 0 elsewhere. -/
theorem v60_apply (b : Fin 16) (y x : Fin 512) :
    val_main_v60 (F := Ideal) t (ix3 b y x) = Cert.Spec.mask t b y x := by
  classical
  have hupd : ∀ k, val_main_v59 (F := Ideal) k = ((1 : ℝ) : EReal) := by
    intro k
    rw [val_main_v59_apply, val_main_cst_18_apply]
    exact IdealReal.ofBits_one
  have hiff : (∃ k : S16x64.Idx, scatter_S16x512x512_S16x64x3_S16x64_n_012_012_2.resultIdx? k
        (val_main_v58 (F := Ideal) t) = some (ix3 b y x)) ↔ (Cert.Spec.win t b y x).isSome = true := by
    unfold Cert.Spec.win
    rw [Cert.Winner.winner_isSome_iff]
    constructor
    · rintro ⟨k, hk⟩
      obtain ⟨b', n, rfl⟩ : ∃ (b' : Fin 16) (n : Fin 64), k = ix2 b' n := ⟨k 0, k 1, eq_ix2 k⟩
      obtain ⟨hb, hkey⟩ := (mask_lands t b' n b y x).1 hk
      subst hb
      exact ⟨n, hkey⟩
    · rintro ⟨n, hn⟩
      exact ⟨ix2 b n, (mask_lands t b n b y x).2 ⟨rfl, hn⟩⟩
  unfold val_main_v60
  rw [Host.scatter_const _ _ _ _ _ hupd (ix3 b y x)]
  unfold Cert.Spec.mask
  by_cases h : (Cert.Spec.win t b y x).isSome = true
  · rw [if_pos (hiff.2 h), if_pos h]
    exact EReal.coe_one
  · rw [if_neg (fun h' => h (hiff.1 h')), if_neg h, val_main_v39_apply, val_main_cst_11_apply]
    exact IdealReal.ofBits_zero

/-- With the program's index triples, update (b, n, k) of the numbers scatter lands on (b', y, x, k') exactly when
    b' = b, (y, x) is the target's cell and k' = k. -/
theorem tm_lands (b : Fin 16) (n : Fin 64) (k : Fin 7) (b' : Fin 16) (y x : Fin 512) (k' : Fin 7) :
    scatter_S16x512x512x7_S16x64x3_S16x64x7_2_012_012_2.resultIdx? (ix3 b n k) (val_main_v37 (F := Ideal) t)
        = some (ix4 b' y x k')
      ↔ b' = b ∧ Cert.Spec.key t b n = (y, x) ∧ k' = k := by
  obtain ⟨h0, h1, h2⟩ := v37_apply t b n
  rw [d38_lands, h0, h1, h2, ofNat_toInt_of_lt _ (by have := b.isLt; omega), Cert.Spec.gridWord_toInt,
    Cert.Spec.gridWord_toInt]
  constructor
  · rintro ⟨e0, e1, e2, e3⟩
    refine ⟨Fin.ext (by omega), ?_, e3⟩
    show (Cert.Spec.cy t b n, Cert.Spec.cx t b n) = (y, x)
    exact Prod.ext (Fin.ext (by exact_mod_cast e1)) (Fin.ext (by exact_mod_cast e2))
  · rintro ⟨rfl, e, e3⟩
    have e' : (Cert.Spec.cy t b' n, Cert.Spec.cx t b' n) = (y, x) := e
    obtain ⟨ey, ex⟩ := Prod.mk.inj e'
    refine ⟨rfl, ?_, ?_, e3⟩
    · rw [← ey]; rfl
    · rw [← ex]; rfl

/-- The numbers array at a cell and a channel is the specification's: the cell's owner's number, 0 at a cell nobody
    owns. The owner is the last target of the batch that falls in the cell, and the updates are taken in row-major
    order, so among the updates that land on (b, y, x, k) the owner's has the greatest number. -/
theorem v38_apply (b : Fin 16) (y x : Fin 512) (k : Fin 7) :
    val_main_v38 (F := Ideal) t (ix4 b y x k) = Cert.Spec.tm t b y x k := by
  unfold val_main_v38
  cases hw : Cert.Spec.win t b y x with
  | some n =>
    have htm : Cert.Spec.tm t b y x k = t (ix3 b n k) := by
      unfold Cert.Spec.tm
      rw [hw]
    have hwin := (Cert.Winner.winner_eq_some_iff (Cert.Spec.key t b) (y, x) n).1 hw
    rw [htm]
    refine Host.scatter_set_apply_of_last _ _ _ _ (ix4 b y x k) (ix3 b n k)
      ((tm_lands t b n k b y x k).2 ⟨rfl, hwin.1, rfl⟩) ?_
    intro j' hj'
    obtain ⟨b'', n', k'', rfl⟩ : ∃ (b'' : Fin 16) (n' : Fin 64) (k'' : Fin 7), j' = ix3 b'' n' k'' :=
      ⟨j' 0, j' 1, j' 2, eq_ix3 j'⟩
    obtain ⟨hb, hkey, hk⟩ := (tm_lands t b'' n' k'' b y x k).1 hj'
    subst hb
    subst hk
    have hle : n'.val ≤ n.val := hwin.2 n' hkey
    rw [Shape.rowMajor_val_three, Shape.rowMajor_val_three]
    show (b.val * 64 + n'.val) * 7 + k.val ≤ (b.val * 64 + n.val) * 7 + k.val
    omega
  | none =>
    have htm : Cert.Spec.tm t b y x k = 0 := by
      unfold Cert.Spec.tm
      rw [hw]
    have hnone := (Cert.Winner.winner_eq_none_iff (Cert.Spec.key t b) (y, x)).1 hw
    rw [htm, Host.scatter_set_apply_of_no_landing _ _ _ _ (ix4 b y x k) (fun j' hj' => by
      obtain ⟨b'', n', k'', rfl⟩ : ∃ (b'' : Fin 16) (n' : Fin 64) (k'' : Fin 7), j' = ix3 b'' n' k'' :=
        ⟨j' 0, j' 1, j' 2, eq_ix3 j'⟩
      obtain ⟨hb, hkey, hk⟩ := (tm_lands t b'' n' k'' b y x k).1 hj'
      subst hb
      exact hnone n' hkey), val_main_v18_apply, val_main_cst_4_apply]
    exact IdealReal.ofBits_zero

/-! ## The slices of the predictions and the layout stages at coordinates -/

/-- The logits: channel 0 of the predictions. -/
theorem v1_apply (b : Fin 16) (y z : Fin 512) :
    val_main_v1 (F := Ideal) p (ix3 b y z) = p (ix4 b (0 : Fin 8) y z) := by
  have e : idx_main_v0 (idx_main_v1 (ix3 b y z)) = ix4 b (0 : Fin 8) y z := by
    funext a
    match a with
    | ⟨0, _⟩ => apply Fin.ext; show ((b.val * 512 + y.val) * 512 + z.val) / 262144 = b.val; omega
    | ⟨1, _⟩ => rfl
    | ⟨2, _⟩ => apply Fin.ext; show ((b.val * 512 + y.val) * 512 + z.val) / 512 % 512 = y.val; omega
    | ⟨3, _⟩ => apply Fin.ext; show ((b.val * 512 + y.val) * 512 + z.val) % 512 = z.val; omega
  rw [val_main_v1_apply, val_main_v0_apply, e]

/-- The regression channels: channels 1 … 7 of the predictions. -/
theorem v2_apply (b : Fin 16) (k : Fin 7) (y z : Fin 512) :
    val_main_v2 (F := Ideal) p (ix4 b k y z) = p (ix4 b k.succ y z) := by
  have e : idx_main_v2 (ix4 b k y z) = ix4 b k.succ y z := by
    funext a
    match a with
    | ⟨0, _⟩ => rfl
    | ⟨1, _⟩ => apply Fin.ext; show 1 + k.val = k.val + 1; omega
    | ⟨2, _⟩ => rfl
    | ⟨3, _⟩ => rfl
  rw [val_main_v2_apply, e]

/-- The numbers array with the channel moved to axis 1. -/
theorem v61_apply (b : Fin 16) (k : Fin 7) (y z : Fin 512) :
    val_main_v61 (F := Ideal) t (ix4 b k y z) = Cert.Spec.tm t b y z k := by
  have e : idx_main_v61 (ix4 b k y z) = ix4 b y z k := by
    funext a
    match a with
    | ⟨0, _⟩ => rfl
    | ⟨1, _⟩ => rfl
    | ⟨2, _⟩ => rfl
    | ⟨3, _⟩ => rfl
  rw [val_main_v61_apply, e, v38_apply]

/-- The mask broadcast over the channel. -/
theorem v85_apply (b : Fin 16) (k : Fin 7) (y z : Fin 512) :
    val_main_v85 (F := Ideal) t (ix4 b k y z) = Cert.Spec.mask t b y z := by
  have e : idx_main_v84 (idx_main_v85 (ix4 b k y z)) = ix3 b y z := by
    funext a
    match a with
    | ⟨0, _⟩ => rfl
    | ⟨1, _⟩ => rfl
    | ⟨2, _⟩ => rfl
  rw [val_main_v85_apply, val_main_v84_apply, e, v60_apply]

/-! ## The three sums -/

/-- The number of objects is the sum of the mask. -/
theorem num_eq :
    val_main_v73 (F := Ideal) t = fun _ => ∑ b : Fin 16, ∑ y : Fin 512, ∑ z : Fin 512, Cert.Spec.mask t b y z := by
  funext i
  have h0 : (FloatOps.ofBits (F := Ideal) .f32 0x00000000#32 : EReal) = 0 := IdealReal.ofBits_zero
  rw [val_main_v73_apply, val_main_cst_22_apply, h0, zero_add, sum_idx3]
  refine Finset.sum_congr rfl fun b _ => Finset.sum_congr rfl fun y _ => Finset.sum_congr rfl fun z _ => ?_
  exact v60_apply t b y z

/-- The classification sum over the cells. -/
theorem clsSum_eq :
    val_main_v71 (F := Ideal) p t
      = fun _ => ∑ b : Fin 16, ∑ y : Fin 512, ∑ z : Fin 512,
          Cert.Spec.clsR (p (ix4 b (0 : Fin 8) y z)) (Cert.Spec.mask t b y z) := by
  funext i
  have h0 : (FloatOps.ofBits (F := Ideal) .f32 0x00000000#32 : EReal) = 0 := IdealReal.ofBits_zero
  rw [val_main_v71_apply, val_main_cst_20_apply, h0, zero_add, sum_idx3]
  refine Finset.sum_congr rfl fun b _ => Finset.sum_congr rfl fun y _ => Finset.sum_congr rfl fun z _ => ?_
  rw [val_main_v70_apply, val_main_v65_apply, val_main_v63_apply, val_main_v64_apply, val_main_v69_apply,
    val_main_v68_apply, val_main_v67_apply, val_main_v66_apply, val_main_v62_apply, val_main_cst_19_apply,
    v1_apply, v60_apply]
  rfl

/-- The masked smooth-L1 sum over batches, channels and cells. -/
theorem regSum_eq :
    val_main_v87 (F := Ideal) p t
      = fun _ => ∑ b : Fin 16, ∑ k : Fin 7, ∑ y : Fin 512, ∑ z : Fin 512,
          Cert.Spec.sl1 (p (ix4 b k.succ y z) - Cert.Spec.tm t b y z k) * Cert.Spec.mask t b y z := by
  funext i
  have h0 : (FloatOps.ofBits (F := Ideal) .f32 0x00000000#32 : EReal) = 0 := IdealReal.ofBits_zero
  rw [val_main_v87_apply, val_main_cst_26_apply, h0, zero_add, sum_idx4]
  refine Finset.sum_congr rfl fun b _ => Finset.sum_congr rfl fun k _ => Finset.sum_congr rfl fun y _ =>
    Finset.sum_congr rfl fun z _ => ?_
  have hd : val_main_v74 (F := Ideal) p t (ix4 b k y z) = p (ix4 b k.succ y z) - Cert.Spec.tm t b y z k := by
    rw [val_main_v74_apply, v2_apply, v61_apply]
    rfl
  rw [val_main_v86_apply, v85_apply, val_main_v83_apply, val_main_v77_apply, val_main_v80_apply, val_main_v79_apply,
    val_main_v82_apply, val_main_v75_apply, val_main_v76_apply, val_main_cst_23_apply, val_main_v78_apply,
    val_main_cst_24_apply, val_main_v81_apply, val_main_cst_25_apply, hd]
  rfl

end Cert.ReferenceIdeal.Ix

end
-- ==== Proof.Bridge.lean ====
/-
  Owners and owned cells: the sums of the two programs are the same sums.

  In every batch each owned cell has exactly one owner, and a target owns its cell exactly when it is that cell's
  owner; so a sum over the targets that own their cell, of a term that depends on the target and its cell, is the sum
  over the owned cells of the same term at the cell's owner. That gives the count of owners as the sum of the mask,
  the owners' logits as the masked logits, and the owners' smooth-L1 terms as the masked smooth-L1 terms against the
  owners' numbers (a cell nobody owns contributes a term times zero). For the classification sum, with every logit a
  real number, the sum over the cells of (max(v, 0) − v·z) + log1p(exp(−|v|)) is the sum of max(v, 0) + log1p(exp(−|v|))
  less the sum of v·z, everything being a finite sum of reals; and the two spellings of log1p(exp(−|v|)) agree.
-/
import proofs.«421473_j29283087024789_3_alg».proof.Proof.Spec
import proofs.«421473_j29283087024789_3_alg».proof.Proof.LibIdealReal
import Mathlib.Algebra.BigOperators.Group.Finset.Sigma
import Mathlib.Algebra.BigOperators.Group.Finset.Defs
import Mathlib.Data.Fintype.BigOperators
import Mathlib.Tactic.Ring

noncomputable section

namespace Cert.Spec

open Idealize.ShloMosaic Idealize.ShloMosaic.ValueIdx Cert.Winner
open scoped BigOperators

variable (t : TT) (x : PP)

/-! ## A sum over the owners is a sum over the owned cells -/

/-- In one batch, a sum over the targets that own their cell, of a term of the target and its cell, is the sum over
    the cells of that term at the cell's owner (nothing at a cell nobody owns). -/
private theorem owner_sum (b : Fin 16) (g : Fin 64 → Fin 512 → Fin 512 → EReal) :
    (∑ n : Fin 64, g n (cy t b n) (cx t b n) * isw t b n)
      = ∑ y : Fin 512, ∑ z : Fin 512, (match win t b y z with | some n => g n y z | none => 0) := by
  -- a term times the 0/1 indicator of owning is the term where the target owns and nothing elsewhere
  have h1 : ∀ n : Fin 64, g n (cy t b n) (cx t b n) * isw t b n
      = if winner (key t b) (key t b n) = some n then g n (cy t b n) (cx t b n) else 0 := by
    intro n
    show g n (cy t b n) (cx t b n) * (if winner (key t b) (key t b n) = some n then 1 else 0) = _
    rw [mul_ite, mul_one, mul_zero]
  -- the sum over the targets that win their key is the sum over the keys, here the pairs (row, column)
  rw [Finset.sum_congr rfl (fun n _ => h1 n), sum_winners (key t b) (fun n => g n (cy t b n) (cx t b n)),
    Fintype.sum_prod_type]
  refine Finset.sum_congr rfl (fun y _ => Finset.sum_congr rfl (fun z _ => ?_))
  have hwin : winner (key t b) (y, z) = win t b y z := rfl
  rw [hwin]
  cases h : win t b y z with
  | none => rfl
  | some n =>
    -- the owner of a cell falls in that cell
    have hk : key t b n = (y, z) := key_of_winner (key t b) (y, z) n h
    have hy : cy t b n = y := congrArg Prod.fst hk
    have hz : cx t b n = z := congrArg Prod.snd hk
    show g n (cy t b n) (cx t b n) = g n y z
    rw [hy, hz]

/-- An owned cell has mask 1 and carries its owner's numbers. -/
private theorem mask_of_some {b : Fin 16} {y z : Fin 512} {n : Fin 64} (h : win t b y z = some n) :
    mask t b y z = 1 := by
  unfold mask
  rw [h]
  rfl

private theorem tm_of_some {b : Fin 16} {y z : Fin 512} {n : Fin 64} (h : win t b y z = some n) (k : Fin 7) :
    tm t b y z k = t (ix3 b n k) := by
  unfold tm
  rw [h]

/-- A cell nobody owns has mask 0. -/
private theorem mask_of_none {b : Fin 16} {y z : Fin 512} (h : win t b y z = none) : mask t b y z = 0 := by
  unfold mask
  rw [h]
  rfl

/-- The number of targets that own their cell is the number of owned cells. -/
theorem count_bridge :
    (∑ b : Fin 16, ∑ n : Fin 64, isw t b n) = ∑ b : Fin 16, ∑ y : Fin 512, ∑ z : Fin 512, mask t b y z := by
  refine Finset.sum_congr rfl (fun b _ => ?_)
  have h := owner_sum t b (fun _ _ _ => 1)
  simp only [one_mul] at h
  rw [h]
  refine Finset.sum_congr rfl (fun y _ => Finset.sum_congr rfl (fun z _ => ?_))
  cases hw : win t b y z with
  | none => exact (mask_of_none t hw).symm
  | some n => exact (mask_of_some t hw).symm

/-- The owners' logits (channel 0 at the owner's cell) sum to the masked logits. -/
theorem logit_bridge :
    (∑ b : Fin 16, ∑ n : Fin 64, x (ix4 b (0 : Fin 8) (cy t b n) (cx t b n)) * isw t b n)
      = ∑ b : Fin 16, ∑ y : Fin 512, ∑ z : Fin 512, x (ix4 b (0 : Fin 8) y z) * mask t b y z := by
  refine Finset.sum_congr rfl (fun b _ => ?_)
  rw [owner_sum t b (fun _ y z => x (ix4 b (0 : Fin 8) y z))]
  refine Finset.sum_congr rfl (fun y _ => Finset.sum_congr rfl (fun z _ => ?_))
  cases hw : win t b y z with
  | none => rw [mask_of_none t hw, mul_zero]
  | some n => rw [mask_of_some t hw, mul_one]

/-- The owners' smooth-L1 terms sum to the masked smooth-L1 terms against the owners' numbers. -/
theorem reg_bridge :
    (∑ b : Fin 16, ∑ n : Fin 64, ∑ k : Fin 7,
        sl1 (x (ix4 b k.succ (cy t b n) (cx t b n)) - t (ix3 b n k)) * isw t b n)
      = ∑ b : Fin 16, ∑ k : Fin 7, ∑ y : Fin 512, ∑ z : Fin 512,
          sl1 (x (ix4 b k.succ y z) - tm t b y z k) * mask t b y z := by
  refine Finset.sum_congr rfl (fun b _ => ?_)
  rw [Finset.sum_comm]
  refine Finset.sum_congr rfl (fun k _ => ?_)
  rw [owner_sum t b (fun n y z => sl1 (x (ix4 b k.succ y z) - t (ix3 b n k)))]
  refine Finset.sum_congr rfl (fun y _ => Finset.sum_congr rfl (fun z _ => ?_))
  cases hw : win t b y z with
  | none => rw [mask_of_none t hw, mul_zero]
  | some n => rw [mask_of_some t hw, tm_of_some t hw, mul_one]

/-! ## The classification sum, over real logits -/

/-- The launch's term at a real logit is a real number. -/
private theorem softplusK_coe (a : ℝ) :
    softplusK (a : EReal) = ((max a 0 + Real.log (1 + Real.exp (-|a|)) : ℝ) : EReal) := by
  unfold softplusK
  rw [IdealReal.kernel_log1p_exp_neg_abs, Ideal.ofBits_def, IdealReal.ofBits_zero_coe, IdealReal.maximumf_coe,
    IdealReal.addf_coe]

/-- The reference's term at a real logit and a real mask is a real number. -/
private theorem clsR_coe (a m : ℝ) :
    clsR (a : EReal) (m : EReal) = (((max a 0 - a * m) + Real.log (1 + Real.exp (-|a|)) : ℝ) : EReal) := by
  unfold clsR
  rw [IdealReal.host_log1p_exp_neg_abs, Ideal.ofBits_def, IdealReal.ofBits_zero_coe, IdealReal.maximumf_coe,
    IdealReal.mulf_coe, IdealReal.subf_coe, IdealReal.addf_coe]

/-- The mask as a real number: 1 at an owned cell, 0 elsewhere. -/
private def maskR (b : Fin 16) (y z : Fin 512) : ℝ := if (win t b y z).isSome = true then 1 else 0

private theorem mask_coe (b : Fin 16) (y z : Fin 512) : mask t b y z = ((maskR t b y z : ℝ) : EReal) := by
  unfold mask maskR
  split_ifs
  · exact EReal.coe_one.symm
  · exact EReal.coe_zero.symm

/-- A sum of embedded reals over the batches and the cells is the embedded sum. -/
private theorem coe_sum3 (f : Fin 16 → Fin 512 → Fin 512 → ℝ) :
    (∑ b : Fin 16, ∑ y : Fin 512, ∑ z : Fin 512, ((f b y z : ℝ) : EReal))
      = ((∑ b : Fin 16, ∑ y : Fin 512, ∑ z : Fin 512, f b y z : ℝ) : EReal) :=
  (Finset.sum_congr rfl (fun b _ =>
    (Finset.sum_congr rfl (fun y _ => IdealReal.coe_sum (fun z => f b y z))).trans
      (IdealReal.coe_sum (fun y => ∑ z : Fin 512, f b y z)))).trans
    (IdealReal.coe_sum (fun b => ∑ y : Fin 512, ∑ z : Fin 512, f b y z))

/-- With every logit a real number, the block sums less the masked logits are the reference's classification sum. -/
theorem cls_bridge (hx : ∀ i, ∃ r : ℝ, x i = (r : EReal)) :
    (∑ b : Fin 16, dense x b) - (∑ b : Fin 16, ∑ y : Fin 512, ∑ z : Fin 512, x (ix4 b (0 : Fin 8) y z) * mask t b y z)
      = ∑ b : Fin 16, ∑ y : Fin 512, ∑ z : Fin 512, clsR (x (ix4 b (0 : Fin 8) y z)) (mask t b y z) := by
  choose r hr using hx
  -- the three sums, as embedded sums of reals
  have hdense : (∑ b : Fin 16, dense x b)
      = ((∑ b : Fin 16, ∑ y : Fin 512, ∑ z : Fin 512,
          (max (r (ix4 b (0 : Fin 8) y z)) 0 + Real.log (1 + Real.exp (-|r (ix4 b (0 : Fin 8) y z)|))) : ℝ) : EReal) := by
    rw [← coe_sum3]
    refine Finset.sum_congr rfl (fun b _ => ?_)
    unfold dense
    refine Finset.sum_congr rfl (fun y _ => Finset.sum_congr rfl (fun z _ => ?_))
    rw [hr, softplusK_coe]
  have hlogit : (∑ b : Fin 16, ∑ y : Fin 512, ∑ z : Fin 512, x (ix4 b (0 : Fin 8) y z) * mask t b y z)
      = ((∑ b : Fin 16, ∑ y : Fin 512, ∑ z : Fin 512, r (ix4 b (0 : Fin 8) y z) * maskR t b y z : ℝ) : EReal) := by
    rw [← coe_sum3]
    refine Finset.sum_congr rfl (fun b _ => Finset.sum_congr rfl (fun y _ => Finset.sum_congr rfl (fun z _ => ?_)))
    rw [hr, mask_coe, EReal.coe_mul]
  have hcls : (∑ b : Fin 16, ∑ y : Fin 512, ∑ z : Fin 512, clsR (x (ix4 b (0 : Fin 8) y z)) (mask t b y z))
      = ((∑ b : Fin 16, ∑ y : Fin 512, ∑ z : Fin 512,
          ((max (r (ix4 b (0 : Fin 8) y z)) 0 - r (ix4 b (0 : Fin 8) y z) * maskR t b y z)
            + Real.log (1 + Real.exp (-|r (ix4 b (0 : Fin 8) y z)|))) : ℝ) : EReal) := by
    rw [← coe_sum3]
    refine Finset.sum_congr rfl (fun b _ => Finset.sum_congr rfl (fun y _ => Finset.sum_congr rfl (fun z _ => ?_)))
    rw [hr, mask_coe, clsR_coe]
  -- what remains is an identity between finite sums of reals
  rw [hdense, hlogit, hcls, ← EReal.coe_sub]
  refine congrArg _ ?_
  rw [← Finset.sum_sub_distrib]
  refine Finset.sum_congr rfl (fun b _ => ?_)
  rw [← Finset.sum_sub_distrib]
  refine Finset.sum_congr rfl (fun y _ => ?_)
  rw [← Finset.sum_sub_distrib]
  refine Finset.sum_congr rfl (fun z _ => ?_)
  ring

end Cert.Spec

end
-- ==== Proof.Final.lean ====
/-
  The two programs compute the same two numbers.

  Read against the specification, the kernel program's count of owners is the reference's sum of the mask, its owners'
  smooth-L1 sum is the reference's masked smooth-L1 sum, and — every prediction being a real number — the sixteen block
  sums of the launch added up, less the owners' logits, are the reference's classification sum. From there both programs
  apply the same few operations to the same three numbers: the classification sum over 2²², plus twice the regression
  sum over the count plus a small constant when the count is positive (else zero).
-/
import proofs.«421473_j29283087024789_3_alg».proof.Proof.KChain
import proofs.«421473_j29283087024789_3_alg».proof.Proof.KIndex
import proofs.«421473_j29283087024789_3_alg».proof.Proof.RIndex
import proofs.«421473_j29283087024789_3_alg».proof.Proof.Bridge
import proofs.«421473_j29283087024789_3_alg».proof.Proof.RefRead
import proofs.«421473_j29283087024789_3_alg».proof.Proof.LibSumIdx
import proofs.«421473_j29283087024789_3_alg».proof.Proof.LibIdealReal
import Idealize.ShloMosaic.Lib.Pipeline.Value
import Idealize.ShloMosaic.PureOps.Ideal.Laws

noncomputable section

namespace Cert.Final

open Idealize.ShloMosaic Idealize.ShloMosaic.ValueIdx
open scoped BigOperators

variable (p : FVec Ideal Cert.KernelIdeal.S16x8x512x512 .f32) (t : FVec Ideal Cert.KernelIdeal.S16x64x7 .f32)

/-- The count of owners is the reference's number of objects. -/
theorem count_eq :
    Cert.KernelIdeal.Ch.count (F := Ideal) t = Cert.ReferenceIdeal.ReadP.val_main_v73 (F := Ideal) t := by
  rw [Cert.KernelIdeal.Ix.count_eq, Cert.ReferenceIdeal.Ix.num_eq, Cert.Spec.count_bridge]

/-- The owners' smooth-L1 sum is the reference's masked smooth-L1 sum. -/
theorem regSum_eq :
    Cert.KernelIdeal.Ch.regSum (F := Ideal) p t = Cert.ReferenceIdeal.ReadP.val_main_v87 (F := Ideal) p t := by
  rw [Cert.KernelIdeal.Ix.regSum_eq, Cert.ReferenceIdeal.Ix.regSum_eq, Cert.Spec.reg_bridge]

open Cert.KernelIdeal Cert.KernelIdeal.Gen in
/-- The launch's result array `o`, each entry `(b, s, l)` batch `b`'s block sum: its entries `(b, 0, 0)` added up, less
    the owners' logit sum, are the reference's classification sum, when every prediction is a real number. -/
theorem cls_eq (o : FVec Ideal S16x8x128 .f32) (ho : ∀ (b : Fin 16) (s : Fin 8) (l : Fin 128), o (ix3 b s l) = Cert.Spec.dense p b)
    (hp : ∀ i, ∃ r : ℝ, p i = (r : EReal)) :
    subf (Host.reduceAdd (shapeCast S16 (extractStridedSlice S16x1x1 ![0, 0, 0] o slices_S16x8x128_S16x1x1_0_0_0) shapeCasts_S16x1x1_S16)
        (constant S_ .f32 0x00000000#32) reducesTo_S16_S_d0 h_S_) (Ch.ownerLogitSum (F := Ideal) p t)
      = Cert.ReferenceIdeal.ReadP.val_main_v71 (F := Ideal) p t := by
  rw [Cert.KernelIdeal.Ix.ownerLogitSum_eq, Cert.ReferenceIdeal.Ix.clsSum_eq, ← Cert.Spec.cls_bridge t p hp, Cert.Spec.logit_bridge]
  funext i
  show Ideal.hostReduceAdd reducesTo_S16_S_d0 _ (Ideal.ofBits .f32 0x00000000#32) i - _ = _
  rw [Ideal.hostReduceAdd_total reducesTo_S16_S_d0 (fun b => b.elim0), IdealReal.ofBits_zero, zero_add, sum_idx1]
  congr 1
  refine Finset.sum_congr rfl fun b _ => ?_
  rw [shapeCast_apply _ shapeCasts_S16x1x1_S16 (ix1 b) (ix3 b (0 : Fin 1) (0 : Fin 1)) (by
      rw [Shape.rowMajor_val_three, Shape.rowMajor_val_one]; show (b.val * 1 + 0) * 1 + 0 = b.val; omega),
    extractStridedSlice_apply ![0, 0, 0] o slices_S16x8x128_S16x1x1_0_0_0 (ix3 b (0 : Fin 1) (0 : Fin 1)) (ix3 b (0 : Fin 8) (0 : Fin 128)) (fun a =>
      match a with
      | ⟨0, _⟩ => by show b.val = 0 + b.val; omega
      | ⟨1, _⟩ => rfl
      | ⟨2, _⟩ => rfl)]
  exact ho b 0 0

open Cert.KernelIdeal Cert.KernelIdeal.Gen in
/-- The total: from the launch's result array and the two arguments the kernel program ends at the reference's total. -/
theorem total_eq (o : FVec Ideal S16x8x128 .f32) (ho : ∀ (b : Fin 16) (s : Fin 8) (l : Fin 128), o (ix3 b s l) = Cert.Spec.dense p b)
    (hp : ∀ i, ∃ r : ℝ, p i = (r : EReal)) :
    Ch.total (F := Ideal) o p t = Cert.ReferenceIdeal.ReadP.val_main_v93 (F := Ideal) p t := by
  unfold Ch.total Ch.regLoss
  rw [cls_eq p t o ho hp, regSum_eq p t, count_eq t]
  rfl

end Cert.Final

end
-- ==== Proof.Finite.lean ====
/-
  Under the precondition every prediction is a real number.

  The precondition says, of each of the two argument arrays, that every entry's magnitude is below plus infinity (two
  conjunctions over all entries, joined by an "and"). An extended real whose magnitude max(x, −x) is below +∞ is neither
  +∞ nor −∞, so it is a real number.
-/
import proofs.«421473_j29283087024789_3_alg».proof.Pre_finite_inputs
import proofs.«421473_j29283087024789_3_alg».proof.Proof.Gen.Pre_finite_inputs
import proofs.«421473_j29283087024789_3_alg».proof.Proof.LibIdealReal
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs

instance : Subsingleton (Cert.Pre_finite_inputs.S_).Idx := ⟨fun a b => funext fun d => d.elim0⟩

/-- An extended real whose magnitude is below plus infinity is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- Under the precondition every entry of the first argument is a real number. -/
theorem preds_real [Cert.Pre_finite_inputs.Facts] (p : FVec Ideal S16x8x512x512 .f32) (t : FVec Ideal S16x64x7 .f32)
    (h : Cert.Pre_finite_inputs.fn (F := Ideal) p t = fun _ => 1#1) (i : S16x8x512x512.Idx) :
    ∃ r : ℝ, p i = (r : EReal) := by
  have h0 := congrFun h ValueIdx.ix0
  dsimp only [Cert.Pre_finite_inputs.fn] at h0
  obtain ⟨h1, -⟩ := IntOp.andi_eq_one.1 h0
  have hi := Host.reduce_andi_all _ _ _ _ ValueIdx.ix0 h1 i
  refine real_of_abs_lt_top (p i) ?_
  have hi' : Ideal.cmp .olt (max (p i) (-(p i))) (Ideal.ofBits .f32 0x7F800000#32) = 1#1 := hi
  rw [IdealReal.ofBits_inf] at hi'
  unfold Ideal.cmp at hi'
  dsimp only at hi'
  by_cases hlt : max (p i) (-(p i)) < (⊤ : EReal)
  · exact hlt
  · rw [decide_eq_false hlt] at hi'
    exact absurd hi' (by decide)

end Cert.Finite

end
-- ==== Proof.lean ====
/-
  The certificate: the kernel program and its reference compute the same two numbers.

  The kernel program marks, among the 64 targets of each of 16 batches, those that own their grid cell (the last target
  to fall in a cell owns it), counts them, adds up their logits and their smooth-L1 terms from predictions gathered at
  their cells, and adds up, in one launch over the 16 batches, max(v, 0) + log1p(exp(−|v|)) over every logit. The
  reference writes the owners' numbers and a 0/1 mask into dense maps over all cells and sums over the cells. Every
  owned cell has exactly one owner, so the sums over owners are the sums over owned cells; with every prediction a real
  number the classification sum splits into the launch's sums less the owners' logits. The three frames: each program
  terminates without fault and leaves its two arguments as launched.
-/
import proofs.«421473_j29283087024789_3_alg».proof.Defs
import proofs.«421473_j29283087024789_3_alg».proof.Proof.Gen.Kernel
import proofs.«421473_j29283087024789_3_alg».proof.Proof.Gen.KernelIdeal
import proofs.«421473_j29283087024789_3_alg».proof.Proof.Gen.ReferenceIdeal
import proofs.«421473_j29283087024789_3_alg».proof.Proof.Gen.Pre_finite_inputs
import proofs.«421473_j29283087024789_3_alg».proof.Proof.KFrame
import proofs.«421473_j29283087024789_3_alg».proof.Proof.KFrameBits
import proofs.«421473_j29283087024789_3_alg».proof.Proof.KTail
import proofs.«421473_j29283087024789_3_alg».proof.Proof.KValue
import proofs.«421473_j29283087024789_3_alg».proof.Proof.Final
import proofs.«421473_j29283087024789_3_alg».proof.Proof.Finite
import proofs.«421473_j29283087024789_3_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and keeps its arguments. -/
theorem frame_k : Cert.frame_Kernel := fun m ρ _ => Cert.Kernel.Fr.frame m ρ

/-- The idealized kernel program runs and keeps its arguments. -/
theorem frame_ki : Cert.frame_KernelIdeal := fun m ρ _ => Cert.KernelIdeal.Fr.frame m ρ

/-- The idealized reference runs and keeps its arguments: its run, with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.ValueP.run (F := Ideal) m ρ)

/-- The idealization rewrote nothing. -/
theorem preserves : Cert.preserves_Kernel_KernelIdeal := trivial

open Cert.KernelIdeal Cert.KernelIdeal.Gen Cert.KernelIdeal.Fr in
/-- From memories that agree on the arguments, both idealized programs end with the reference's two stages of the
    arguments: the total and the count. -/
theorem algebraic : Cert.algebraic_KernelIdeal_ReferenceIdeal := by
  intro m ρ m' ρ' hpre hagree
  refine ⟨fun c => Cert.ReferenceIdeal.ReadP.val_main_v93 (F := Ideal) (m ((c.tc : Thread nD τ).loc main_arg0)) (m ((c.tc : Thread nD τ).loc main_arg1)),
    fun c => Cert.ReferenceIdeal.ReadP.val_main_v73 (F := Ideal) (m ((c.tc : Thread nD τ).loc main_arg1)), ?_, ?_⟩
  · refine (θ_run defs _ _).mono (fun r h c => ⟨?_, ?_, ?_, ?_⟩) (run_main (F := Ideal) m ρ)
    · refine ((h c).2 main_v82 (Pipeline.mem_restRefs_of main_v82 (by decide) (by decide))).trans ?_
      refine (Cert.KernelIdeal.Hv.tail_total m c).trans ?_
      exact Cert.Final.total_eq _ _ _ (fun b s l => Cert.KernelIdeal.Val.final1 m c b s l)
        (fun i => Cert.Finite.preds_real _ _ (hpre c) i)
    · refine ((h c).2 main_v46 (Pipeline.mem_restRefs_of main_v46 (by decide) (by decide))).trans ?_
      exact (Cert.KernelIdeal.Hv.tail_count m c).trans (Cert.Final.count_eq _)
    · exact ((h c).1 0).trans (((dats m 0 c).arrAt_in 0 rfl _).trans ((A_eq m c 0).trans (V_main_arg0 m c)))
    · exact ((h c).2 main_arg1 (Pipeline.mem_restRefs_of main_arg1 (by decide) (by decide))).trans (W_main_arg1 m (dats m) c)
  · refine (θ_run Cert.ReferenceIdeal.defs _ _).mono (fun r h c => ⟨(h c).1.trans ?_, (h c).2.1.trans ?_, (h c).2.2.1, (h c).2.2.2⟩)
      (Cert.ReferenceIdeal.ValueP.run (F := Ideal) m' ρ')
    · rw [Cert.ReferenceIdeal.ReadP.val_main_v93_eq, (hagree c).1, (hagree c).2]
    · rw [Cert.ReferenceIdeal.ReadP.val_main_v73_eq, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
